-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_alpha" .f32 0x41200000#32 ((134217728 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x64x64 : Shape := ⟨4, ![4, 3, 64, 64]⟩
abbrev S4x64x64x64 : Shape := ⟨4, ![4, 64, 64, 64]⟩
abbrev S_ : Shape := ⟨0, ![]⟩

class Facts : Prop where
  bcast_S_S4x3x64x64 : S_.BroadcastsInDim S4x3x64x64 (![] : Fin 0 → Fin S4x3x64x64.rank)
  reducesTo_S4x3x64x64_S_d0_1_2_3 : S4x3x64x64.ReducesTo [0, 1, 2, 3] S_
  h_S_ : 0 < S_.numel
  bcast_S_S4x64x64x64 : S_.BroadcastsInDim S4x64x64x64 (![] : Fin 0 → Fin S4x64x64x64.rank)
  reducesTo_S4x64x64x64_S_d0_1_2_3 : S4x64x64x64.ReducesTo [0, 1, 2, 3] S_

variable [Facts]

def fn {F : FTy → Type} [FloatOps F] (main_arg0 : FVec F S4x3x64x64 .f32) (main_arg1 : FVec F S4x64x64x64 .f32) : IVec S_ 1 :=
  let main_v0 : FVec F S4x3x64x64 .f32 := Host.absf main_arg0
  let main_cst : FVec F S_ .f32 := constant S_ .f32 0x7F800000#32
  let main_v1 : FVec F S4x3x64x64 .f32 := broadcastInDim S4x3x64x64 ![] bcast_S_S4x3x64x64 main_cst
  let main_v2 : IVec S4x3x64x64 1 := cmpf .olt main_v0 main_v1
  let main_c : IVec S_ 1 := constantI S_ 1 1#1
  let main_v3 : IVec S_ 1 := (fun x v => Host.reduce IntOp.andi x v reducesTo_S4x3x64x64_S_d0_1_2_3 h_S_) main_v2 main_c
  let main_v4 : FVec F S4x64x64x64 .f32 := Host.absf main_arg1
  let main_cst_0 : FVec F S_ .f32 := constant S_ .f32 0x7F800000#32
  let main_v5 : FVec F S4x64x64x64 .f32 := broadcastInDim S4x64x64x64 ![] bcast_S_S4x64x64x64 main_cst_0
  let main_v6 : IVec S4x64x64x64 1 := cmpf .olt main_v4 main_v5
  let main_c_1 : IVec S_ 1 := constantI S_ 1 1#1
  let main_v7 : IVec S_ 1 := (fun x v => Host.reduce IntOp.andi x v reducesTo_S4x64x64x64_S_d0_1_2_3 h_S_) main_v6 main_c_1
  let main_v8 : IVec S_ 1 := andi main_v3 main_v7
  main_v8
-- ==== Kernel.lean ====
abbrev S4x3x64x64 : Shape := ⟨4, ![4, 3, 64, 64]⟩
abbrev S4x64x64x64 : Shape := ⟨4, ![4, 64, 64, 64]⟩
abbrev S_ : Shape := ⟨0, ![]⟩
abbrev S4x66x66x64 : Shape := ⟨4, ![4, 66, 66, 64]⟩
abbrev S4x64x64x576 : Shape := ⟨4, ![4, 64, 64, 576]⟩
abbrev S4x4096x576 : Shape := ⟨3, ![4, 4096, 576]⟩
abbrev S4x2x64x64 : Shape := ⟨4, ![4, 2, 64, 64]⟩
abbrev S4x2x4096 : Shape := ⟨3, ![4, 2, 4096]⟩
abbrev S4x4096x2 : Shape := ⟨3, ![4, 4096, 2]⟩
abbrev S4x4096x1 : Shape := ⟨3, ![4, 4096, 1]⟩
abbrev S4x4096x3 : Shape := ⟨3, ![4, 4096, 3]⟩
abbrev S1x1024x576 : Shape := ⟨3, ![1, 1024, 576]⟩
abbrev S1x2048x576 : Shape := ⟨3, ![1, 2048, 576]⟩
abbrev S1x2048x3 : Shape := ⟨3, ![1, 2048, 3]⟩
abbrev S1x1024x2 : Shape := ⟨3, ![1, 1024, 2]⟩
abbrev S1024x1 : Shape := ⟨2, ![1024, 1]⟩
abbrev S1024x3 : Shape := ⟨2, ![1024, 3]⟩
abbrev S1024x576 : Shape := ⟨2, ![1024, 576]⟩
abbrev S2048x576 : Shape := ⟨2, ![2048, 576]⟩
abbrev S576x2048 : Shape := ⟨2, ![576, 2048]⟩
abbrev S1024x2048 : Shape := ⟨2, ![1024, 2048]⟩
abbrev S1024 : Shape := ⟨1, ![1024]⟩
abbrev S2048x3 : Shape := ⟨2, ![2048, 3]⟩
abbrev S1024x2 : Shape := ⟨2, ![1024, 2]⟩

abbrev nBuf : Space → Nat
  | .hbm => 28
  | .vmem => 10
  | .smem => 0
  | _ => 0

abbrev bufTy : (tb : Table) → Fin (tcTables nBuf tb) → BufTy
  | .hbm, ⟨0, _⟩ => ⟨S4x3x64x64, .f32⟩
  | .hbm, ⟨1, _⟩ => ⟨S4x64x64x64, .f32⟩
  | .hbm, ⟨2, _⟩ => ⟨S4x64x64x64, .f32⟩
  | .hbm, ⟨3, _⟩ => ⟨S4x64x64x64, .bf16⟩
  | .hbm, ⟨4, _⟩ => ⟨S_, .i32⟩
  | .hbm, ⟨5, _⟩ => ⟨S_, .bf16⟩
  | .hbm, ⟨6, _⟩ => ⟨S4x66x66x64, .bf16⟩
  | .hbm, ⟨7, _⟩ => ⟨S4x64x64x64, .bf16⟩
  | .hbm, ⟨8, _⟩ => ⟨S4x64x64x64, .bf16⟩
  | .hbm, ⟨9, _⟩ => ⟨S4x64x64x64, .bf16⟩
  | .hbm, ⟨10, _⟩ => ⟨S4x64x64x64, .bf16⟩
  | .hbm, ⟨11, _⟩ => ⟨S4x64x64x64, .bf16⟩
  | .hbm, ⟨12, _⟩ => ⟨S4x64x64x64, .bf16⟩
  | .hbm, ⟨13, _⟩ => ⟨S4x64x64x64, .bf16⟩
  | .hbm, ⟨14, _⟩ => ⟨S4x64x64x64, .bf16⟩
  | .hbm, ⟨15, _⟩ => ⟨S4x64x64x64, .bf16⟩
  | .hbm, ⟨16, _⟩ => ⟨S4x64x64x576, .bf16⟩
  | .hbm, ⟨17, _⟩ => ⟨S4x4096x576, .bf16⟩
  | .hbm, ⟨18, _⟩ => ⟨S4x2x64x64, .f32⟩
  | .hbm, ⟨19, _⟩ => ⟨S4x2x4096, .f32⟩
  | .hbm, ⟨20, _⟩ => ⟨S4x4096x2, .f32⟩
  | .hbm, ⟨21, _⟩ => ⟨S_, .f32⟩
  | .hbm, ⟨22, _⟩ => ⟨S4x4096x1, .f32⟩
  | .hbm, ⟨23, _⟩ => ⟨S4x4096x3, .f32⟩
  | .hbm, ⟨24, _⟩ => ⟨S4x4096x3, .bf16⟩
  | .hbm, ⟨25, _⟩ => ⟨S4x4096x2, .f32⟩
  | .hbm, ⟨26, _⟩ => ⟨S4x2x4096, .f32⟩
  | .hbm, ⟨27, _⟩ => ⟨S4x2x64x64, .f32⟩
  | .local _ .vmem, ⟨0, _⟩ => ⟨S1x1024x576, .bf16⟩
  | .local _ .vmem, ⟨1, _⟩ => ⟨S1x1024x576, .bf16⟩
  | .local _ .vmem, ⟨2, _⟩ => ⟨S1x2048x576, .bf16⟩
  | .local _ .vmem, ⟨3, _⟩ => ⟨S1x2048x576, .bf16⟩
  | .local _ .vmem, ⟨4, _⟩ => ⟨S1x2048x3, .bf16⟩
  | .local _ .vmem, ⟨5, _⟩ => ⟨S1x2048x3, .bf16⟩
  | .local _ .vmem, ⟨6, _⟩ => ⟨S1x1024x2, .f32⟩
  | .local _ .vmem, ⟨7, _⟩ => ⟨S1x1024x2, .f32⟩
  | .local _ .vmem, ⟨8, _⟩ => ⟨S1024x1, .f32⟩
  | .local _ .vmem, ⟨9, _⟩ => ⟨S1024x3, .f32⟩
  | _, _ => ⟨S4x3x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v34 : BitVec 1 := Scalar.cmpi .eq arg2 c1_i32
  let v35 : BitVec 32 := Scalar.extui v34
  let c0_i32_20 : BitVec 32 := 0#32
  let v36 : BitVec 1 := Scalar.cmpi .ne v35 c0_i32_20
  v36

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x576 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x576 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x2048x3 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x2 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  transposes_S4x64x64x64_S4x64x64x64_0_2_3_1 : S4x64x64x64.Transposes [0, 2, 3, 1] S4x64x64x64
  bitsLt_bf16_f32 : FTy.bits .bf16 < FTy.bits .f32
  pads_S4x64x64x64_S4x66x66x64_000_110_110_000 : S4x64x64x64.Pads (![0, 1, 1, 0] : Fin 4 → Nat) ![0, 1, 1, 0] ![0, 0, 0, 0] S4x66x66x64
  h_S_ : 0 < S_.numel
  slices_S4x66x66x64_S4x64x64x64_0_0_0_0 : S4x66x66x64.Slices ![0, 0, 0, 0] S4x64x64x64
  slices_S4x66x66x64_S4x64x64x64_0_0_1_0 : S4x66x66x64.Slices ![0, 0, 1, 0] S4x64x64x64
  slices_S4x66x66x64_S4x64x64x64_0_0_2_0 : S4x66x66x64.Slices ![0, 0, 2, 0] S4x64x64x64
  slices_S4x66x66x64_S4x64x64x64_0_1_0_0 : S4x66x66x64.Slices ![0, 1, 0, 0] S4x64x64x64
  slices_S4x66x66x64_S4x64x64x64_0_1_1_0 : S4x66x66x64.Slices ![0, 1, 1, 0] S4x64x64x64
  slices_S4x66x66x64_S4x64x64x64_0_1_2_0 : S4x66x66x64.Slices ![0, 1, 2, 0] S4x64x64x64
  slices_S4x66x66x64_S4x64x64x64_0_2_0_0 : S4x66x66x64.Slices ![0, 2, 0, 0] S4x64x64x64
  slices_S4x66x66x64_S4x64x64x64_0_2_1_0 : S4x66x66x64.Slices ![0, 2, 1, 0] S4x64x64x64
  slices_S4x66x66x64_S4x64x64x64_0_2_2_0 : S4x66x66x64.Slices ![0, 2, 2, 0] S4x64x64x64
  concatenates_S4x64x64x64_S4x64x64x64_S4x64x64x64_S4x64x64x64_S4x64x64x64_S4x64x64x64_S4x64x64x64_S4x64x64x64_S4x64x64x64_S4x64x64x576_d3 : Shape.Concatenates [S4x64x64x64, S4x64x64x64, S4x64x64x64, S4x64x64x64, S4x64x64x64, S4x64x64x64, S4x64x64x64, S4x64x64x64, S4x64x64x64] S4x64x64x576 3
  shapeCasts_S4x64x64x576_S4x4096x576 : S4x64x64x576.ShapeCasts S4x4096x576
  slices_S4x3x64x64_S4x2x64x64_0_1_0_0 : S4x3x64x64.Slices ![0, 1, 0, 0] S4x2x64x64
  shapeCasts_S4x2x64x64_S4x2x4096 : S4x2x64x64.ShapeCasts S4x2x4096
  transposes_S4x2x4096_S4x4096x2_0_2_1 : S4x2x4096.Transposes [0, 2, 1] S4x4096x2
  bcast_S_S4x4096x1 : S_.BroadcastsInDim S4x4096x1 (![] : Fin 0 → Fin S4x4096x1.rank)
  concatenates_S4x4096x2_S4x4096x1_S4x4096x3_d2 : Shape.Concatenates [S4x4096x2, S4x4096x1] S4x4096x3 2
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x3_S1024x3_0_0 : ∀ a, (![0, 0] : Fin 2 → Nat) a + S1024x3.size a ≤ S1024x3.size a
  h_S1024x3 : 0 < S1024x3.numel
  shapeCasts_S1024x3_S1024x3 : S1024x3.ShapeCasts S1024x3
  inb_S1x1024x576_S1x1024x576_0_0_0 : ∀ a, (![0, 0, 0] : Fin 3 → Nat) a + S1x1024x576.size a ≤ S1x1024x576.size a
  h_S1x1024x576 : 0 < S1x1024x576.numel
  shapeCasts_S1x1024x576_S1024x576 : S1x1024x576.ShapeCasts S1024x576
  inb_S1x2048x576_S1x2048x576_0_0_0 : ∀ a, (![0, 0, 0] : Fin 3 → Nat) a + S1x2048x576.size a ≤ S1x2048x576.size a
  h_S1x2048x576 : 0 < S1x2048x576.numel
  shapeCasts_S1x2048x576_S2048x576 : S1x2048x576.ShapeCasts S2048x576
  transposes_S2048x576_p1_0_S576x2048 : S2048x576.Transposes [1, 0] S576x2048
  reduces_S1024x2048_S1024 : S1024x2048.Reduces [1] S1024
  shapeCasts_S1024_S1024x1 : S1024.ShapeCasts S1024x1
  broadcasts_S1024x1_S1024x2048 : S1024x1.Broadcasts S1024x2048
  inb_S1x2048x3_S1x2048x3_0_0_0 : ∀ a, (![0, 0, 0] : Fin 3 → Nat) a + S1x2048x3.size a ≤ S1x2048x3.size a
  h_S1x2048x3 : 0 < S1x2048x3.numel
  shapeCasts_S1x2048x3_S2048x3 : S1x2048x3.ShapeCasts S2048x3
  broadcasts_S1024x1_S1024x3 : S1024x1.Broadcasts S1024x3
  slices_S1024x3_o0_2_S1024x1 : S1024x3.Slices ![0, 2] S1024x1
  slices_S1024x3_o0_0_S1024x2 : S1024x3.Slices ![0, 0] S1024x2
  broadcasts_S1024x1_S1024x2 : S1024x1.Broadcasts S1024x2
  inb_S1x1024x2_S1x1024x2_0_0_0 : ∀ a, (![0, 0, 0] : Fin 3 → Nat) a + S1x1024x2.size a ≤ S1x1024x2.size a
  h_S1x1024x2 : 0 < S1x1024x2.numel
  shapeCasts_S1x1024x2_S1024x2 : S1x1024x2.ShapeCasts S1024x2
  shapeCasts_S1024x2_S1x1024x2 : S1024x2.ShapeCasts S1x1024x2
  transposes_S4x4096x2_S4x2x4096_0_2_1 : S4x4096x2.Transposes [0, 2, 1] S4x2x4096
  shapeCasts_S4x2x4096_S4x2x64x64 : S4x2x4096.ShapeCasts S4x2x64x64
  dot_S1024x576_S576x2048_S1024x2048_1_0_0_1_n_n_wf : DotDims.WF S1024x576 S576x2048 S1024x2048 [1] [0] [0] [1] [] []
  dot_S1024x2048_S2048x3_S1024x3_1_0_0_1_n_n_wf : DotDims.WF S1024x2048 S2048x3 S1024x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x576.size a ≤ S4x4096x576.size a
  hwx0_0 : ∀ i : grid0.Coords, EltTy.bits .bf16 = 32 ∨ (Rect.block (s := S4x4096x576) S1x1024x576.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x576.size a ≤ S4x4096x576.size a
  hwx0_1 : ∀ i : grid0.Coords, EltTy.bits .bf16 = 32 ∨ (Rect.block (s := S4x4096x576) S1x2048x576.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x3.size a ≤ S4x4096x3.size a
  hwx0_2 : ∀ i : grid0.Coords, EltTy.bits .bf16 = 32 ∨ (Rect.block (s := S4x4096x3) S1x2048x3.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x2.size a ≤ S4x4096x2.size a
  hwx0_3 : ∀ i : grid0.Coords, EltTy.bits .f32 = 32 ∨ (Rect.block (s := S4x4096x2) S1x1024x2.size (cc0_transform_3 i) (hinb0_3 i)).WholeWords (EltTy.packing .f32)

variable [Facts₀]

def dot_S1024x576_S576x2048_S1024x2048_1_0_0_1_n_n : DotDims S1024x576 S576x2048 S1024x2048 where
  lhsContracting := [1]
  rhsContracting := [0]
  lhsNonContracting := [0]
  rhsNonContracting := [1]
  lhsBatch := []
  rhsBatch := []
  wf := dot_S1024x576_S576x2048_S1024x2048_1_0_0_1_n_n_wf
def dot_S1024x2048_S2048x3_S1024x3_1_0_0_1_n_n : DotDims S1024x2048 S2048x3 S1024x3 where
  lhsContracting := [1]
  rhsContracting := [0]
  lhsNonContracting := [0]
  rhsNonContracting := [1]
  lhsBatch := []
  rhsBatch := []
  wf := dot_S1024x2048_S2048x3_S1024x3_1_0_0_1_n_n_wf

abbrev win0_0 : Pipeline.Window sig grid0 :=
  Pipeline.Window.ofSpec (Memref.whole main_v13) S1x1024x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S1x2048x576.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S1x2048x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x1024x2.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S4x3x64x64 : Shape := ⟨4, ![4, 3, 64, 64]⟩
abbrev S4x64x64x64 : Shape := ⟨4, ![4, 64, 64, 64]⟩
abbrev S4x2x64x64 : Shape := ⟨4, ![4, 2, 64, 64]⟩
abbrev S4x2x4096 : Shape := ⟨3, ![4, 2, 4096]⟩
abbrev S4x4096x2 : Shape := ⟨3, ![4, 4096, 2]⟩
abbrev S_ : Shape := ⟨0, ![]⟩
abbrev S4x64x66x66 : Shape := ⟨4, ![4, 64, 66, 66]⟩
abbrev S4x576x64x64 : Shape := ⟨4, ![4, 576, 64, 64]⟩
abbrev S4x576x4096 : Shape := ⟨3, ![4, 576, 4096]⟩
abbrev S4x4096x4096 : Shape := ⟨3, ![4, 4096, 4096]⟩
abbrev S4x4096 : Shape := ⟨2, ![4, 4096]⟩
abbrev S4x4096x1 : Shape := ⟨3, ![4, 4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4x3x64x64, .f32⟩
  | .hbm, ⟨1, _⟩ => ⟨S4x64x64x64, .f32⟩
  | .hbm, ⟨2, _⟩ => ⟨S4x2x64x64, .f32⟩
  | .hbm, ⟨3, _⟩ => ⟨S4x2x4096, .f32⟩
  | .hbm, ⟨4, _⟩ => ⟨S4x4096x2, .f32⟩
  | .hbm, ⟨5, _⟩ => ⟨S_, .i32⟩
  | .hbm, ⟨6, _⟩ => ⟨S_, .f32⟩
  | .hbm, ⟨7, _⟩ => ⟨S4x64x66x66, .f32⟩
  | .hbm, ⟨8, _⟩ => ⟨S4x64x64x64, .f32⟩
  | .hbm, ⟨9, _⟩ => ⟨S4x64x64x64, .f32⟩
  | .hbm, ⟨10, _⟩ => ⟨S4x64x64x64, .f32⟩
  | .hbm, ⟨11, _⟩ => ⟨S4x64x64x64, .f32⟩
  | .hbm, ⟨12, _⟩ => ⟨S4x64x64x64, .f32⟩
  | .hbm, ⟨13, _⟩ => ⟨S4x64x64x64, .f32⟩
  | .hbm, ⟨14, _⟩ => ⟨S4x64x64x64, .f32⟩
  | .hbm, ⟨15, _⟩ => ⟨S4x64x64x64, .f32⟩
  | .hbm, ⟨16, _⟩ => ⟨S4x64x64x64, .f32⟩
  | .hbm, ⟨17, _⟩ => ⟨S4x576x64x64, .f32⟩
  | .hbm, ⟨18, _⟩ => ⟨S4x576x4096, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S_, .f32⟩
  | .hbm, ⟨24, _⟩ => ⟨S4x4096, .f32⟩
  | .hbm, ⟨25, _⟩ => ⟨S_, .f32⟩
  | .hbm, ⟨26, _⟩ => ⟨S4x4096, .f32⟩
  | .hbm, ⟨27, _⟩ => ⟨S4x4096, .f32⟩
  | .hbm, ⟨28, _⟩ => ⟨S4x4096x1, .f32⟩
  | .hbm, ⟨29, _⟩ => ⟨S4x4096x4096, .f32⟩
  | .hbm, ⟨30, _⟩ => ⟨S4x4096x4096, .f32⟩
  | .hbm, ⟨31, _⟩ => ⟨S4x4096x4096, .f32⟩
  | .hbm, ⟨32, _⟩ => ⟨S_, .f32⟩
  | .hbm, ⟨33, _⟩ => ⟨S4x4096, .f32⟩
  | .hbm, ⟨34, _⟩ => ⟨S4x4096x1, .f32⟩
  | .hbm, ⟨35, _⟩ => ⟨S4x4096x4096, .f32⟩
  | .hbm, ⟨36, _⟩ => ⟨S4x4096x4096, .f32⟩
  | .hbm, ⟨37, _⟩ => ⟨S4x4096x2, .f32⟩
  | .hbm, ⟨38, _⟩ => ⟨S4x2x4096, .f32⟩
  | .hbm, ⟨39, _⟩ => ⟨S4x2x64x64, .f32⟩
  | _, _ => ⟨S4x3x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_cst_1 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩

abbrev nD : Nat := 1
abbrev τ : Topo := Topo.v7x

variable {F : FTy → Type} [FloatOps F]

class Facts₀ : Prop where
  slices_S4x3x64x64_S4x2x64x64_0_1_0_0 : S4x3x64x64.Slices ![0, 1, 0, 0] S4x2x64x64
  shapeCasts_S4x2x64x64_S4x2x4096 : S4x2x64x64.ShapeCasts S4x2x4096
  transposes_S4x2x4096_S4x4096x2_0_2_1 : S4x2x4096.Transposes [0, 2, 1] S4x4096x2
  pads_S4x64x64x64_S4x64x66x66_000_000_110_110 : S4x64x64x64.Pads (![0, 0, 1, 1] : Fin 4 → Nat) ![0, 0, 1, 1] ![0, 0, 0, 0] S4x64x66x66
  h_S_ : 0 < S_.numel
  slices_S4x64x66x66_S4x64x64x64_0_0_0_0 : S4x64x66x66.Slices ![0, 0, 0, 0] S4x64x64x64
  slices_S4x64x66x66_S4x64x64x64_0_0_0_1 : S4x64x66x66.Slices ![0, 0, 0, 1] S4x64x64x64
  slices_S4x64x66x66_S4x64x64x64_0_0_0_2 : S4x64x66x66.Slices ![0, 0, 0, 2] S4x64x64x64
  slices_S4x64x66x66_S4x64x64x64_0_0_1_0 : S4x64x66x66.Slices ![0, 0, 1, 0] S4x64x64x64
  slices_S4x64x66x66_S4x64x64x64_0_0_1_1 : S4x64x66x66.Slices ![0, 0, 1, 1] S4x64x64x64
  slices_S4x64x66x66_S4x64x64x64_0_0_1_2 : S4x64x66x66.Slices ![0, 0, 1, 2] S4x64x64x64
  slices_S4x64x66x66_S4x64x64x64_0_0_2_0 : S4x64x66x66.Slices ![0, 0, 2, 0] S4x64x64x64
  slices_S4x64x66x66_S4x64x64x64_0_0_2_1 : S4x64x66x66.Slices ![0, 0, 2, 1] S4x64x64x64
  slices_S4x64x66x66_S4x64x64x64_0_0_2_2 : S4x64x66x66.Slices ![0, 0, 2, 2] S4x64x64x64
  concatenates_S4x64x64x64_S4x64x64x64_S4x64x64x64_S4x64x64x64_S4x64x64x64_S4x64x64x64_S4x64x64x64_S4x64x64x64_S4x64x64x64_S4x576x64x64_d1 : Shape.Concatenates [S4x64x64x64, S4x64x64x64, S4x64x64x64, S4x64x64x64, S4x64x64x64, S4x64x64x64, S4x64x64x64, S4x64x64x64, S4x64x64x64] S4x576x64x64 1
  shapeCasts_S4x576x64x64_S4x576x4096 : S4x576x64x64.ShapeCasts S4x576x4096
  bcast_S_S4x4096x4096 : S_.BroadcastsInDim S4x4096x4096 (![] : Fin 0 → Fin S4x4096x4096.rank)
  reducesTo_S4x4096x4096_S4x4096_d2 : S4x4096x4096.ReducesTo [2] S4x4096
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  transposes_S4x4096x2_S4x2x4096_0_2_1 : S4x4096x2.Transposes [0, 2, 1] S4x2x4096
  shapeCasts_S4x2x4096_S4x2x64x64 : S4x2x4096.ShapeCasts S4x2x64x64
  dot_S4x576x4096_S4x576x4096_S4x4096x4096_1_1_2_2_0_0_wf : DotDims.WF S4x576x4096 S4x576x4096 S4x4096x4096 [1] [1] [2] [2] [0] [0]
  dot_S4x4096x4096_S4x4096x2_S4x4096x2_2_1_1_2_0_0_wf : DotDims.WF S4x4096x4096 S4x4096x2 S4x4096x2 [2] [1] [1] [2] [0] [0]

variable [Facts₀]

def dot_S4x576x4096_S4x576x4096_S4x4096x4096_1_1_2_2_0_0 : DotDims S4x576x4096 S4x576x4096 S4x4096x4096 where
  lhsContracting := [1]
  rhsContracting := [1]
  lhsNonContracting := [2]
  rhsNonContracting := [2]
  lhsBatch := [0]
  rhsBatch := [0]
  wf := dot_S4x576x4096_S4x576x4096_S4x4096x4096_1_1_2_2_0_0_wf
def dot_S4x4096x4096_S4x4096x2_S4x4096x2_2_1_1_2_0_0 : DotDims S4x4096x4096 S4x4096x2 S4x4096x2 where
  lhsContracting := [2]
  rhsContracting := [1]
  lhsNonContracting := [1]
  rhsNonContracting := [2]
  lhsBatch := [0]
  rhsBatch := [0]
  wf := dot_S4x4096x4096_S4x4096x2_S4x4096x2_2_1_1_2_0_0_wf

class Facts : Prop extends Facts₀ where

variable [Facts]
-- ==== Proof.KI.Kit.lean ====
import proofs.«430516_j1580547968749_3_alg».proof.Proof.Gen.KernelIdeal.Launch
import proofs.«430516_j1580547968749_3_alg».proof.Proof.Gen.KernelIdeal.Skeleton
import proofs.«430516_j1580547968749_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-!
  What every module about this attention kernel's pipeline shares: the buffers' contents when the region
  is entered (the three stretches of host operations applied to the launch memory), @main as those
  stretches, the region, and the two operations after it; each window's block at a grid point; the two
  conditions of the body (first step of the key axis, last step of the key axis) in closed form over the
  32 grid points; where the output window is idle; and the staging and scratch memrefs by name.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations
    that build the patch features and the augmented values. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is three stretches of host operations, the region, and two more operations: it reduces to the
    region continued by the later two, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions over the grid -/

/-- The body's first conditional: this is the first step along the key axis (the running maximum and the
    accumulator are reset). -/
abbrev cond0_0 (i : grid0.Coords) : Prop :=
  (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The body's second conditional: this is the last step along the key axis (the quotient is stored). -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle, and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the even points the output window is idle (nothing is stored into it) -/
theorem idleAt0_3_A : ∀ t : Fin cfg0.N, t.val % 2 = 0 → cfg0.idle 3 (grid0.coords t) = true := by decide +kernel
/-- and not written back; -/
theorem noFlush0_3_A : ∀ t : Fin cfg0.N, t.val % 2 = 0 → (cfg0.win 3).flush t = false := by decide +kernel
/-- at the odd points it is live -/
theorem liveAt0_3_B : ∀ t : Fin cfg0.N, t.val % 2 = 1 → cfg0.idle 3 (grid0.coords t) = false := by decide +kernel
/-- and written back. -/
theorem flush0_3_B : ∀ t : Fin cfg0.N, t.val % 2 = 1 → (cfg0.win 3).flush t = true := by decide +kernel

/-! ## The staging and scratch memrefs -/

abbrev ms0_0 (t : Fin cfg0.N) : Memref sig .tc .vmem S1x1024x576 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x576 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x3 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x2 .f32 := win0_3.stage (cfg0.slots t 3)
abbrev hs0_3 (t : Fin cfg0.N) : (ms0_3 t).IsWhole := hstage0_3 ((cfg0.slots t 3).cast nbuf0_3)
/-- The running maximum's scratch, -/
abbrev scM0_0 : Memref sig .tc .vmem S1024x1 .f32 := Memref.whole cc0_scratch0
/-- and the accumulator's. -/
abbrev scM0_1 : Memref sig .tc .vmem S1024x3 .f32 := Memref.whole cc0_scratch1
abbrev VS0_0 : View sig .tc .vmem S1024x1 .f32 := (scM0_0).view
abbrev VS0_1 : View sig .tc .vmem S1024x3 .f32 := (scM0_1).view
abbrev VO0_3 : View sig .tc .vmem S1x1024x2 .f32 := (Memref.whole cc0_stg3_0 : Memref sig .tc .vmem S1x1024x2 .f32).view

/-- The region's plain invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Hand

end
-- ==== Proof.KI.Data.lean ====
import proofs.«430516_j1580547968749_3_alg».proof.Proof.KI.Kit

/-!
  The proof data of the attention kernel's pipeline.

  A grid point is (batch, query tile, key step) with two key steps per query tile, so the even points are first
  steps and the odd points last steps. At a first step the body resets the running maximum to -∞ and the
  accumulator to 0 and then makes one update from them; at a last step it updates from what the first step left
  and stores the quotient of the accumulator's first two columns by its third. So the two scratch buffers after
  any point are one update (`stepAt`) from the reset values at an even point, and one update from the previous
  point's at an odd one; the output's staging buffer after an odd point is the quotient of that accumulator.
-/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the scratch buffers and the output's buffer hold after each point -/

/-- One update of (running maximum, accumulator) at point `t` from the pair `(mp, ap)`: the new maximum over the
    point's key block, and the rescaled accumulator plus the block's weighted values. -/
def stepAt (c : Dev nD) (t : Fin cfg0.N) (mp : Vec F S1024x1 .f32) (ap : Vec F S1024x3 .f32) :
    Vec F S1024x1 .f32 × Vec F S1024x3 .f32 :=
  (k0_pay1 (k0_pay6 (iblk m c 0 t) (iblk m c 1 t) mp), k0_pay7 (iblk m c 0 t) (iblk m c 1 t) mp (iblk m c 2 t) ap)

/-- The two scratch buffers after point `n`: at an even point one update from the reset values, at an odd point
    one update from what the point before left. -/
def scAt (c : Dev nD) (n : ℕ) (h : n < cfg0.N) : Vec F S1024x1 .f32 × Vec F S1024x3 .f32 :=
  if n % 2 = 0 then stepAt m c ⟨n, h⟩ (k0_pay3 (F := F)) (k0_pay4 (F := F))
  else stepAt m c ⟨n, h⟩ (stepAt m c ⟨n - 1, by omega⟩ (k0_pay3 (F := F)) (k0_pay4 (F := F))).1
      (stepAt m c ⟨n - 1, by omega⟩ (k0_pay3 (F := F)) (k0_pay4 (F := F))).2

/-- The output window's staging buffer after point `t` (consulted at the odd points only): the quotient. -/
def outAt (c : Dev nD) (t : Fin cfg0.N) : Vec F S1x1024x2 .f32 := k0_pay2 (scAt m c t.val t.isLt).2

theorem scAt_even (c : Dev nD) (n : ℕ) (h : n < cfg0.N) (he : n % 2 = 0) :
    scAt m c n h = stepAt m c ⟨n, h⟩ (k0_pay3 (F := F)) (k0_pay4 (F := F)) := by
  unfold scAt; rw [if_pos he]

theorem scAt_odd (c : Dev nD) (n : ℕ) (h : n < cfg0.N) (ho : n % 2 = 1) :
    scAt m c n h = stepAt m c ⟨n, h⟩ (scAt m c (n - 1) (by omega)).1 (scAt m c (n - 1) (by omega)).2 := by
  have he : (n - 1) % 2 = 0 := by omega
  rw [scAt_even m c (n - 1) (by omega) he]
  unfold scAt; rw [if_neg (by omega)]

/-! ## The invariant between points -/

/-- Before point 0 the region's plain invariant (the scratch at anything); after point `n` the two scratch
    buffers at `scAt n`; always the generator register at some state. -/
def PhiS (c : Dev nD) : (n : ℕ) → n ≤ cfg0.N → sProp 𝕄
  | 0, _ => Pipeline.ΦA spec0 c
  | n + 1, h => iprop(iprop(owns (c : Thread nD τ) scM0_0 fullShare ((scAt m c n h).1) ∗ owns (c : Thread nD τ) scM0_1 fullShare ((scAt m c n h).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt m c n hn).1) ∗ owns (c : Thread nD τ) scM0_1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt m c (n - 1) (by omega)).1) ∗ owns (c : Thread nD τ) scM0_1 fullShare ((scAt m c (n - 1) (by omega)).2)) ∗ (∃ r, prngReg c r)) := by
  cases n with
  | zero => exact absurd rfl hz
  | succ n => rfl

/-! ## The pipeline's proof data -/

/-- The proof data on core `c`: the arrays as the region finds them; after the body each input's buffer still at
    its block and the output's at `outAt`; the invariant `PhiS`; nothing owed; the patch-feature array, which the
    query window and the key window both read, held half by each, the value array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]

end Cert.KernelIdeal.Hand

end
-- ==== Proof.KI.RunA.lean ====
import proofs.«430516_j1580547968749_3_alg».proof.Proof.KI.Kit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Reading back a whole buffer stored through the whole-shape rectangle -/

section Whole

variable {κ : Kind} {sp : Space} {S : Shape} {e : EltTy}

/-- After a store through the whole-shape rectangle at zero offsets, made last, a view of the shape reads the
    payload of that store, whatever was stored before and whatever the buffer held. -/
private theorem read_writes_unit_zero (v : View sig κ sp S e) (f : v.ty.Contents (Elt F)) {off : Fin S.rank → Nat}
    (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb w L]

/-- A load through the whole-shape rectangle of a whole memref's contents reads what the memref reads. -/
private theorem readAt_unit_zero_unread {m : Memref sig κ sp S e} (h : m.IsWhole) {off : Fin S.rank → Nat}
    (hz : off = fun _ => 0) (inb : ∀ a, off a + S.size a ≤ S.size a) (X : S.Idx → Elt F e) :
    m.view.readAt (Elt F) (Rect.unit off S.size inb).toLoadRect (h.unread X) = X := by
  show View.ld (m.view.read (Elt F) (h.unread X)) (Rect.unit off S.size inb) = X
  rw [h.read_unread, View.ld_unit_zero hz inb]

/-- A load through the whole-shape rectangle after a store through it, made last, reads that store's payload. -/
private theorem readCov_cons_unit_zero (v : View sig κ sp S e) {off : Fin S.rank → Nat}
    (hz : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.mem_cons_self, View.mem_set_unit_zero hz inb y⟩),
    View.canon_cons_unit_zero hz inb w L, View.ld_unit_zero hz inb]

end Whole

private theorem zeros2 : (![0, 0] : Fin 2 → Nat) = fun _ => 0 := by funext a; fin_cases a <;> rfl
private theorem zeros3 : (![0, 0, 0] : Fin 3 → Nat) = fun _ => 0 := by funext a; fin_cases a <;> rfl

set_option maxHeartbeats 1000000 in
/-- The body at a FIRST key step (the reset is taken, the final store is not), on any whole memrefs: the three
    input buffers at their contents and the output's buffer at its contents are handed back as they were; the
    two scratch buffers, found at anything, are left at one update from the reset values. -/
theorem run_A (c : Dev nD) (i : grid0.Coords) (arg3 : Memref sig .tc .vmem S1x1024x576 .bf16) (harg3 : arg3.IsWhole) (arg4 : Memref sig .tc .vmem S1x2048x576 .bf16) (harg4 : arg4.IsWhole) (arg5 : Memref sig .tc .vmem S1x2048x3 .bf16) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x3 .f32) (harg8 : arg8.IsWhole)
    (hc0 : cond0_0 i) (hc1 : ¬cond0_1 i)
    (x0 : Vec F S1x1024x576 .bf16) (x1 : Vec F S1x2048x576 .bf16) (x2 : Vec F S1x2048x3 .bf16) (y : Vec F S1x1024x2 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare y
            ∗ owns (c : Thread nD τ) arg7 fullShare (k0_pay1 (k0_pay6 x0 x1 (k0_pay3 (F := F))))
            ∗ owns (c : Thread nD τ) arg8 fullShare (k0_pay7 x0 x1 (k0_pay3 (F := F)) x2 (k0_pay4 (F := F)))) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%dm, %fm, -, HM⟩, ⟨%da, %fa, -, HA⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HM]
  · -- the running maximum's buffer: the reset value, then the updated maximum, stored last
    iexists _; isplitr; swap; · iexact HM
    ipureintro
    sl_unfold_run_names
    refine (read_writes_unit_zero (S := S1024x1) arg7.view fm zeros2 inb_S1024x1_S1024x1_0_0 _ _).trans ?_
    dsimp only
    rw [readAt_unit_zero_unread harg3 zeros3, readAt_unit_zero_unread harg4 zeros3, readCov_cons_unit_zero arg7.view zeros2]
  -- the accumulator's buffer: the reset value, then the updated accumulator, stored last
  iexists _; isplitr; swap; · iexact HA
  ipureintro
  sl_unfold_run_names
  refine (read_writes_unit_zero (S := S1024x3) arg8.view fa zeros2 inb_S1024x3_S1024x3_0_0 _ _).trans ?_
  rw [readAt_unit_zero_unread harg3 zeros3, readAt_unit_zero_unread harg4 zeros3, readAt_unit_zero_unread harg5 zeros3,
    readCov_cons_unit_zero arg7.view zeros2, readCov_cons_unit_zero arg8.view zeros2]

end Cert.KernelIdeal.Hand

end
-- ==== Proof.KI.RunB.lean ====
import proofs.«430516_j1580547968749_3_alg».proof.Proof.KI.Kit
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

/-! ## Reading back a whole buffer stored through the whole-shape rectangle -/

section Whole

variable {κ : Kind} {sp : Space} {S : Shape} {e : EltTy}

/-- After a store through the whole-shape rectangle at zero offsets, made last, a view of the shape reads the
    payload of that store, whatever was stored before and whatever the buffer held. -/
private theorem read_writes_unit_zero (v : View sig κ sp S e) (f : v.ty.Contents (Elt F)) {off : Fin S.rank → Nat}
    (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb w L]

/-- A load through the whole-shape rectangle of a whole memref's contents reads what the memref reads. -/
private theorem readAt_unit_zero_unread {m : Memref sig κ sp S e} (h : m.IsWhole) {off : Fin S.rank → Nat}
    (hz : off = fun _ => 0) (inb : ∀ a, off a + S.size a ≤ S.size a) (X : S.Idx → Elt F e) :
    m.view.readAt (Elt F) (Rect.unit off S.size inb).toLoadRect (h.unread X) = X := by
  show View.ld (m.view.read (Elt F) (h.unread X)) (Rect.unit off S.size inb) = X
  rw [h.read_unread, View.ld_unit_zero hz inb]

/-- A load through the whole-shape rectangle after a store through it, made last, reads that store's payload. -/
private theorem readCov_cons_unit_zero (v : View sig κ sp S e) {off : Fin S.rank → Nat}
    (hz : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.mem_cons_self, View.mem_set_unit_zero hz inb y⟩),
    View.canon_cons_unit_zero hz inb w L, View.ld_unit_zero hz inb]

end Whole

private theorem zeros2 : (![0, 0] : Fin 2 → Nat) = fun _ => 0 := by funext a; fin_cases a <;> rfl
private theorem zeros3 : (![0, 0, 0] : Fin 3 → Nat) = fun _ => 0 := by funext a; fin_cases a <;> rfl

set_option maxHeartbeats 1000000 in
/-- The body at a LAST key step (no reset, the final store is made), on any whole memrefs: the input buffers are
    handed back as they were; the scratch buffers, found at `(xm, xa)`, are left at one update from them; the
    output's buffer, found at anything, is left at the quotient of the updated accumulator. -/
theorem run_B (c : Dev nD) (i : grid0.Coords) (arg3 : Memref sig .tc .vmem S1x1024x576 .bf16) (harg3 : arg3.IsWhole) (arg4 : Memref sig .tc .vmem S1x2048x576 .bf16) (harg4 : arg4.IsWhole) (arg5 : Memref sig .tc .vmem S1x2048x3 .bf16) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x3 .f32) (harg8 : arg8.IsWhole)
    (hc0 : ¬cond0_0 i) (hc1 : cond0_1 i)
    (x0 : Vec F S1x1024x576 .bf16) (x1 : Vec F S1x2048x576 .bf16) (x2 : Vec F S1x2048x3 .bf16)
    (xm : Vec F S1024x1 .f32) (xa : Vec F S1024x3 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare xm ∗ owns (c : Thread nD τ) arg8 fullShare xa
        ∗ (iprop(owns (c : Thread nD τ) arg3 fullShare x0 ∗ owns (c : Thread nD τ) arg4 fullShare x1 ∗ owns (c : Thread nD τ) arg5 fullShare x2
            ∗ owns (c : Thread nD τ) arg6 fullShare (k0_pay2 (k0_pay7 x0 x1 xm x2 xa))
            ∗ owns (c : Thread nD τ) arg7 fullShare (k0_pay1 (k0_pay6 x0 x1 xm))
            ∗ owns (c : Thread nD τ) arg8 fullShare (k0_pay7 x0 x1 xm x2 xa)) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%fm, %hfm, HM⟩, ⟨%fa, %hfa, HA⟩, Hk⟩
  obtain rfl := harg3.eq_unread hf0; obtain rfl := harg4.eq_unread hf1; obtain rfl := harg5.eq_unread hf2
  obtain rfl := harg7.eq_unread hfm; obtain rfl := harg8.eq_unread hfa
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · -- the output's buffer: one store of the quotient of what the accumulator's buffer reads back
    iexists _; isplitr; swap; · iexact H3
    ipureintro
    sl_unfold_run_names
    refine (read_writes_unit_zero (S := S1x1024x2) arg6.view f3 zeros3 inb_S1x1024x2_S1x1024x2_0_0_0 _ []).trans ?_
    refine congrArg k0_pay2 ?_
    refine (readCov_cons_unit_zero (S := S1024x3) arg8.view zeros2 inb_S1024x3_S1024x3_0_0 _ []).trans ?_
    rw [readAt_unit_zero_unread harg3 zeros3, readAt_unit_zero_unread harg4 zeros3, readAt_unit_zero_unread harg7 zeros2,
      readAt_unit_zero_unread harg5 zeros3, readAt_unit_zero_unread harg8 zeros2]
  isplitl [HM]
  · -- the running maximum's buffer: one store of the updated maximum
    iexists _; isplitr; swap; · iexact HM
    ipureintro
    sl_unfold_run_names
    refine (read_writes_unit_zero (S := S1024x1) arg7.view _ zeros2 inb_S1024x1_S1024x1_0_0 _ []).trans ?_
    dsimp only
    rw [readAt_unit_zero_unread harg3 zeros3, readAt_unit_zero_unread harg4 zeros3, readAt_unit_zero_unread harg7 zeros2]
  -- the accumulator's buffer: one store of the updated accumulator
  iexists _; isplitr; swap; · iexact HA
  ipureintro
  sl_unfold_run_names
  refine (read_writes_unit_zero (S := S1024x3) arg8.view _ zeros2 inb_S1024x3_S1024x3_0_0 _ []).trans ?_
  rw [readAt_unit_zero_unread harg3 zeros3, readAt_unit_zero_unread harg4 zeros3, readAt_unit_zero_unread harg7 zeros2,
      readAt_unit_zero_unread harg5 zeros3, readAt_unit_zero_unread harg8 zeros2]

end Cert.KernelIdeal.Hand

end
-- ==== Proof.KI.Body.lean ====
import proofs.«430516_j1580547968749_3_alg».proof.Proof.KI.Data
import proofs.«430516_j1580547968749_3_alg».proof.Proof.KI.RunA
import proofs.«430516_j1580547968749_3_alg».proof.Proof.KI.RunB

/-! The body obligation of the attention kernel's pipeline: at every grid point the kernel function, called on
    the point's staging buffers and the two scratch buffers, takes the invariant before the point to the
    invariant after it and leaves each window's buffer at what the proof data say. At an even point (a first key
    step) the scratch buffers are found at anything and left at one update from the reset values, and the
    output's buffer is handed back untouched; at an odd point (a last key step) the scratch buffers are found at
    what the point before left, updated once more, and the output's buffer is left at the quotient. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the body finds in the input windows' buffers -/

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The scratch contents at a point, stated at the point itself -/

theorem scAt_even_at (c : Dev nD) (t : Fin cfg0.N) (he : t.val % 2 = 0) :
    scAt m c t.val t.isLt = stepAt m c t (k0_pay3 (F := F)) (k0_pay4 (F := F)) :=
  scAt_even m c t.val t.isLt he

theorem scAt_odd_at (c : Dev nD) (t : Fin cfg0.N) (ho : t.val % 2 = 1) :
    scAt m c t.val t.isLt = stepAt m c t (scAt m c (t.val - 1) (by have := t.isLt; omega)).1 (scAt m c (t.val - 1) (by have := t.isLt; omega)).2 :=
  scAt_odd m c t.val t.isLt ho

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point, by the point's parity. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 2 = 0
  · have h1 : ¬ t.val % 2 = 1 := by omega
    rw [Dat.leavesExact_idle (dats m 0 c) 3 t (idleAt0_3_A t h0) (noFlush0_3_A t h0)]
    rw [scAt_even_at m c t h0]
    unfold stepAt; dsimp only
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩⟩
      iapply (run_A c (grid0.coords t) _ _ _ _ _ _ _ _ _ _ _ _ ((hcond0_0 t).mpr h0) (fun h => h1 ((hcond0_1 t).mp h))
        (iblk m c 0 t) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply (run_A c (grid0.coords t) _ _ _ _ _ _ _ _ _ _ _ _ ((hcond0_0 t).mpr h0) (fun h => h1 ((hcond0_1 t).mp h))
        (iblk m c 0 t) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dats m 0 c).leavesExact 3 t = owns (c : Thread nD τ) (ms0_3 t) fullShare ((dats m 0 c).after 3 t) from by
      unfold Dat.leavesExact; rw [liveAt0_3_B t h1], after0_3]
    unfold outAt
    rw [scAt_odd_at m c t h1]
    unfold stepAt; dsimp only
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply (run_B c (grid0.coords t) _ _ _ _ _ _ _ _ _ _ _ _ (fun h => h0 ((hcond0_0 t).mp h)) ((hcond0_1 t).mpr h1)
      (iblk m c 0 t) (iblk m c 1 t) (iblk m c 2 t) _ _ Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain invariant back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

end Cert.KernelIdeal.Hand

end
-- ==== Proof.KI.Split.lean ====
import proofs.«430516_j1580547968749_3_alg».proof.Proof.KI.Data

/-! The patch-feature array is read through two windows at once. At the region's entry the three distinct
    buffers behind the four windows' arrays, each whole at the full share, are dealt to the windows: the
    patch-feature buffer's share is split in two halves, one for the query window and one for the key window;
    the value buffer goes whole to its window and the result buffer whole to the output window. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The windows' arrays are the three buffers of the patch features, the values and the result. -/
theorem arrRefs_eq : (Finset.univ.image (Pipeline.arrRef spec0) : Finset (Ref sig .tc)) = [main_v13, main_v19, main_v20].toFinset := by decide

/-- A window's array is a whole buffer: held over its elements it is the buffer's plain points-to. -/
theorem win_pt (c : Dev nD) (w : Fin 4) (q : PosShare TreeShare) (X : Buf (Elt F) ((cfg0.win w).arr.view.loc (c.tc : Thread nD τ))) :
    (View.loc (c.tc : Thread nD τ) (cfg0.win w).arr.view ↦[(cfg0.win w).arr.view.set]{q} X : sProp 𝕄)
      = ((c.tc : Thread nD τ).loc (Pipeline.arrRef spec0 w) ↦{q} X) := by
  rw [(arr_whole0 w).set_eq_univ]

/-- The shares the four windows hold their arrays at. -/
theorem share0_0 (c : Dev nD) : (dats m 0 c).share 0 = fullShare.left := by
  unfold Dat.share; rw [if_neg (by decide)]; exact q0_0 m c
theorem share0_1 (c : Dev nD) : (dats m 0 c).share 1 = fullShare.right := by
  unfold Dat.share; rw [if_neg (by decide)]; exact q0_1 m c
theorem share0_2 (c : Dev nD) : (dats m 0 c).share 2 = fullShare := by
  unfold Dat.share; rw [if_neg (by decide)]; exact q0_2 m c
theorem share0_3 (c : Dev nD) : (dats m 0 c).share 3 = fullShare := by
  unfold Dat.share; rw [if_pos (by decide)]

/-- The buffers behind the windows' arrays make the proof data's arrays at their entry contents. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v13, main_v19, main_v20] arrRefs_eq (by decide)]
  rw [bigSep_W0]
  rw [win_pt c 0, win_pt c 1, win_pt c 2, win_pt c 3, share0_0, share0_1, share0_2, share0_3]
  show iprop(((c.tc : Thread nD τ).loc main_v13 ↦{fullShare} V m c main_v13) ∗ ((c.tc : Thread nD τ).loc main_v19 ↦{fullShare} V m c main_v19) ∗ ((c.tc : Thread nD τ).loc main_v20 ↦{fullShare} V m c main_v20))
    ⊢ iprop(((c.tc : Thread nD τ).loc main_v13 ↦{fullShare.left} V m c main_v13) ∗ ((c.tc : Thread nD τ).loc main_v13 ↦{fullShare.right} V m c main_v13) ∗ ((c.tc : Thread nD τ).loc main_v19 ↦{fullShare} V m c main_v19) ∗ ((c.tc : Thread nD τ).loc main_v20 ↦{fullShare} V m c main_v20))
  iintro ⟨H13, H19, H20⟩
  ihave H := (pointsTo_share (PosShare.mem_left_op_right fullShare)).1 $$ H13
  icases H with ⟨Hl, Hr⟩
  isplitl [Hl]; · iexact Hl
  isplitl [Hr]; · iexact Hr
  isplitl [H19]; · iexact H19
  iexact H20

end Cert.KernelIdeal.Hand

end
-- ==== Proof.KI.Launch.lean ====
import proofs.«430516_j1580547968749_3_alg».proof.Proof.KI.Body
import proofs.«430516_j1580547968749_3_alg».proof.Proof.KI.Split

/-! The run of the whole program: the host operations, the pipelined region with the patch-feature array read
    through two windows at once, and the two host operations after it.

    The region is entered with the three distinct buffers behind the four windows' arrays dealt to the windows
    (the patch-feature buffer in two half shares). At its exit the two halves are joined again, so that the two
    operations after the region run over every unscoped buffer held whole; they read the region's output array and
    write two buffers that bypass the region, and afterwards the patch-feature buffer is split in halves again and
    the arrays are handed back as the region left them. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The two host operations after the region, as a function of the region's result array: exchange the last
    two axes and split the pixel axis into rows and columns. -/
def tailOut (X : (⟨S4x4096x2, .f32⟩ : BufTy).Contents (Elt F)) : (⟨S4x2x64x64, .f32⟩ : BufTy).Contents (Elt F) :=
  shapeCast S4x2x64x64 (transpose S4x2x4096 [0, 2, 1] X transposes_S4x4096x2_S4x2x4096_0_2_1) shapeCasts_S4x2x4096_S4x2x64x64

/-- The core's buffer contents when the region is left: the output array at what the write-backs leave in it,
    every other buffer as the region found it. -/
def Wx (c : Dev nD) : Valuation τ sig (Elt F) :=
  Function.update (V0 m c) (Proc.devRef .tc main_v20) ((dats m 0 c).arrAt 3 cfg0.N)

/-- The same after the two host operations that follow the region, read at a TensorCore reference. -/
def Wt (c : Dev nD) (b : Ref sig .tc) : Buf (Elt F) ((c.tc : Thread nD τ).loc b) :=
  StableHlo.after hostOps1 (Wx m c) (Proc.devRef .tc b)

/-! ## The arrays at the region's exit, and every unscoped buffer held whole -/

/-- At the region's exit the three input windows hold their arrays as they found them (an input array is never
    written back), the patch-feature buffer in two halves; the output window holds the result array whole at what
    the write-backs left. -/
theorem arrays_N (c : Dev nD) :
    ((dats m 0 c).arrays ((dats m 0 c).arrAt · cfg0.N) : sProp 𝕄)
      = iprop(((c.tc : Thread nD τ).loc main_v13 ↦{fullShare.left} V m c main_v13) ∗ ((c.tc : Thread nD τ).loc main_v13 ↦{fullShare.right} V m c main_v13) ∗ ((c.tc : Thread nD τ).loc main_v19 ↦{fullShare} V m c main_v19) ∗ ((c.tc : Thread nD τ).loc main_v20 ↦{fullShare} (dats m 0 c).arrAt 3 cfg0.N)) := by
  unfold Dat.arrays
  rw [bigSep_W0, win_pt c 0, win_pt c 1, win_pt c 2, win_pt c 3, share0_0, share0_1, share0_2, share0_3]
  beta_reduce
  rw [(dats m 0 c).arrAt_in 0 (by decide), (dats m 0 c).arrAt_in 1 (by decide), (dats m 0 c).arrAt_in 2 (by decide), A_eq, A_eq, A_eq]

/-- Every unscoped buffer of the core held whole at a valuation: the three buffers behind the windows' arrays and
    the buffers that bypass the region. -/
theorem held_uc (c : Dev nD) (W : Valuation τ sig (Elt F)) :
    (StableHlo.held (c.tc : Thread nD τ) (Pipeline.ucRefs τ sig) W : sProp 𝕄)
      = iprop((((c.tc : Thread nD τ).loc main_v13 ↦{fullShare} W (Proc.devRef .tc main_v13)) ∗ ((c.tc : Thread nD τ).loc main_v19 ↦{fullShare} W (Proc.devRef .tc main_v19)) ∗ ((c.tc : Thread nD τ).loc main_v20 ↦{fullShare} W (Proc.devRef .tc main_v20)))
          ∗ Pipeline.unscopedRest spec0 c (fun b => W (Proc.devRef .tc b))) := by
  rw [← Pipeline.unscopedBufs_held, Pipeline.unscopedBufs_split₀ cfgs 0 winFacts₀0.arr_unscoped]
  unfold Pipeline.arrBufs
  rw [bigSep_eq_bigSepL_of_eq [main_v13, main_v19, main_v20] arrRefs_eq (by decide)]
  rfl

/-- The exit contents at the result array, and at every other buffer. -/
theorem Wx_v20 (c : Dev nD) : Wx m c (Proc.devRef .tc main_v20) = (dats m 0 c).arrAt 3 cfg0.N :=
  Function.update_self ..

theorem Wx_ne (c : Dev nD) (b : Ref sig .tc) (h : b ≠ main_v20) : Wx m c (Proc.devRef .tc b) = V m c b :=
  Function.update_of_ne (StableHlo.devRef_ne_of_ne h) ..

/-- The buffers that bypass the region hold at its exit what they held at its entry: the result array is not one
    of them. -/
theorem rest_Wx (c : Dev nD) :
    (Pipeline.unscopedRest spec0 c (fun b => Wx m c (Proc.devRef .tc b)) : sProp 𝕄) = Pipeline.unscopedRest spec0 c (V m c) := by
  unfold Pipeline.unscopedRest
  exact bigSep_congr fun b hb => by
    beta_reduce
    rw [Wx_ne m c b fun e => (Finset.mem_sdiff.mp hb).2 (e ▸ Finset.mem_image.mpr ⟨3, Finset.mem_univ _, rfl⟩)]

/-! ## The two operations after the region -/

/-- They touch unscoped buffers only, -/
theorem hostOps1_in : ∀ ops ∈ [hostOps1 (F := F)], ∀ op ∈ ops, op.bufs ⊆ Pipeline.ucRefs τ sig := by
  intro ops hops op hop
  rw [List.mem_singleton] at hops; subst hops
  exact Pipeline.sub_ucRefs op ((List.forall_iff_forall_mem.mp hostOps1_sub) op hop)

/-- and allocate nothing. -/
theorem hostOps1_fr : ∀ ops ∈ [hostOps1 (F := F)], ∀ op ∈ ops, op.fresh = ∅ := by
  intro ops hops op hop
  rw [List.mem_singleton] at hops; subst hops
  exact (List.forall_iff_forall_mem.mp hostOps1_fresh) op hop

/-- The two operations after the region write the two buffers of the result's rearrangement only. -/
theorem tail_keeps (b : Ref sig .tc) (h1 : b ≠ main_v21) (h2 : b ≠ main_v22) (W : Valuation τ sig (Elt F)) :
    StableHlo.after hostOps1 W (Proc.devRef .tc b) = W (Proc.devRef .tc b) :=
  StableHlo.after_of_forall_not_mem _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))

/-- The continuation of the region: from the arrays at their final contents and the bypassing buffers at their entry
    contents, the two operations run and hand back the arrays unchanged and the bypassing buffers at the contents
    after the two operations. -/
theorem htail0 (c : Dev nD) (Q' : PUnit → sProp 𝕄) :
    iprop((iprop((dats m 0 c).arrays ((dats m 0 c).arrAt · cfg0.N) ∗ Pipeline.unscopedRest spec0 c (Wt m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs pcfgs defs₀) (Variants.lift Variants.none) (c.tc : Thread nD τ) none) Set.univ
          (Pipeline.chain [StableHlo.seq hostOps1]) Q' := by
  have hW : (StableHlo.held (c.tc : Thread nD τ) (Pipeline.ucRefs τ sig) (Wx m c) : sProp 𝕄)
      = iprop((((c.tc : Thread nD τ).loc main_v13 ↦{fullShare} V m c main_v13) ∗ ((c.tc : Thread nD τ).loc main_v19 ↦{fullShare} V m c main_v19) ∗ ((c.tc : Thread nD τ).loc main_v20 ↦{fullShare} (dats m 0 c).arrAt 3 cfg0.N))
          ∗ Pipeline.unscopedRest spec0 c (V m c)) := by
    rw [held_uc, rest_Wx, Wx_ne m c main_v13 (by decide), Wx_ne m c main_v19 (by decide), Wx_v20]
  have hW' : (StableHlo.held (c.tc : Thread nD τ) (Pipeline.ucRefs τ sig) (StableHlo.after [hostOps1].flatten (Wx m c)) : sProp 𝕄)
      = iprop((((c.tc : Thread nD τ).loc main_v13 ↦{fullShare} V m c main_v13) ∗ ((c.tc : Thread nD τ).loc main_v19 ↦{fullShare} V m c main_v19) ∗ ((c.tc : Thread nD τ).loc main_v20 ↦{fullShare} (dats m 0 c).arrAt 3 cfg0.N))
          ∗ Pipeline.unscopedRest spec0 c (Wt m c)) := by
    rw [held_uc, List.flatten_cons, List.flatten_nil, List.append_nil,
      tail_keeps main_v13 (by decide) (by decide), tail_keeps main_v19 (by decide) (by decide), tail_keeps main_v20 (by decide) (by decide),
      Wx_ne m c main_v13 (by decide), Wx_ne m c main_v19 (by decide), Wx_v20]
    rfl
  rw [arrays_N, show [StableHlo.seq (hostOps1 (F := F))] = [hostOps1].map StableHlo.seq ++ [] from rfl]
  iintro ⟨Hk, Hb, ⟨Hl, Hr, H19, H20⟩, HZ⟩
  ihave H13 := (pointsTo_share (PosShare.mem_left_op_right fullShare)).2 $$ [Hl Hr]
  · isplitl [Hl] <;> iassumption
  iapply (Pipeline.wp_seqs_then pcfgs defs₀ Variants.none c (Pipeline.ucRefs τ sig) [] [hostOps1] hostOps1_in hostOps1_fr (Wx m c)) $$ [Hb H13 H19 H20 HZ]
  · rw [hW]
    isplitl [Hb]; · iexact Hb
    isplitr [HZ]
    · isplitl [H13]; · iexact H13
      isplitl [H19] <;> iassumption
    · iexact HZ
  iintro Hb
  rw [Pipeline.chain_nil, wp_pure, hW']
  imodintro
  iapply Hk
  icases Hb with ⟨-, ⟨H13, H19, H20⟩, HZ⟩
  ihave H := (pointsTo_share (PosShare.mem_left_op_right fullShare)).1 $$ H13
  icases H with ⟨Hl, Hr⟩
  isplitr [HZ]
  · isplitl [Hl]; · iexact Hl
    isplitl [Hr]; · iexact Hr
    isplitl [H19] <;> iassumption
  · iexact HZ

/-! ## What the buffers hold at the end -/

/-- After the two operations the result buffer holds the rearrangement of the region's output array. -/
theorem Wt_v22 (c : Dev nD) : Wt m c main_v22 = tailOut ((dats m 0 c).arrAt 3 cfg0.N) := by
  unfold Wt tailOut
  dsimp only [hostOps1]
  open Idealize.ShloMosaic.StableHlo in after_results
  rw [Wx_v20]
  rfl

/-- No host operation, before or after the region, writes an argument array. -/
theorem Wt_arg0 (c : Dev nD) : Wt m c main_arg0 = m ((c.tc : Thread nD τ).loc main_arg0) := by
  unfold Wt
  rw [tail_keeps main_arg0 (by decide) (by decide), Wx_ne m c main_arg0 (by decide)]
  dsimp only [V, V0]
  simp only [hostOps0, hostOps0_1, hostOps0_2, List.flatten_cons, List.flatten_nil, List.append_nil, List.cons_append, List.nil_append]
  open Idealize.ShloMosaic.StableHlo in after_results

theorem Wt_arg1 (c : Dev nD) : Wt m c main_arg1 = m ((c.tc : Thread nD τ).loc main_arg1) := by
  unfold Wt
  rw [tail_keeps main_arg1 (by decide) (by decide), Wx_ne m c main_arg1 (by decide)]
  dsimp only [V, V0]
  simp only [hostOps0, hostOps0_1, hostOps0_2, List.flatten_cons, List.flatten_nil, List.append_nil, List.cons_append, List.nil_append]
  open Idealize.ShloMosaic.StableHlo in after_results

/-! ## The run -/

/-- Every weakly fair execution of @main terminates without a fault; the result array ends at the tail's
    function of what the pipeline's write-backs leave in the region's output array, and the two argument arrays
    end as they began. -/
theorem run_main : θ_run defs (onTc (τ := τ) (main (F := F))) (s₀ m ρ) (fun r => ∀ c : Dev nD,
      r.2.mem ((c.tc : Thread nD τ).loc main_v22) = tailOut ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  unfold defs
  exact Pipeline.θ_run_region_pf_tail pcfgs (fun q => (cfgs q).toPCfg_adm) (dats m) () cellOf_inj 0 winFacts₀0
    (Pipeline.OwnSemFacts.none spec0) (Pipeline.PreFacts.none spec0) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Wt m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail0 m c Q')
    (QY := fun c s => ∀ b ∈ Pipeline.restRefs sig spec0, s.mem ((c.tc : Thread nD τ).loc b) = Wt m c b)
    (hY := fun c s' => by
      iintro ⟨-, HU, HSI⟩
      unfold Pipeline.unscopedRest
      imodintro
      iapply (pointsTo_read_all (Pipeline.restRefs sig spec0) (fun b => (c.tc : Thread nD τ).loc b) (Wt m c) s')
      isplitl [HU] <;> iassumption)
    (hQ := fun s h c => by
      obtain ⟨-, -, hq⟩ := h c
      exact ⟨(hq main_v22 (Pipeline.mem_restRefs_of (win := spec0) main_v22 (by decide) (by decide))).trans (Wt_v22 m c),
        (hq main_arg0 (Pipeline.mem_restRefs_of (win := spec0) main_arg0 (by decide) (by decide))).trans (Wt_arg0 m c),
        (hq main_arg1 (Pipeline.mem_restRefs_of (win := spec0) main_arg1 (by decide) (by decide))).trans (Wt_arg1 m c)⟩)

end Cert.KernelIdeal.Hand

end
-- ==== Proof.KI.Cover.lean ====
import proofs.«430516_j1580547968749_3_alg».proof.Proof.KI.Launch
import Idealize.ShloMosaic.Lib.ValueIdx
import Idealize.ShloMosaic.Lib.Pipeline.Value

/-! From blocks to arrays, on the extended reals. The grid point with number `t` is batch `t / 8`, query tile
    `t / 2 % 4`, key step `t % 2`. The query window's block there is rows `1024·(t / 2 % 4) …` of batch `t / 8` of
    the patch-feature array, the key and value windows' blocks rows `2048·(t % 2) …` of their arrays; the output
    window's block of batch `b`, query tile `q` is written back once, at the point `8·b + 2·q + 1`, so the result
    array after the run holds there what that point left. The two operations after the region exchange the last
    two axes and split the pixel axis. -/

set_option maxRecDepth 16384

noncomputable section

namespace Cert.KernelIdeal.Cover

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Hand

variable (m : (ℓ : Loc nD τ sig) → Buf (Elt Ideal) ℓ)

/-- The point at which the output block of batch `b`, query tile `q` is written back. -/
def tOf (b : Fin 4) (q : Fin 4) : Fin cfg0.N := ⟨8 * b.val + 2 * q.val + 1, by have hN : cfg0.N = 32 := N_0; have := b.isLt; have := q.isLt; show _ < cfg0.N; omega⟩

/-! ## The windows' block indices over the grid

A block's coordinate on an axis of its array is the block index there times the block's size plus the
coordinate inside the block. -/

/-- The query window's block index at point `t`: batch `t / 8`, query tile `t / 2 % 4`, feature block `0`. -/
theorem idx_facts0 : ∀ t : Fin cfg0.N, win0_0.index t (0 : Fin 3) = t.val / 8
    ∧ win0_0.index t (1 : Fin 3) = t.val / 2 % 4 ∧ win0_0.index t (2 : Fin 3) = 0 :=
  (by decide +kernel : ∀ t : Fin grid0.N, _)

/-- The key window's block index at point `t`: batch `t / 8`, key step `t % 2`, feature block `0`. -/
theorem idx_facts1 : ∀ t : Fin cfg0.N, win0_1.index t (0 : Fin 3) = t.val / 8
    ∧ win0_1.index t (1 : Fin 3) = t.val % 2 ∧ win0_1.index t (2 : Fin 3) = 0 :=
  (by decide +kernel : ∀ t : Fin grid0.N, _)

/-- The value window's block index at point `t`: batch `t / 8`, key step `t % 2`, column block `0`. -/
theorem idx_facts2 : ∀ t : Fin cfg0.N, win0_2.index t (0 : Fin 3) = t.val / 8
    ∧ win0_2.index t (1 : Fin 3) = t.val % 2 ∧ win0_2.index t (2 : Fin 3) = 0 :=
  (by decide +kernel : ∀ t : Fin grid0.N, _)

/-- The output window's block index at point `t`: batch `t / 8`, query tile `t / 2 % 4`, channel block `0`. -/
theorem idx_facts3 : ∀ t : Fin cfg0.N, win0_3.index t (0 : Fin 3) = t.val / 8
    ∧ win0_3.index t (1 : Fin 3) = t.val / 2 % 4 ∧ win0_3.index t (2 : Fin 3) = 0 :=
  (by decide +kernel : ∀ t : Fin grid0.N, _)

/-! ## The input windows' blocks -/

/-- The query window's block at point `t` of any array of the patch features' shape, at row `r`, feature `k`. -/
theorem read_blk0 (X : S4x4096x576.Idx → EReal) (t : Fin cfg0.N) (r : Fin 1024) (k : Fin 576) :
    (((cfg0.win 0).blk t).view.read (Elt Ideal) X : S1x1024x576.Idx → EReal) (ix3 (0 : Fin 1) r k)
      = X (ix3 (⟨t.val / 8, by have hN : cfg0.N = 32 := N_0; have := t.isLt; omega⟩ : Fin 4) (⟨1024 * (t.val / 2 % 4) + r.val, by have := r.isLt; omega⟩ : Fin 4096) k) := by
  rw [View.read_apply]
  show X (((cfg0.win 0).blk t).view.emb (ix3 (0 : Fin 1) r k)) = X _
  refine congrArg X ?_
  obtain ⟨e0, e1, e2⟩ := idx_facts0 t
  funext a; apply Fin.ext
  match a with
  | ⟨0, _⟩ => show win0_0.index t (0 : Fin 3) * 1 + 1 * 0 = t.val / 8; omega
  | ⟨1, _⟩ => show win0_0.index t (1 : Fin 3) * 1024 + 1 * r.val = 1024 * (t.val / 2 % 4) + r.val; omega
  | ⟨2, _⟩ => show win0_0.index t (2 : Fin 3) * 576 + 1 * k.val = k.val; omega

/-- The key window's block at point `t` of any array of the patch features' shape, at row `j`, feature `k`. -/
theorem read_blk1 (X : S4x4096x576.Idx → EReal) (t : Fin cfg0.N) (j : Fin 2048) (k : Fin 576) :
    (((cfg0.win 1).blk t).view.read (Elt Ideal) X : S1x2048x576.Idx → EReal) (ix3 (0 : Fin 1) j k)
      = X (ix3 (⟨t.val / 8, by have hN : cfg0.N = 32 := N_0; have := t.isLt; omega⟩ : Fin 4) (⟨2048 * (t.val % 2) + j.val, by have := j.isLt; omega⟩ : Fin 4096) k) := by
  rw [View.read_apply]
  show X (((cfg0.win 1).blk t).view.emb (ix3 (0 : Fin 1) j k)) = X _
  refine congrArg X ?_
  obtain ⟨e0, e1, e2⟩ := idx_facts1 t
  funext a; apply Fin.ext
  match a with
  | ⟨0, _⟩ => show win0_1.index t (0 : Fin 3) * 1 + 1 * 0 = t.val / 8; omega
  | ⟨1, _⟩ => show win0_1.index t (1 : Fin 3) * 2048 + 1 * j.val = 2048 * (t.val % 2) + j.val; omega
  | ⟨2, _⟩ => show win0_1.index t (2 : Fin 3) * 576 + 1 * k.val = k.val; omega

/-- The value window's block at point `t` of any array of the value array's shape, at row `j`, column `e`. -/
theorem read_blk2 (X : S4x4096x3.Idx → EReal) (t : Fin cfg0.N) (j : Fin 2048) (e : Fin 3) :
    (((cfg0.win 2).blk t).view.read (Elt Ideal) X : S1x2048x3.Idx → EReal) (ix3 (0 : Fin 1) j e)
      = X (ix3 (⟨t.val / 8, by have hN : cfg0.N = 32 := N_0; have := t.isLt; omega⟩ : Fin 4) (⟨2048 * (t.val % 2) + j.val, by have := j.isLt; omega⟩ : Fin 4096) e) := by
  rw [View.read_apply]
  show X (((cfg0.win 2).blk t).view.emb (ix3 (0 : Fin 1) j e)) = X _
  refine congrArg X ?_
  obtain ⟨e0, e1, e2⟩ := idx_facts2 t
  funext a; apply Fin.ext
  match a with
  | ⟨0, _⟩ => show win0_2.index t (0 : Fin 3) * 1 + 1 * 0 = t.val / 8; omega
  | ⟨1, _⟩ => show win0_2.index t (1 : Fin 3) * 2048 + 1 * j.val = 2048 * (t.val % 2) + j.val; omega
  | ⟨2, _⟩ => show win0_2.index t (2 : Fin 3) * 3 + 1 * e.val = e.val; omega

/-- The query block at point `t`, row `r`, feature `k`. -/
theorem iblk0_apply (c : Dev nD) (t : Fin cfg0.N) (r : Fin 1024) (k : Fin 576) :
    (iblk m c 0 t : S1x1024x576.Idx → EReal) (ix3 (0 : Fin 1) r k)
      = (V m c main_v13 : S4x4096x576.Idx → EReal)
          (ix3 (⟨t.val / 8, by have hN : cfg0.N = 32 := N_0; have := t.isLt; omega⟩ : Fin 4) (⟨1024 * (t.val / 2 % 4) + r.val, by have := r.isLt; omega⟩ : Fin 4096) k) := by
  unfold iblk
  exact read_blk0 _ t r k

/-- The key block at point `t`, row `j`, feature `k`. -/
theorem iblk1_apply (c : Dev nD) (t : Fin cfg0.N) (j : Fin 2048) (k : Fin 576) :
    (iblk m c 1 t : S1x2048x576.Idx → EReal) (ix3 (0 : Fin 1) j k)
      = (V m c main_v13 : S4x4096x576.Idx → EReal)
          (ix3 (⟨t.val / 8, by have hN : cfg0.N = 32 := N_0; have := t.isLt; omega⟩ : Fin 4) (⟨2048 * (t.val % 2) + j.val, by have := j.isLt; omega⟩ : Fin 4096) k) := by
  unfold iblk
  exact read_blk1 _ t j k

/-- The value block at point `t`, row `j`, column `e`. -/
theorem iblk2_apply (c : Dev nD) (t : Fin cfg0.N) (j : Fin 2048) (e : Fin 3) :
    (iblk m c 2 t : S1x2048x3.Idx → EReal) (ix3 (0 : Fin 1) j e)
      = (V m c main_v19 : S4x4096x3.Idx → EReal)
          (ix3 (⟨t.val / 8, by have hN : cfg0.N = 32 := N_0; have := t.isLt; omega⟩ : Fin 4) (⟨2048 * (t.val % 2) + j.val, by have := j.isLt; omega⟩ : Fin 4096) e) := by
  unfold iblk
  exact read_blk2 _ t j e

/-! ## The output window's write-backs -/

/-- One array assembled from a block per point: at batch `b`, pixel `p`, channel `cc` it holds row `p % 1024`,
    channel `cc` of the block of the point that writes back batch `b`, query tile `p / 1024`. -/
def Gout (O : Fin cfg0.N → S1x1024x2.Idx → EReal) : S4x4096x2.Idx → EReal := fun i =>
  O (tOf (i 0) ⟨(i 1).val / 1024, by have h : (i 1).val < 4096 := (i 1).isLt; omega⟩)
    (ix3 (0 : Fin 1) (⟨(i 1).val % 1024, Nat.mod_lt _ (by decide)⟩ : Fin 1024) (i 2))

theorem Gout_ix3 (O : Fin cfg0.N → S1x1024x2.Idx → EReal) (b : Fin 4) (p : Fin 4096) (cc : Fin 2) :
    Gout O (ix3 b p cc)
      = O (tOf b ⟨p.val / 1024, by have := p.isLt; omega⟩)
          (ix3 (0 : Fin 1) (⟨p.val % 1024, Nat.mod_lt _ (by decide)⟩ : Fin 1024) cc) := rfl

/-- Equal point numbers and equal coordinates give the same element of the same block. -/
theorem O_congr (O : Fin cfg0.N → S1x1024x2.Idx → EReal) {t t' : Fin cfg0.N} (h : t.val = t'.val)
    {x x' : S1x1024x2.Idx} (hx : ∀ a, (x a).val = (x' a).val) : O t x = O t' x' := by
  have e : t = t' := Fin.ext h
  subst e
  exact congrArg _ (funext fun a => Fin.ext (hx a))

/-- At an odd point `t` the output window's block of the assembled array is the block given for `t`: every
    index of that block has batch `t / 8` and pixel in query tile `t / 2 % 4`, and `8·(t / 8) + 2·(t / 2 % 4) + 1 = t`. -/
theorem read_blk3_Gout (O : Fin cfg0.N → S1x1024x2.Idx → EReal) (t : Fin cfg0.N) (hodd : t.val % 2 = 1) :
    ((cfg0.win 3).blk t).view.read (Elt Ideal) (Gout O) = (cfg0.win 3).cut (grid0.coords t) (O t) := by
  have hN : cfg0.N = 32 := N_0
  have ht : t.val < 32 := hN ▸ t.isLt
  obtain ⟨e0, e1, e2⟩ := idx_facts3 t
  funext y
  rw [View.read_apply]
  have h0 : (y 0).val < 1 := (y 0).isLt
  have h1 : (y 1).val < 1024 := (y 1).isLt
  have h2 : (y 2).val < 2 := (y 2).isLt
  have hemb : ((cfg0.win 3).blk t).view.emb y
      = ix3 (⟨t.val / 8, by omega⟩ : Fin 4) (⟨1024 * (t.val / 2 % 4) + (y 1).val, by omega⟩ : Fin 4096) (⟨(y 2).val, h2⟩ : Fin 2) := by
    funext a; apply Fin.ext
    match a with
    | ⟨0, _⟩ => show win0_3.index t (0 : Fin 3) * 1 + 1 * (y 0).val = t.val / 8; omega
    | ⟨1, _⟩ => show win0_3.index t (1 : Fin 3) * 1024 + 1 * (y 1).val = 1024 * (t.val / 2 % 4) + (y 1).val; omega
    | ⟨2, _⟩ => show win0_3.index t (2 : Fin 3) * 2 + 1 * (y 2).val = (y 2).val; omega
  show Gout O (((cfg0.win 3).blk t).view.emb y) = O t ((cfg0.win 3).xinj (grid0.coords t) y)
  rw [hemb, Gout_ix3]
  refine O_congr O ?_ ?_
  · show 8 * (t.val / 8) + 2 * ((1024 * (t.val / 2 % 4) + (y 1).val) / 1024) + 1 = t.val
    omega
  · intro a
    match a with
    | ⟨0, _⟩ => show 0 = (y 0).val; omega
    | ⟨1, _⟩ => show (1024 * (t.val / 2 % 4) + (y 1).val) % 1024 = (y 1).val; omega
    | ⟨2, _⟩ => rfl

/-- What an odd point writes back is its block of the array assembled from the blocks the points leave. -/
theorem flushed3_eq (c : Dev nD) (t : Fin cfg0.N) (hf : (cfg0.win 3).flush t = true) :
    (dats m 0 c).flushed 3 t = ((cfg0.win 3).blk t).view.read (Elt Ideal) (Gout (fun u => outAt m c u)) := by
  have hodd : t.val % 2 = 1 := by
    by_contra h
    have h0 := noFlush0_3_A t (by omega)
    rw [h0] at hf
    exact Bool.noConfusion hf
  rw [read_blk3_Gout (fun u => outAt m c u) t hodd]
  show (cfg0.win 3).cut (grid0.coords t) ((dats m 0 c).after 3 t) = _
  rw [after0_3]

/-- An index of the result array is in point `t`'s block iff each coordinate is in the block's range on its axis. -/
theorem mem_blk3 (t : Fin cfg0.N) (i : S4x4096x2.Idx) :
    i ∈ ((cfg0.win 3).blk t).view.set ↔ ∀ a : Fin 3, win0_3.index t a * S1x1024x2.size a ≤ (i a).val
      ∧ (i a).val < win0_3.index t a * S1x1024x2.size a + S1x1024x2.size a := by
  show i ∈ ((View.whole main_v20).slice (win0_3.rect t)).set ↔ _
  rw [View.set_slice_whole, Rect.mem_set_unit]
  exact Iff.rfl

/-- The region's result array after the run, at batch `b`, pixel `p`, channel `cc`: what the last key step of
    `p`'s query tile left in the output window's buffer, at row `p % 1024`. -/
theorem arrAt_out (c : Dev nD) (b : Fin 4) (p : Fin 4096) (cc : Fin 2) :
    ((dats m 0 c).arrAt 3 cfg0.N : S4x4096x2.Idx → EReal) (ix3 b p cc)
      = (outAt m c (tOf b ⟨p.val / 1024, by have := p.isLt; omega⟩) : S1x1024x2.Idx → EReal)
          (ix3 (0 : Fin 1) (⟨p.val % 1024, Nat.mod_lt _ (by decide)⟩ : Fin 1024) cc) := by
  have hN : cfg0.N = 32 := N_0
  have hb := b.isLt
  have hp := p.isLt
  have hc := cc.isLt
  obtain ⟨t, ht⟩ : ∃ t : Fin cfg0.N, t = tOf b ⟨p.val / 1024, by omega⟩ := ⟨_, rfl⟩
  have tv : t.val = 8 * b.val + 2 * (p.val / 1024) + 1 := by rw [ht]; rfl
  have hf : (cfg0.win 3).flush t = true := flush0_3_B t (by omega)
  have hi : (ix3 b p cc : S4x4096x2.Idx) ∈ ((cfg0.win 3).blk t).view.set := by
    rw [mem_blk3]
    obtain ⟨e0, e1, e2⟩ := idx_facts3 t
    intro a
    match a with
    | ⟨0, _⟩ => show win0_3.index t (0 : Fin 3) * 1 ≤ b.val ∧ b.val < win0_3.index t (0 : Fin 3) * 1 + 1; omega
    | ⟨1, _⟩ => show win0_3.index t (1 : Fin 3) * 1024 ≤ p.val ∧ p.val < win0_3.index t (1 : Fin 3) * 1024 + 1024; omega
    | ⟨2, _⟩ => show win0_3.index t (2 : Fin 3) * 2 ≤ cc.val ∧ cc.val < win0_3.index t (2 : Fin 3) * 2 + 2; omega
  have key := (dats m 0 c).arrAt_apply_of_mem 3 (Gout (fun u => outAt m c u)) (fun u hu => flushed3_eq m c u hu)
    cfg0.N t (ix3 b p cc) t.isLt hf hi
  exact key.trans (Gout_ix3 (fun u => outAt m c u) b p cc)

/-- The two operations after the region, at an index. -/
theorem tailOut_apply (X : S4x4096x2.Idx → EReal) (b : Fin 4) (cc : Fin 2) (h w : Fin 64) :
    (tailOut (F := Ideal) X : S4x2x64x64.Idx → EReal) (ix4 b cc h w)
      = X (ix3 b (⟨64 * h.val + w.val, by have := h.isLt; have := w.isLt; omega⟩ : Fin 4096) cc) := by
  unfold tailOut
  refine (shapeCast_apply _ shapeCasts_S4x2x4096_S4x2x64x64 (ix4 b cc h w)
    (ix3 b cc (⟨64 * h.val + w.val, by have := h.isLt; have := w.isLt; omega⟩ : Fin 4096)) ?_).trans ?_
  · rw [Shape.rowMajor_val_three, Shape.rowMajor_val_four]
    show (b.val * 2 + cc.val) * 4096 + (64 * h.val + w.val) = ((b.val * 2 + cc.val) * 64 + h.val) * 64 + w.val
    omega
  · exact transpose_apply [0, 2, 1] X transposes_S4x4096x2_S4x2x4096_0_2_1 _
      (ix3 b (⟨64 * h.val + w.val, by have := h.isLt; have := w.isLt; omega⟩ : Fin 4096) cc)
      (fun a => match a with
        | ⟨0, _⟩ => rfl
        | ⟨1, _⟩ => rfl
        | ⟨2, _⟩ => rfl)

end Cert.KernelIdeal.Cover

end
-- ==== Proof.KI.Payload.lean ====
import proofs.«430516_j1580547968749_3_alg».proof.Proof.Gen.KernelIdeal.Skeleton
import Idealize.ShloMosaic.PureOps.Ideal.Laws
import Idealize.ShloMosaic.PureOps.IdealRules
import Idealize.ShloMosaic.Lib.ValueIdx
import Idealize.ShloMosaic.Lib.Pipeline.Value
import Idealize.ShloMosaic.Lib.ValueLayout

/-! The attention body's arithmetic at one element, on the extended reals: the scaled score is an inner product
    over the 576 patch features times the temperature's reciprocal; the new running maximum is the old one
    against the largest score of the key block; the new accumulator is the old one rescaled plus the key block's
    exponentials against its values; the stored quotient divides the first two accumulator columns by the third. -/

noncomputable section

open scoped BigOperators

namespace Cert.KernelIdeal.Payload

open Idealize.ShloMosaic Idealize.ShloMosaic.TcCoe Idealize.ShloMosaic.ValueIdx Idealize.SL.Sem
open Cert.KernelIdeal Cert.KernelIdeal.Gen

/-- The temperature's exact reciprocal, which the kernel's named constant denotes. -/
def inv : EReal := ((134217728 / 13421773 : ℝ) : EReal)

/-! ## Column forms of the layout operations, read at coordinates -/

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-! ## The two matrix products onto a zero accumulator, read at coordinates -/

theorem lhs_score_0 (i : S1024x2048.Idx) (q : dot_S1024x576_S576x2048_S1024x2048_1_0_0_1_n_n.contr.Idx) :
    (dot_S1024x576_S576x2048_S1024x2048_1_0_0_1_n_n.lhsIdx i q 0).val = (i 0).val := by
  unfold DotDims.lhsIdx
  rw [dif_neg (show ¬(0 : Fin S1024x576.rank) ∈ dot_S1024x576_S576x2048_S1024x2048_1_0_0_1_n_n.lhsBatch by decide), dif_pos (show (0 : Fin S1024x576.rank) ∈ dot_S1024x576_S576x2048_S1024x2048_1_0_0_1_n_n.lhsNonContracting by decide)]
  rfl
theorem lhs_score_1 (i : S1024x2048.Idx) (q : dot_S1024x576_S576x2048_S1024x2048_1_0_0_1_n_n.contr.Idx) :
    (dot_S1024x576_S576x2048_S1024x2048_1_0_0_1_n_n.lhsIdx i q 1).val = (q ⟨0, by decide⟩).val :=
  dot_S1024x576_S576x2048_S1024x2048_1_0_0_1_n_n.lhsIdx_val_of_single rfl i q
theorem rhs_score_0 (i : S1024x2048.Idx) (q : dot_S1024x576_S576x2048_S1024x2048_1_0_0_1_n_n.contr.Idx) :
    (dot_S1024x576_S576x2048_S1024x2048_1_0_0_1_n_n.rhsIdx i q 0).val = (q ⟨0, by decide⟩).val :=
  dot_S1024x576_S576x2048_S1024x2048_1_0_0_1_n_n.rhsIdx_val_of_single rfl i q
theorem rhs_score_1 (i : S1024x2048.Idx) (q : dot_S1024x576_S576x2048_S1024x2048_1_0_0_1_n_n.contr.Idx) :
    (dot_S1024x576_S576x2048_S1024x2048_1_0_0_1_n_n.rhsIdx i q 1).val = (i 1).val := by
  unfold DotDims.rhsIdx
  rw [dif_neg (show ¬(1 : Fin S576x2048.rank) ∈ dot_S1024x576_S576x2048_S1024x2048_1_0_0_1_n_n.rhsBatch by decide), dif_pos (show (1 : Fin S576x2048.rank) ∈ dot_S1024x576_S576x2048_S1024x2048_1_0_0_1_n_n.rhsNonContracting by decide)]
  rfl

/-- The query block against the transposed key block: entry `(r, c)` is the inner product of row `r` with column `c` over the 576 features. -/
theorem score_apply {φ₁ φ₂ : FTy} (a : FVec Ideal S1024x576 φ₁) (b : FVec Ideal S576x2048 φ₂) (r : Fin 1024) (c : Fin 2048) :
    matmul dot_S1024x576_S576x2048_S1024x2048_1_0_0_1_n_n none a b (constant (F := Ideal) S1024x2048 .f32 0x00000000#32) (ix2 r c)
      = ∑ k : Fin 576, a (ix2 r k) * b (ix2 k c) := by
  show FloatOps.matmul dot_S1024x576_S576x2048_S1024x2048_1_0_0_1_n_n none a b (constant (F := Ideal) S1024x2048 .f32 0x00000000#32) (ix2 r c) = _
  rw [Ideal.matmul_constant_zero_apply, ← Equiv.sum_comp (contrEquiv1 dot_S1024x576_S576x2048_S1024x2048_1_0_0_1_n_n 576 rfl rfl).symm]
  refine Finset.sum_congr rfl fun k _ => ?_
  have hk := contrEquiv1_symm_val dot_S1024x576_S576x2048_S1024x2048_1_0_0_1_n_n 576 rfl rfl k
  have el : dot_S1024x576_S576x2048_S1024x2048_1_0_0_1_n_n.lhsIdx (ix2 r c) ((contrEquiv1 dot_S1024x576_S576x2048_S1024x2048_1_0_0_1_n_n 576 rfl rfl).symm k) = ix2 r k := funext fun ax => Fin.ext (by
    match ax with
    | ⟨0, _⟩ => exact lhs_score_0 _ _
    | ⟨1, _⟩ => exact (lhs_score_1 _ _).trans hk)
  have er : dot_S1024x576_S576x2048_S1024x2048_1_0_0_1_n_n.rhsIdx (ix2 r c) ((contrEquiv1 dot_S1024x576_S576x2048_S1024x2048_1_0_0_1_n_n 576 rfl rfl).symm k) = ix2 k c := funext fun ax => Fin.ext (by
    match ax with
    | ⟨0, _⟩ => exact (rhs_score_0 _ _).trans hk
    | ⟨1, _⟩ => exact rhs_score_1 _ _)
  rw [el, er]

theorem lhs_value_0 (i : S1024x3.Idx) (q : dot_S1024x2048_S2048x3_S1024x3_1_0_0_1_n_n.contr.Idx) :
    (dot_S1024x2048_S2048x3_S1024x3_1_0_0_1_n_n.lhsIdx i q 0).val = (i 0).val := by
  unfold DotDims.lhsIdx
  rw [dif_neg (show ¬(0 : Fin S1024x2048.rank) ∈ dot_S1024x2048_S2048x3_S1024x3_1_0_0_1_n_n.lhsBatch by decide), dif_pos (show (0 : Fin S1024x2048.rank) ∈ dot_S1024x2048_S2048x3_S1024x3_1_0_0_1_n_n.lhsNonContracting by decide)]
  rfl
theorem lhs_value_1 (i : S1024x3.Idx) (q : dot_S1024x2048_S2048x3_S1024x3_1_0_0_1_n_n.contr.Idx) :
    (dot_S1024x2048_S2048x3_S1024x3_1_0_0_1_n_n.lhsIdx i q 1).val = (q ⟨0, by decide⟩).val :=
  dot_S1024x2048_S2048x3_S1024x3_1_0_0_1_n_n.lhsIdx_val_of_single rfl i q
theorem rhs_value_0 (i : S1024x3.Idx) (q : dot_S1024x2048_S2048x3_S1024x3_1_0_0_1_n_n.contr.Idx) :
    (dot_S1024x2048_S2048x3_S1024x3_1_0_0_1_n_n.rhsIdx i q 0).val = (q ⟨0, by decide⟩).val :=
  dot_S1024x2048_S2048x3_S1024x3_1_0_0_1_n_n.rhsIdx_val_of_single rfl i q
theorem rhs_value_1 (i : S1024x3.Idx) (q : dot_S1024x2048_S2048x3_S1024x3_1_0_0_1_n_n.contr.Idx) :
    (dot_S1024x2048_S2048x3_S1024x3_1_0_0_1_n_n.rhsIdx i q 1).val = (i 1).val := by
  unfold DotDims.rhsIdx
  rw [dif_neg (show ¬(1 : Fin S2048x3.rank) ∈ dot_S1024x2048_S2048x3_S1024x3_1_0_0_1_n_n.rhsBatch by decide), dif_pos (show (1 : Fin S2048x3.rank) ∈ dot_S1024x2048_S2048x3_S1024x3_1_0_0_1_n_n.rhsNonContracting by decide)]
  rfl

/-- The weights against the value block: entry `(r, c)` is the sum over the 2048 keys of weight times value. -/
theorem value_apply {φ₁ φ₂ : FTy} (a : FVec Ideal S1024x2048 φ₁) (b : FVec Ideal S2048x3 φ₂) (r : Fin 1024) (c : Fin 3) :
    matmul dot_S1024x2048_S2048x3_S1024x3_1_0_0_1_n_n none a b (constant (F := Ideal) S1024x3 .f32 0x00000000#32) (ix2 r c)
      = ∑ k : Fin 2048, a (ix2 r k) * b (ix2 k c) := by
  show FloatOps.matmul dot_S1024x2048_S2048x3_S1024x3_1_0_0_1_n_n none a b (constant (F := Ideal) S1024x3 .f32 0x00000000#32) (ix2 r c) = _
  rw [Ideal.matmul_constant_zero_apply, ← Equiv.sum_comp (contrEquiv1 dot_S1024x2048_S2048x3_S1024x3_1_0_0_1_n_n 2048 rfl rfl).symm]
  refine Finset.sum_congr rfl fun k _ => ?_
  have hk := contrEquiv1_symm_val dot_S1024x2048_S2048x3_S1024x3_1_0_0_1_n_n 2048 rfl rfl k
  have el : dot_S1024x2048_S2048x3_S1024x3_1_0_0_1_n_n.lhsIdx (ix2 r c) ((contrEquiv1 dot_S1024x2048_S2048x3_S1024x3_1_0_0_1_n_n 2048 rfl rfl).symm k) = ix2 r k := funext fun ax => Fin.ext (by
    match ax with
    | ⟨0, _⟩ => exact lhs_value_0 _ _
    | ⟨1, _⟩ => exact (lhs_value_1 _ _).trans hk)
  have er : dot_S1024x2048_S2048x3_S1024x3_1_0_0_1_n_n.rhsIdx (ix2 r c) ((contrEquiv1 dot_S1024x2048_S2048x3_S1024x3_1_0_0_1_n_n 2048 rfl rfl).symm k) = ix2 k c := funext fun ax => Fin.ext (by
    match ax with
    | ⟨0, _⟩ => exact (rhs_value_0 _ _).trans hk
    | ⟨1, _⟩ => exact rhs_value_1 _ _)
  rw [el, er]

/-- The named constant of the kernel denotes the temperature's exact reciprocal. -/
theorem inv_alpha : Named.named (F := Ideal) κ "inv_alpha" (φ := .f32) 0x41200000#32 = inv :=
  IdealRules.named_const.ideal_named_scalar _ _ _ _ rfl

/-! ## The row maximum, read at a row -/

/-- The lane reduction by maximum from -∞ of a `[1024, 2048]` array is, at row `r`, the supremum of that row's entries. -/
theorem rowMax_apply (src : FVec Ideal S1024x2048 .f32) (h : S1024x2048.Reduces [1] S1024) (hφ : FKind.Formats .f32)
    (hacc : (0xFF800000#32 : BitVec 32) = 0xFF800000#32) (r : Fin 1024) :
    multiReduction (F := Ideal) .maximumf [1] S1024 src 0xFF800000#32 h hφ hacc (ix1 r)
      = Finset.univ.sup fun j : Fin 2048 => src (ix2 r j) := by
  refine (Ideal.multiReduction_maximumf_single src 0xFF800000#32 h hφ hacc (ix1 r)).trans ?_
  have hb : (FloatOps.ofBits (F := Ideal) .f32 0xFF800000#32 : EReal) = ⊥ := by
    show Ideal.ofBits .f32 0xFF800000#32 = ⊥
    simp [Ideal.ofBits, Ideal.ieee]
  have hl : (src ∘ h.lift (ix1 r)) = fun j : Fin 2048 => src (ix2 r j) :=
    funext fun j => congrArg src (funext fun ax => Fin.ext (by
      match ax with
      | ⟨0, _⟩ => rfl
      | ⟨1, _⟩ => rfl))
  rw [hb, hl]
  rfl

/-- The reset value of the running maximum is -∞, -/
theorem pay3_apply (r : Fin 1024) : (k0_pay3 (F := Ideal)) (ix2 r (0 : Fin 1)) = ⊥ := by
  unfold k0_pay3
  rw [shapeCast_self]
  show Ideal.ofBits .f32 0xFF800000#32 = ⊥
  simp [Ideal.ofBits, Ideal.ieee]

/-- and of the accumulator 0. -/
theorem pay4_apply (r : Fin 1024) (e : Fin 3) : (k0_pay4 (F := Ideal)) (ix2 r e) = 0 := by
  unfold k0_pay4
  rw [shapeCast_self]
  exact Ideal.ofBits_zero_f32

/-- The stored running maximum is the computed one. -/
theorem pay1_apply (v : FVec Ideal S1024x1 .f32) : k0_pay1 (F := Ideal) v = v := by
  unfold k0_pay1
  exact shapeCast_self v _

/-- The scaled score of query row `r` against key row `j`. -/
theorem pay5_apply (x0 : Vec Ideal S1x1024x576 .bf16) (x1 : Vec Ideal S1x2048x576 .bf16) (r : Fin 1024) (j : Fin 2048) :
    k0_pay5 (F := Ideal) x0 x1 (ix2 r j) = (∑ k : Fin 576, x0 (ix3 (0 : Fin 1) r k) * x1 (ix3 (0 : Fin 1) j k)) * inv := by
  unfold k0_pay5
  rw [mulf_apply, broadcast_apply, inv_alpha, score_apply]
  refine congrArg (· * inv) (Finset.sum_congr rfl fun k _ => ?_)
  rw [shapeCast_1ab_ab_apply, transpose_ix2_apply, shapeCast_1ab_ab_apply]

/-- The new running maximum of row `r`. -/
theorem pay6_apply (x0 : Vec Ideal S1x1024x576 .bf16) (x1 : Vec Ideal S1x2048x576 .bf16) (mp : Vec Ideal S1024x1 .f32) (r : Fin 1024) :
    k0_pay6 (F := Ideal) x0 x1 mp (ix2 r (0 : Fin 1))
      = max (mp (ix2 r (0 : Fin 1))) (Finset.univ.sup fun j : Fin 2048 => k0_pay5 (F := Ideal) x0 x1 (ix2 r j)) := by
  unfold k0_pay6
  rw [maximumf_apply, shapeCast_a_a1_apply]
  exact congrArg (max _) (rowMax_apply _ _ _ _ r)

/-- The new accumulator of row `r`, column `e`. -/
theorem pay7_apply (x0 : Vec Ideal S1x1024x576 .bf16) (x1 : Vec Ideal S1x2048x576 .bf16) (mp : Vec Ideal S1024x1 .f32)
    (x2 : Vec Ideal S1x2048x3 .bf16) (ap : Vec Ideal S1024x3 .f32) (r : Fin 1024) (e : Fin 3) :
    k0_pay7 (F := Ideal) x0 x1 mp x2 ap (ix2 r e)
      = Ideal.exp (mp (ix2 r (0 : Fin 1)) - k0_pay6 (F := Ideal) x0 x1 mp (ix2 r (0 : Fin 1))) * ap (ix2 r e)
        + ∑ j : Fin 2048, Ideal.exp (k0_pay5 (F := Ideal) x0 x1 (ix2 r j) - k0_pay6 (F := Ideal) x0 x1 mp (ix2 r (0 : Fin 1))) * x2 (ix3 (0 : Fin 1) j e) := by
  unfold k0_pay7
  rw [shapeCast_self, addf_apply, mulf_apply, broadcastTo_a1_ab_apply, value_apply]
  refine congrArg₂ (· + ·) rfl (Finset.sum_congr rfl fun j _ => ?_)
  rw [truncf_apply, shapeCast_1ab_ab_apply]
  show Ideal.exp (k0_pay5 (F := Ideal) x0 x1 (ix2 r j) - broadcastTo S1024x2048 (k0_pay6 (F := Ideal) x0 x1 mp) _ (ix2 r j)) * _ = _
  rw [broadcastTo_a1_ab_apply]

/-- The stored quotient of row `r`, output column `cc`. -/
theorem pay2_apply (acc : Vec Ideal S1024x3 .f32) (r : Fin 1024) (cc : Fin 2) :
    k0_pay2 (F := Ideal) acc (ix3 (0 : Fin 1) r cc) = Ideal.div (acc (ix2 r ⟨cc.val, by omega⟩)) (acc (ix2 r (2 : Fin 3))) := by
  unfold k0_pay2
  rw [shapeCast_ab_1ab_apply, divf_apply, broadcastTo_a1_ab_apply,
    slice2_axis1_apply 0 acc _ r cc ⟨cc.val, by omega⟩ (Nat.zero_add _).symm,
    slice2_axis1_apply 2 acc _ r (0 : Fin 1) (2 : Fin 3) rfl]

end Cert.KernelIdeal.Payload

end
-- ==== Proof.Spec.lean ====
import Idealize.ShloMosaic.PureOps.Ideal
import Idealize.ShloMosaic.Lib.ValueIdx

/-!
  The function both programs compute, index by index on the extended reals.

  For batch `b` the feature map `x1[b]` (64 channels, 64 × 64 pixels) is zero-padded by one pixel and every
  pixel `p = 64·h + w` gets the 576 numbers of its 3 × 3 neighbourhood, `lf b k p` with `k = 64·(3·i + j) + ch`
  the value of channel `ch` at offset `(i, j)`. The score of pixel `n` for pixel `p` is the inner product of
  their neighbourhoods divided by the temperature `α` (the number the 32-bit pattern of 0.1 denotes); the
  weights are the softmax of the scores over `n`, written as the reference writes it (shifted by the row's
  maximum, exponentiated, divided by the row's sum); the result at `(b, c, h, w)` is the weighted average over
  `n` of channel `1 + c` of `x0[b]` at pixel `n`.
-/

noncomputable section

open scoped BigOperators

namespace Cert.Spec

open Idealize.ShloMosaic Idealize.ShloMosaic.ValueIdx

abbrev Sx : Shape := ⟨4, ![4, 3, 64, 64]⟩
abbrev Sf : Shape := ⟨4, ![4, 64, 64, 64]⟩
abbrev So : Shape := ⟨4, ![4, 2, 64, 64]⟩

/-- The temperature: the extended real the f32 pattern of `0.1` denotes. -/
def α : EReal := Ideal.ofBits .f32 0x3DCCCCCD#32

/-- The feature map padded by one zero pixel on each side of both image axes, read at padded coordinates. -/
def padF (x1 : Sf.Idx → EReal) (b : Fin 4) (ch : Fin 64) (y x : Fin 66) : EReal :=
  if h : 1 ≤ y.val ∧ y.val ≤ 64 ∧ 1 ≤ x.val ∧ x.val ≤ 64 then
    x1 (ix4 b ch ⟨y.val - 1, by omega⟩ ⟨x.val - 1, by omega⟩)
  else 0

/-- Entry `k = 64·(3·i + j) + ch` of pixel `p`'s 3 × 3 neighbourhood: channel `ch` at offset `(i, j)`. -/
def lf (x1 : Sf.Idx → EReal) (b : Fin 4) (k : Fin 576) (p : Fin 4096) : EReal :=
  padF x1 b ⟨k.val % 64, Nat.mod_lt _ (by decide)⟩
    ⟨p.val / 64 + k.val / 64 / 3, by have := k.isLt; have := p.isLt; omega⟩
    ⟨p.val % 64 + k.val / 64 % 3, by have := k.isLt; have := p.isLt; omega⟩

/-- The inner product of two pixels' neighbourhoods. -/
def corr (x1 : Sf.Idx → EReal) (b : Fin 4) (p n : Fin 4096) : EReal := ∑ k : Fin 576, lf x1 b k p * lf x1 b k n

/-- The score: the inner product over the temperature. -/
def sc (x1 : Sf.Idx → EReal) (b : Fin 4) (p n : Fin 4096) : EReal := Ideal.div (corr x1 b p n) α

/-- The largest score of row `p`. -/
def rowmax (x1 : Sf.Idx → EReal) (b : Fin 4) (p : Fin 4096) : EReal := Finset.univ.sup fun n : Fin 4096 => sc x1 b p n

/-- The shifted exponential of a score. -/
def ex (x1 : Sf.Idx → EReal) (b : Fin 4) (p n : Fin 4096) : EReal := Ideal.exp (sc x1 b p n - rowmax x1 b p)

/-- The row's normaliser. -/
def den (x1 : Sf.Idx → EReal) (b : Fin 4) (p : Fin 4096) : EReal := ∑ n : Fin 4096, ex x1 b p n

/-- Channel `1 + c` of `x0[b]` at pixel `n`. -/
def xab (x0 : Sx.Idx → EReal) (b : Fin 4) (n : Fin 4096) (c : Fin 2) : EReal :=
  x0 (ix4 b ⟨1 + c.val, by omega⟩ ⟨n.val / 64, by have := n.isLt; omega⟩ ⟨n.val % 64, Nat.mod_lt _ (by decide)⟩)

/-- The weighted average for pixel `p` and output channel `c`. -/
def out (x0 : Sx.Idx → EReal) (x1 : Sf.Idx → EReal) (b : Fin 4) (p : Fin 4096) (c : Fin 2) : EReal :=
  ∑ n : Fin 4096, Ideal.div (ex x1 b p n) (den x1 b p) * xab x0 b n c

/-- The result array. -/
def G (x0 : Sx.Idx → EReal) (x1 : Sf.Idx → EReal) : So.Idx → EReal := fun i =>
  out x0 x1 (i 0) ⟨(i 2).val * 64 + (i 3).val, by have h2 : (i 2).val < 64 := (i 2).isLt; have h3 : (i 3).val < 64 := (i 3).isLt; omega⟩ (i 1)

end Cert.Spec

end
-- ==== Proof.KI.HostIn.lean ====
import proofs.«430516_j1580547968749_3_alg».proof.Proof.KI.Kit
import proofs.«430516_j1580547968749_3_alg».proof.Proof.Spec
import Idealize.ShloMosaic.Lib.ValueIdx
import Idealize.ShloMosaic.Lib.Pipeline.Value
import Idealize.ShloMosaic.Lib.StableHlo.Run
import Idealize.ShloMosaic.Lib.KernelVsHost

/-! What the idealized kernel's host operations hand the region, read at an index: the patch-feature
    array is the specification's `lf` with its last two axes exchanged, and the value array is the a/b
    channels with a column of ones appended. -/

noncomputable section

open scoped BigOperators

namespace Cert.KernelIdeal.HostIn

open Idealize.ShloMosaic Idealize.ShloMosaic.TcCoe Idealize.ShloMosaic.ValueIdx Idealize.SL.Sem
open Cert.KernelIdeal Cert.KernelIdeal.Gen Cert.KernelIdeal.Hand

variable (m : (ℓ : Loc nD τ sig) → Buf (Elt Ideal) ℓ)

open Idealize.ShloMosaic.StableHlo in
/-- The argument arrays reach the region unchanged. -/
theorem V_arg0 (c : Dev nD) : V m c main_arg0 = m ((c : Thread nD τ).loc main_arg0) := by
  dsimp only [V, V0]
  simp only [hostOps0, hostOps0_1, hostOps0_2, List.flatten_cons, List.flatten_nil, List.append_nil, List.cons_append, List.nil_append]
  after_results
open Idealize.ShloMosaic.StableHlo in
theorem V_arg1 (c : Dev nD) : V m c main_arg1 = m ((c : Thread nD τ).loc main_arg1) := by
  dsimp only [V, V0]
  simp only [hostOps0, hostOps0_1, hostOps0_2, List.flatten_cons, List.flatten_nil, List.append_nil, List.cons_append, List.nil_append]
  after_results

/-- The bit pattern of the single-precision one denotes one. -/
theorem one_bits : Ideal.ofBits .f32 0x3F800000#32 = 1 := by
  simp [Ideal.ofBits, Ideal.ieee]
  rw [← EReal.coe_mul]
  norm_num

/-- The value array as the host operations' term: the a/b channels of the first argument, flattened over the
    pixels and moved last, joined with a column of ones. -/
def vaugTerm (x0 : S4x3x64x64.Idx → EReal) : S4x4096x3.Idx → EReal :=
  truncf FTy.bf16
    (concatenate S4x4096x3 2
      [⟨S4x4096x2,
          transpose S4x4096x2 [0, 2, 1]
            (shapeCast S4x2x4096
              (extractStridedSlice S4x2x64x64 ![0, 1, 0, 0] x0 slices_S4x3x64x64_S4x2x64x64_0_1_0_0)
              shapeCasts_S4x2x64x64_S4x2x4096)
            transposes_S4x2x4096_S4x4096x2_0_2_1⟩,
        ⟨S4x4096x1, broadcastInDim S4x4096x1 ![] bcast_S_S4x4096x1 (constant (F := Ideal) S_ FTy.f32 0x3F800000#32)⟩]
      concatenates_S4x4096x2_S4x4096x1_S4x4096x3_d2)
    bitsLt_bf16_f32

open Idealize.ShloMosaic.StableHlo in
theorem V19_eq (c : Dev nD) :
    (V m c main_v19 : S4x4096x3.Idx → EReal) = vaugTerm (m ((c : Thread nD τ).loc main_arg0)) := by
  dsimp only [V, V0]
  simp only [hostOps0, hostOps0_1, hostOps0_2, List.flatten_cons, List.flatten_nil, List.append_nil, List.cons_append, List.nil_append]
  after_results
  rfl

/-- An a/b entry of the value array: channel `1 + e` of the first argument at pixel `n`. -/
theorem vaugTerm_ab (x0 : S4x3x64x64.Idx → EReal) (b : Fin 4) (n : Fin 4096) (e : Fin 3) (h : e.val < 2) :
    vaugTerm x0 (ix3 b n e)
      = x0 (ix4 b ⟨1 + e.val, by omega⟩ ⟨n.val / 64, by have := n.isLt; omega⟩ ⟨n.val % 64, Nat.mod_lt _ (by decide)⟩) := by
  unfold vaugTerm
  rw [truncf_apply]
  refine (concatenate_pair_apply_left (t := S4x4096x3) (s₁ := S4x4096x2) (s₂ := S4x4096x1) _ _ _ _ (ix3 b n e) rfl (ix3 b n (⟨e.val, h⟩ : Fin 2))
    (fun a => match a with | ⟨0, _⟩ => rfl | ⟨1, _⟩ => rfl | ⟨2, _⟩ => rfl)).trans ?_
  refine (transpose_apply _ _ _ _ (ix3 b (⟨e.val, h⟩ : Fin 2) n)
    (fun a => match a with | ⟨0, _⟩ => rfl | ⟨1, _⟩ => rfl | ⟨2, _⟩ => rfl)).trans ?_
  refine (shapeCast_apply _ _ _ (ix4 b (⟨e.val, h⟩ : Fin 2) (⟨n.val / 64, by have := n.isLt; omega⟩ : Fin 64) (⟨n.val % 64, Nat.mod_lt _ (by decide)⟩ : Fin 64))
    (by rw [Shape.rowMajor_val_three, Shape.rowMajor_val_four]
        show ((b.val * 2 + e.val) * 64 + n.val / 64) * 64 + n.val % 64 = (b.val * 2 + e.val) * 4096 + n.val
        omega)).trans ?_
  refine extractStridedSlice_apply _ _ _ _ _
    (fun a => match a with
      | ⟨0, _⟩ => by show b.val = 0 + b.val; omega
      | ⟨1, _⟩ => by show 1 + e.val = 1 + e.val; rfl
      | ⟨2, _⟩ => by show n.val / 64 = 0 + n.val / 64; omega
      | ⟨3, _⟩ => by show n.val % 64 = 0 + n.val % 64; omega)

/-- The last entry of a row of the value array is one. -/
theorem vaugTerm_one (x0 : S4x3x64x64.Idx → EReal) (b : Fin 4) (n : Fin 4096) (e : Fin 3) (h : ¬ e.val < 2) :
    vaugTerm x0 (ix3 b n e) = 1 := by
  unfold vaugTerm
  rw [truncf_apply]
  refine (concatenate_pair_apply_right (t := S4x4096x3) (s₁ := S4x4096x2) (s₂ := S4x4096x1) _ _ _ _ (ix3 b n e) rfl rfl (ix3 b n (0 : Fin 1))
    (fun a => match a with
      | ⟨0, _⟩ => fun _ => rfl
      | ⟨1, _⟩ => fun _ => rfl
      | ⟨2, _⟩ => fun hne => absurd rfl hne)
    (by have := e.isLt; show 0 + 2 = e.val; omega)).trans ?_
  refine (broadcastInDim_apply _ _ _ _ ix0 (fun a => a.elim0)).trans ?_
  rw [constant_apply]
  exact one_bits

/-- Row `n` of batch `b` of the value array: the two a/b channels at pixel `n`, then a one. -/
theorem V_vaug (c : Dev nD) (b : Fin 4) (n : Fin 4096) (e : Fin 3) :
    (V m c main_v19 : S4x4096x3.Idx → EReal) (ix3 b n e)
      = if h : e.val < 2 then Cert.Spec.xab (m ((c : Thread nD τ).loc main_arg0)) b n ⟨e.val, h⟩ else 1 := by
  rw [V19_eq]
  by_cases h : e.val < 2
  · rw [dif_pos h, vaugTerm_ab _ b n e h]; rfl
  · rw [dif_neg h, vaugTerm_one _ b n e h]
/-- The feature map moved to channels-last and padded by one zero pixel on both image axes. -/
def padTerm (x1 : S4x64x64x64.Idx → EReal) : S4x66x66x64.Idx → EReal :=
  pad (s := S4x64x64x64) S4x66x66x64 ![0, 1, 1, 0] ![0, 1, 1, 0] ![0, 0, 0, 0]
    (truncf (F := Ideal) (φ := FTy.f32) FTy.bf16 (transpose S4x64x64x64 [0, 2, 3, 1] x1 transposes_S4x64x64x64_S4x64x64x64_0_2_3_1) bitsLt_bf16_f32)
    (sitofp (F := Ideal) FTy.bf16 (constantI S_ 32 0#32)) pads_S4x64x64x64_S4x66x66x64_000_110_110_000 h_S_

/-- The patch-feature array as the host operations' term: the nine shifted windows of the padded map joined along
    the channel axis, the two image axes flattened. -/
def lfTerm (x1 : S4x64x64x64.Idx → EReal) : S4x4096x576.Idx → EReal :=
  shapeCast S4x4096x576
    (concatenate S4x64x64x576 3
      [⟨S4x64x64x64, extractStridedSlice S4x64x64x64 ![0, 0, 0, 0] (padTerm x1) slices_S4x66x66x64_S4x64x64x64_0_0_0_0⟩,
       ⟨S4x64x64x64, extractStridedSlice S4x64x64x64 ![0, 0, 1, 0] (padTerm x1) slices_S4x66x66x64_S4x64x64x64_0_0_1_0⟩,
       ⟨S4x64x64x64, extractStridedSlice S4x64x64x64 ![0, 0, 2, 0] (padTerm x1) slices_S4x66x66x64_S4x64x64x64_0_0_2_0⟩,
       ⟨S4x64x64x64, extractStridedSlice S4x64x64x64 ![0, 1, 0, 0] (padTerm x1) slices_S4x66x66x64_S4x64x64x64_0_1_0_0⟩,
       ⟨S4x64x64x64, extractStridedSlice S4x64x64x64 ![0, 1, 1, 0] (padTerm x1) slices_S4x66x66x64_S4x64x64x64_0_1_1_0⟩,
       ⟨S4x64x64x64, extractStridedSlice S4x64x64x64 ![0, 1, 2, 0] (padTerm x1) slices_S4x66x66x64_S4x64x64x64_0_1_2_0⟩,
       ⟨S4x64x64x64, extractStridedSlice S4x64x64x64 ![0, 2, 0, 0] (padTerm x1) slices_S4x66x66x64_S4x64x64x64_0_2_0_0⟩,
       ⟨S4x64x64x64, extractStridedSlice S4x64x64x64 ![0, 2, 1, 0] (padTerm x1) slices_S4x66x66x64_S4x64x64x64_0_2_1_0⟩,
       ⟨S4x64x64x64, extractStridedSlice S4x64x64x64 ![0, 2, 2, 0] (padTerm x1) slices_S4x66x66x64_S4x64x64x64_0_2_2_0⟩]
      concatenates_S4x64x64x64_S4x64x64x64_S4x64x64x64_S4x64x64x64_S4x64x64x64_S4x64x64x64_S4x64x64x64_S4x64x64x64_S4x64x64x64_S4x64x64x576_d3)
    shapeCasts_S4x64x64x576_S4x4096x576

open Idealize.ShloMosaic.StableHlo in
set_option maxHeartbeats 1000000 in
theorem V13_eq (c : Dev nD) :
    (V m c main_v13 : S4x4096x576.Idx → EReal) = lfTerm (m ((c : Thread nD τ).loc main_arg1)) := by
  dsimp only [V, V0]
  simp only [hostOps0, hostOps0_1, hostOps0_2, List.flatten_cons, List.flatten_nil, List.append_nil, List.cons_append, List.nil_append]
  simp (disch := decide) only [after_cons, after_nil, nullary_result', unary_result', binary_result', reshape_result', nary_result',
    nullary_result_ne', unary_result_ne', binary_result_ne', reshape_result_ne', nary_result_ne', Matrix.cons_val]
  rfl

/-- The padded map at padded coordinates is the specification's padded feature map. -/
theorem padTerm_apply (x1 : S4x64x64x64.Idx → EReal) (b : Fin 4) (Y X : Fin 66) (ch : Fin 64) :
    padTerm x1 (ix4 b Y X ch) = Cert.Spec.padF x1 b ch Y X := by
  unfold padTerm Cert.Spec.padF
  by_cases hin : 1 ≤ Y.val ∧ Y.val ≤ 64 ∧ 1 ≤ X.val ∧ X.val ≤ 64
  · rw [dif_pos hin]
    obtain ⟨h1, h2, h3, h4⟩ := hin
    refine (pad_apply_of_inside _ _ _ _ _ _ _ (ix4 b Y X ch)
      (ix4 b (⟨Y.val - 1, by omega⟩ : Fin 64) (⟨X.val - 1, by omega⟩ : Fin 64) ch)
      (fun a => match a with
        | ⟨0, _⟩ => by show b.val = 0 + b.val * (0 + 1); omega
        | ⟨1, _⟩ => by show Y.val = 1 + (Y.val - 1) * (0 + 1); omega
        | ⟨2, _⟩ => by show X.val = 1 + (X.val - 1) * (0 + 1); omega
        | ⟨3, _⟩ => by show ch.val = 0 + ch.val * (0 + 1); omega)).trans ?_
    rw [truncf_apply]
    exact transpose_apply _ _ _ _ (ix4 b ch (⟨Y.val - 1, by omega⟩ : Fin 64) (⟨X.val - 1, by omega⟩ : Fin 64))
      (fun a => match a with | ⟨0, _⟩ => rfl | ⟨1, _⟩ => rfl | ⟨2, _⟩ => rfl | ⟨3, _⟩ => rfl)
  · rw [dif_neg hin]
    have hz : ∀ i, (sitofp (F := Ideal) FTy.bf16 (constantI S_ 32 0#32)) i = 0 := fun i => sitofp_zero
    by_cases hY : 1 ≤ Y.val ∧ Y.val ≤ 64
    · refine (pad_apply_of_not_inside _ _ _ _ _ _ _ (ix4 b Y X ch) (2 : Fin 4) ?_).trans (hz _)
      show ¬(1 ≤ X.val ∧ (X.val - 1) % (0 + 1) = 0 ∧ (X.val - 1) / (0 + 1) < 64)
      omega
    · refine (pad_apply_of_not_inside _ _ _ _ _ _ _ (ix4 b Y X ch) (1 : Fin 4) ?_).trans (hz _)
      show ¬(1 ≤ Y.val ∧ (Y.val - 1) % (0 + 1) = 0 ∧ (Y.val - 1) / (0 + 1) < 64)
      omega

/-- Joining equal lists of arrays gives equal arrays. -/
theorem concatenate_congr {α : Type} {t : Shape} (a : Fin t.rank) (xs ys : List ((s : Shape) × (s.Idx → α))) (e : xs = ys)
    (h : Shape.Concatenates (xs.map (·.1)) t a) :
    concatenate t a xs h = concatenate t a ys (e ▸ h) := by
  subst e; rfl

/-- Nine arrays of one shape joined along the channel axis, read at an index: entry `k` of the joined axis is entry
    `k % 64` of array `k / 64`. -/
theorem concat9_apply {α : Type} (f : Fin 9 → (S4x64x64x64.Idx → α))
    (h : Shape.Concatenates [S4x64x64x64, S4x64x64x64, S4x64x64x64, S4x64x64x64, S4x64x64x64, S4x64x64x64, S4x64x64x64, S4x64x64x64, S4x64x64x64] S4x64x64x576 3)
    (b : Fin 4) (y x : Fin 64) (k : Fin 576) :
    concatenate S4x64x64x576 3 [⟨S4x64x64x64, f 0⟩, ⟨S4x64x64x64, f 1⟩, ⟨S4x64x64x64, f 2⟩, ⟨S4x64x64x64, f 3⟩, ⟨S4x64x64x64, f 4⟩,
        ⟨S4x64x64x64, f 5⟩, ⟨S4x64x64x64, f 6⟩, ⟨S4x64x64x64, f 7⟩, ⟨S4x64x64x64, f 8⟩] h (ix4 b y x k)
      = f ⟨k.val / 64, by have := k.isLt; omega⟩ (ix4 b y x ⟨k.val % 64, Nat.mod_lt _ (by decide)⟩) := by
  have e : ([⟨S4x64x64x64, f 0⟩, ⟨S4x64x64x64, f 1⟩, ⟨S4x64x64x64, f 2⟩, ⟨S4x64x64x64, f 3⟩, ⟨S4x64x64x64, f 4⟩,
        ⟨S4x64x64x64, f 5⟩, ⟨S4x64x64x64, f 6⟩, ⟨S4x64x64x64, f 7⟩, ⟨S4x64x64x64, f 8⟩] : List ((s : Shape) × (s.Idx → α)))
      = List.ofFn fun n : Fin 9 => (⟨S4x64x64x64, f n⟩ : (s : Shape) × (s.Idx → α)) := by
    rfl
  rw [concatenate_congr _ _ _ e h]
  exact concatenate_ofFn_apply (t := S4x64x64x576) (s₁ := S4x64x64x64) (3 : Fin 4) f _ rfl 64 rfl (ix4 b y x k) ⟨k.val / 64, by have := k.isLt; omega⟩ rfl
    (ix4 b y x ⟨k.val % 64, Nat.mod_lt _ (by decide)⟩) rfl
    (fun a => match a with
      | ⟨0, _⟩ => fun _ => rfl
      | ⟨1, _⟩ => fun _ => rfl
      | ⟨2, _⟩ => fun _ => rfl
      | ⟨3, _⟩ => fun hne => absurd rfl hne)

/-- Window `q = 3·i + j` of the padded map at pixel `(y, x)` is the padded map at `(i + y, j + x)`. -/
theorem slices_apply (x1 : S4x64x64x64.Idx → EReal) (q : Fin 9) (b : Fin 4) (y x ch : Fin 64) :
    (![extractStridedSlice S4x64x64x64 ![0, 0, 0, 0] (padTerm x1) slices_S4x66x66x64_S4x64x64x64_0_0_0_0,
       extractStridedSlice S4x64x64x64 ![0, 0, 1, 0] (padTerm x1) slices_S4x66x66x64_S4x64x64x64_0_0_1_0,
       extractStridedSlice S4x64x64x64 ![0, 0, 2, 0] (padTerm x1) slices_S4x66x66x64_S4x64x64x64_0_0_2_0,
       extractStridedSlice S4x64x64x64 ![0, 1, 0, 0] (padTerm x1) slices_S4x66x66x64_S4x64x64x64_0_1_0_0,
       extractStridedSlice S4x64x64x64 ![0, 1, 1, 0] (padTerm x1) slices_S4x66x66x64_S4x64x64x64_0_1_1_0,
       extractStridedSlice S4x64x64x64 ![0, 1, 2, 0] (padTerm x1) slices_S4x66x66x64_S4x64x64x64_0_1_2_0,
       extractStridedSlice S4x64x64x64 ![0, 2, 0, 0] (padTerm x1) slices_S4x66x66x64_S4x64x64x64_0_2_0_0,
       extractStridedSlice S4x64x64x64 ![0, 2, 1, 0] (padTerm x1) slices_S4x66x66x64_S4x64x64x64_0_2_1_0,
       extractStridedSlice S4x64x64x64 ![0, 2, 2, 0] (padTerm x1) slices_S4x66x66x64_S4x64x64x64_0_2_2_0] : Fin 9 → S4x64x64x64.Idx → EReal) q (ix4 b y x ch)
      = padTerm x1 (ix4 b (⟨q.val / 3 + y.val, by have := q.isLt; have := y.isLt; omega⟩ : Fin 66)
          (⟨q.val % 3 + x.val, by have := x.isLt; omega⟩ : Fin 66) ch) := by
  match q with
  | ⟨0, _⟩ =>
    exact extractStridedSlice_apply (s := S4x66x66x64) (t := S4x64x64x64) ![0, 0, 0, 0] (padTerm x1) slices_S4x66x66x64_S4x64x64x64_0_0_0_0 (ix4 b y x ch) _
      (fun a => match a with
        | ⟨0, _⟩ => by show b.val = 0 + b.val; omega
        | ⟨1, _⟩ => by show 0 / 3 + y.val = 0 + y.val; rfl
        | ⟨2, _⟩ => by show 0 % 3 + x.val = 0 + x.val; rfl
        | ⟨3, _⟩ => by show ch.val = 0 + ch.val; omega)
  | ⟨1, _⟩ =>
    exact extractStridedSlice_apply (s := S4x66x66x64) (t := S4x64x64x64) ![0, 0, 1, 0] (padTerm x1) slices_S4x66x66x64_S4x64x64x64_0_0_1_0 (ix4 b y x ch) _
      (fun a => match a with
        | ⟨0, _⟩ => by show b.val = 0 + b.val; omega
        | ⟨1, _⟩ => by show 1 / 3 + y.val = 0 + y.val; rfl
        | ⟨2, _⟩ => by show 1 % 3 + x.val = 1 + x.val; rfl
        | ⟨3, _⟩ => by show ch.val = 0 + ch.val; omega)
  | ⟨2, _⟩ =>
    exact extractStridedSlice_apply (s := S4x66x66x64) (t := S4x64x64x64) ![0, 0, 2, 0] (padTerm x1) slices_S4x66x66x64_S4x64x64x64_0_0_2_0 (ix4 b y x ch) _
      (fun a => match a with
        | ⟨0, _⟩ => by show b.val = 0 + b.val; omega
        | ⟨1, _⟩ => by show 2 / 3 + y.val = 0 + y.val; rfl
        | ⟨2, _⟩ => by show 2 % 3 + x.val = 2 + x.val; rfl
        | ⟨3, _⟩ => by show ch.val = 0 + ch.val; omega)
  | ⟨3, _⟩ =>
    exact extractStridedSlice_apply (s := S4x66x66x64) (t := S4x64x64x64) ![0, 1, 0, 0] (padTerm x1) slices_S4x66x66x64_S4x64x64x64_0_1_0_0 (ix4 b y x ch) _
      (fun a => match a with
        | ⟨0, _⟩ => by show b.val = 0 + b.val; omega
        | ⟨1, _⟩ => by show 3 / 3 + y.val = 1 + y.val; rfl
        | ⟨2, _⟩ => by show 3 % 3 + x.val = 0 + x.val; rfl
        | ⟨3, _⟩ => by show ch.val = 0 + ch.val; omega)
  | ⟨4, _⟩ =>
    exact extractStridedSlice_apply (s := S4x66x66x64) (t := S4x64x64x64) ![0, 1, 1, 0] (padTerm x1) slices_S4x66x66x64_S4x64x64x64_0_1_1_0 (ix4 b y x ch) _
      (fun a => match a with
        | ⟨0, _⟩ => by show b.val = 0 + b.val; omega
        | ⟨1, _⟩ => by show 4 / 3 + y.val = 1 + y.val; rfl
        | ⟨2, _⟩ => by show 4 % 3 + x.val = 1 + x.val; rfl
        | ⟨3, _⟩ => by show ch.val = 0 + ch.val; omega)
  | ⟨5, _⟩ =>
    exact extractStridedSlice_apply (s := S4x66x66x64) (t := S4x64x64x64) ![0, 1, 2, 0] (padTerm x1) slices_S4x66x66x64_S4x64x64x64_0_1_2_0 (ix4 b y x ch) _
      (fun a => match a with
        | ⟨0, _⟩ => by show b.val = 0 + b.val; omega
        | ⟨1, _⟩ => by show 5 / 3 + y.val = 1 + y.val; rfl
        | ⟨2, _⟩ => by show 5 % 3 + x.val = 2 + x.val; rfl
        | ⟨3, _⟩ => by show ch.val = 0 + ch.val; omega)
  | ⟨6, _⟩ =>
    exact extractStridedSlice_apply (s := S4x66x66x64) (t := S4x64x64x64) ![0, 2, 0, 0] (padTerm x1) slices_S4x66x66x64_S4x64x64x64_0_2_0_0 (ix4 b y x ch) _
      (fun a => match a with
        | ⟨0, _⟩ => by show b.val = 0 + b.val; omega
        | ⟨1, _⟩ => by show 6 / 3 + y.val = 2 + y.val; rfl
        | ⟨2, _⟩ => by show 6 % 3 + x.val = 0 + x.val; rfl
        | ⟨3, _⟩ => by show ch.val = 0 + ch.val; omega)
  | ⟨7, _⟩ =>
    exact extractStridedSlice_apply (s := S4x66x66x64) (t := S4x64x64x64) ![0, 2, 1, 0] (padTerm x1) slices_S4x66x66x64_S4x64x64x64_0_2_1_0 (ix4 b y x ch) _
      (fun a => match a with
        | ⟨0, _⟩ => by show b.val = 0 + b.val; omega
        | ⟨1, _⟩ => by show 7 / 3 + y.val = 2 + y.val; rfl
        | ⟨2, _⟩ => by show 7 % 3 + x.val = 1 + x.val; rfl
        | ⟨3, _⟩ => by show ch.val = 0 + ch.val; omega)
  | ⟨8, _⟩ =>
    exact extractStridedSlice_apply (s := S4x66x66x64) (t := S4x64x64x64) ![0, 2, 2, 0] (padTerm x1) slices_S4x66x66x64_S4x64x64x64_0_2_2_0 (ix4 b y x ch) _
      (fun a => match a with
        | ⟨0, _⟩ => by show b.val = 0 + b.val; omega
        | ⟨1, _⟩ => by show 8 / 3 + y.val = 2 + y.val; rfl
        | ⟨2, _⟩ => by show 8 % 3 + x.val = 2 + x.val; rfl
        | ⟨3, _⟩ => by show ch.val = 0 + ch.val; omega)
  | ⟨n + 9, h⟩ => exact absurd h (by omega)

/-- Entry `(b, p, k)` of the patch-feature term is entry `k` of pixel `p`'s neighbourhood. -/
theorem lfTerm_apply (x1 : S4x64x64x64.Idx → EReal) (b : Fin 4) (p : Fin 4096) (k : Fin 576) :
    lfTerm x1 (ix3 b p k) = Cert.Spec.lf x1 b k p := by
  have hp := p.isLt
  have hk := k.isLt
  unfold lfTerm
  refine (shapeCast_apply _ _ (ix3 b p k)
    (ix4 b (⟨p.val / 64, by omega⟩ : Fin 64) (⟨p.val % 64, Nat.mod_lt _ (by decide)⟩ : Fin 64) k)
    (by rw [Shape.rowMajor_val_four, Shape.rowMajor_val_three]
        show ((b.val * 64 + p.val / 64) * 64 + p.val % 64) * 576 + k.val = (b.val * 4096 + p.val) * 576 + k.val
        omega)).trans ?_
  refine (concat9_apply (![extractStridedSlice S4x64x64x64 ![0, 0, 0, 0] (padTerm x1) slices_S4x66x66x64_S4x64x64x64_0_0_0_0,
       extractStridedSlice S4x64x64x64 ![0, 0, 1, 0] (padTerm x1) slices_S4x66x66x64_S4x64x64x64_0_0_1_0,
       extractStridedSlice S4x64x64x64 ![0, 0, 2, 0] (padTerm x1) slices_S4x66x66x64_S4x64x64x64_0_0_2_0,
       extractStridedSlice S4x64x64x64 ![0, 1, 0, 0] (padTerm x1) slices_S4x66x66x64_S4x64x64x64_0_1_0_0,
       extractStridedSlice S4x64x64x64 ![0, 1, 1, 0] (padTerm x1) slices_S4x66x66x64_S4x64x64x64_0_1_1_0,
       extractStridedSlice S4x64x64x64 ![0, 1, 2, 0] (padTerm x1) slices_S4x66x66x64_S4x64x64x64_0_1_2_0,
       extractStridedSlice S4x64x64x64 ![0, 2, 0, 0] (padTerm x1) slices_S4x66x66x64_S4x64x64x64_0_2_0_0,
       extractStridedSlice S4x64x64x64 ![0, 2, 1, 0] (padTerm x1) slices_S4x66x66x64_S4x64x64x64_0_2_1_0,
       extractStridedSlice S4x64x64x64 ![0, 2, 2, 0] (padTerm x1) slices_S4x66x66x64_S4x64x64x64_0_2_2_0] : Fin 9 → S4x64x64x64.Idx → EReal) _ b _ _ k).trans ?_
  rw [slices_apply, padTerm_apply]
  unfold Cert.Spec.lf
  congr 1 <;> exact Fin.ext (Nat.add_comm _ _)

/-- Row `p`, entry `k` of batch `b` of the patch-feature array is entry `k` of pixel `p`'s neighbourhood. -/
theorem V_lfT (c : Dev nD) (b : Fin 4) (p : Fin 4096) (k : Fin 576) :
    (V m c main_v13 : S4x4096x576.Idx → EReal) (ix3 b p k) = Cert.Spec.lf (m ((c : Thread nD τ).loc main_arg1)) b k p := by
  rw [V13_eq]
  exact lfTerm_apply _ b p k

end Cert.KernelIdeal.HostIn

end
-- ==== Proof.OnlineSoftmax.lean ====
import Idealize.ShloMosaic.PureOps.Ideal
import Idealize.ShloMosaic.PureOps.IdealRules
import Mathlib.Analysis.SpecialFunctions.Exp
import Mathlib.Data.EReal.Basic
import Mathlib.Algebra.BigOperators.Fin

/-! The online softmax over two halves of a row equals the softmax over the whole row, on finite scores;
    and the two constants: the temperature's reciprocal. -/

noncomputable section

open scoped BigOperators

namespace Cert.OnlineSoftmax

open Idealize.ShloMosaic

/-- The first half of a row's 4096 positions, -/
def lo (j : Fin 2048) : Fin 4096 := ⟨j.val, by have := j.isLt; omega⟩
/-- and the second. -/
def hi (j : Fin 2048) : Fin 4096 := ⟨2048 + j.val, by have := j.isLt; omega⟩

/-- The f32 pattern of 0.1 denotes 13421773 / 2^27. -/
theorem alpha_val : Ideal.ofBits .f32 0x3DCCCCCD#32 = ((13421773 / 134217728 : ℝ) : EReal) := by
  simp [Ideal.ofBits, Ideal.ieee, -EReal.coe_mul]; norm_num

/-- Dividing by the temperature is multiplying by its exact reciprocal. -/
theorem div_alpha (x : EReal) : Ideal.div x (Ideal.ofBits .f32 0x3DCCCCCD#32) = x * ((134217728 / 13421773 : ℝ) : EReal) := by
  rw [alpha_val, Ideal.div_coe (by norm_num)]
  norm_num

/-- A supremum of finitely many real scores over a nonempty index type is attained at one of them,
    so it is itself a real number. -/
theorem exists_sup_coe {ι : Type*} [Fintype ι] [Nonempty ι] (f : ι → ℝ) :
    ∃ M : ℝ, (Finset.univ.sup fun j : ι => ((f j : ℝ) : EReal)) = (M : EReal) := by
  obtain ⟨i, _, hi⟩ :=
    Finset.exists_mem_eq_sup Finset.univ Finset.univ_nonempty (fun j : ι => ((f j : ℝ) : EReal))
  exact ⟨f i, hi⟩

/-- The embedding of the reals is monotone, so it carries the larger of two reals to the larger image. -/
theorem max_coe (a b : ℝ) : max (a : EReal) (b : EReal) = ((max a b : ℝ) : EReal) :=
  (EReal.coe_strictMono.monotone.map_max).symm

/-- A finite sum of embedded reals is the embedded real sum. -/
theorem sum_coe {ι : Type*} (t : Finset ι) (f : ι → ℝ) :
    ∑ i ∈ t, ((f i : ℝ) : EReal) = ((∑ i ∈ t, f i : ℝ) : EReal) := by
  classical
  induction t using Finset.induction_on with
  | empty => simp
  | insert a t ha ih => rw [Finset.sum_insert ha, Finset.sum_insert ha, ih, EReal.coe_add]

/-- The quotient of two embedded reals with a nonzero denominator is the embedded real quotient. -/
theorem div_coe_coe {y : ℝ} (h : y ≠ 0) (x : ℝ) :
    Ideal.div (x : EReal) (y : EReal) = ((x / y : ℝ) : EReal) := by
  rw [Ideal.div_coe h, ← EReal.coe_mul, mul_one_div]

/-- In the reals: since `exp (a - c) * exp (x - a) = exp (x - c) = exp (m - c) * exp (x - m)`, the first
    part's numerator and denominator taken at reference `a` and rescaled to reference `c`, plus the second
    part's taken at `c`, are the common factor `exp (m - c)` times the numerator and denominator taken at any
    reference `m`; the factor cancels in the ratio. -/
theorem real_core {α β : Type*} (tα : Finset α) (tβ : Finset β) (sl vl : α → ℝ) (sh vh : β → ℝ)
    (a c m : ℝ) :
    (Real.exp (a - c) * (∑ j ∈ tα, Real.exp (sl j - a) * vl j) + ∑ j ∈ tβ, Real.exp (sh j - c) * vh j)
      / (Real.exp (a - c) * (∑ j ∈ tα, Real.exp (sl j - a)) + ∑ j ∈ tβ, Real.exp (sh j - c))
    = (∑ j ∈ tα, Real.exp (sl j - m) * vl j + ∑ j ∈ tβ, Real.exp (sh j - m) * vh j)
      / (∑ j ∈ tα, Real.exp (sl j - m) + ∑ j ∈ tβ, Real.exp (sh j - m)) := by
  have e1 : ∀ x : ℝ, Real.exp (a - c) * Real.exp (x - a) = Real.exp (m - c) * Real.exp (x - m) := by
    intro x; rw [← Real.exp_add, ← Real.exp_add]; congr 1; ring
  have e2 : ∀ x : ℝ, Real.exp (x - c) = Real.exp (m - c) * Real.exp (x - m) := by
    intro x; rw [← Real.exp_add]; congr 1; ring
  have hn : Real.exp (a - c) * (∑ j ∈ tα, Real.exp (sl j - a) * vl j)
        + ∑ j ∈ tβ, Real.exp (sh j - c) * vh j
      = Real.exp (m - c)
        * (∑ j ∈ tα, Real.exp (sl j - m) * vl j + ∑ j ∈ tβ, Real.exp (sh j - m) * vh j) := by
    rw [mul_add, Finset.mul_sum, Finset.mul_sum, Finset.mul_sum]
    congr 1
    · refine Finset.sum_congr rfl fun j _ => ?_
      rw [← mul_assoc, e1, mul_assoc]
    · refine Finset.sum_congr rfl fun j _ => ?_
      rw [e2, mul_assoc]
  have hd : Real.exp (a - c) * (∑ j ∈ tα, Real.exp (sl j - a)) + ∑ j ∈ tβ, Real.exp (sh j - c)
      = Real.exp (m - c) * (∑ j ∈ tα, Real.exp (sl j - m) + ∑ j ∈ tβ, Real.exp (sh j - m)) := by
    rw [mul_add, Finset.mul_sum, Finset.mul_sum, Finset.mul_sum]
    congr 1
    · exact Finset.sum_congr rfl fun j _ => e1 _
    · exact Finset.sum_congr rfl fun j _ => e2 _
  rw [hn, hd, mul_div_mul_left _ _ (Real.exp_pos _).ne']

/-- A sum over the 4096 positions of a row is the sum over its first half plus the sum over its second. -/
theorem sum_halves (g : Fin 4096 → ℝ) :
    ∑ n : Fin 4096, g n = ∑ j : Fin 2048, g (lo j) + ∑ j : Fin 2048, g (hi j) :=
  Fin.sum_univ_add (a := 2048) (b := 2048) g

/-- Two steps of the running-maximum recurrence over the halves of a row of finite scores `s` with finite
    values `v`: the rescaled numerator over the rescaled denominator is the softmax-weighted average. -/
theorem two_step (s v : Fin 4096 → ℝ) :
    Ideal.div
      (Ideal.exp ((Finset.univ.sup fun j : Fin 2048 => ((s (lo j) : ℝ) : EReal)) - max (Finset.univ.sup fun j : Fin 2048 => ((s (lo j) : ℝ) : EReal)) (Finset.univ.sup fun j : Fin 2048 => ((s (hi j) : ℝ) : EReal)))
          * (∑ j : Fin 2048, Ideal.exp (((s (lo j) : ℝ) : EReal) - Finset.univ.sup fun j : Fin 2048 => ((s (lo j) : ℝ) : EReal)) * ((v (lo j) : ℝ) : EReal))
        + ∑ j : Fin 2048, Ideal.exp (((s (hi j) : ℝ) : EReal) - max (Finset.univ.sup fun j : Fin 2048 => ((s (lo j) : ℝ) : EReal)) (Finset.univ.sup fun j : Fin 2048 => ((s (hi j) : ℝ) : EReal))) * ((v (hi j) : ℝ) : EReal))
      (Ideal.exp ((Finset.univ.sup fun j : Fin 2048 => ((s (lo j) : ℝ) : EReal)) - max (Finset.univ.sup fun j : Fin 2048 => ((s (lo j) : ℝ) : EReal)) (Finset.univ.sup fun j : Fin 2048 => ((s (hi j) : ℝ) : EReal)))
          * (∑ j : Fin 2048, Ideal.exp (((s (lo j) : ℝ) : EReal) - Finset.univ.sup fun j : Fin 2048 => ((s (lo j) : ℝ) : EReal)))
        + ∑ j : Fin 2048, Ideal.exp (((s (hi j) : ℝ) : EReal) - max (Finset.univ.sup fun j : Fin 2048 => ((s (lo j) : ℝ) : EReal)) (Finset.univ.sup fun j : Fin 2048 => ((s (hi j) : ℝ) : EReal))))
    = ∑ n : Fin 4096, Ideal.div (Ideal.exp (((s n : ℝ) : EReal) - Finset.univ.sup fun n : Fin 4096 => ((s n : ℝ) : EReal)))
          (∑ n' : Fin 4096, Ideal.exp (((s n' : ℝ) : EReal) - Finset.univ.sup fun n : Fin 4096 => ((s n : ℝ) : EReal))) * ((v n : ℝ) : EReal) := by
  -- The three suprema are real numbers a, b, m; the larger of the first two is the real max a b.
  obtain ⟨a, ha⟩ : ∃ a : ℝ, (Finset.univ.sup fun j : Fin 2048 => ((s (lo j) : ℝ) : EReal)) = (a : EReal) :=
    exists_sup_coe fun j => s (lo j)
  obtain ⟨b, hb⟩ : ∃ b : ℝ, (Finset.univ.sup fun j : Fin 2048 => ((s (hi j) : ℝ) : EReal)) = (b : EReal) :=
    exists_sup_coe fun j => s (hi j)
  obtain ⟨m, hm⟩ : ∃ m : ℝ, (Finset.univ.sup fun n : Fin 4096 => ((s n : ℝ) : EReal)) = (m : EReal) :=
    exists_sup_coe s
  rw [ha, hb, hm, max_coe]
  -- Every difference, exponential, product and finite sum is then of embedded reals, hence an embedded real.
  simp only [← EReal.coe_sub, Ideal.exp_coe, ← EReal.coe_mul, sum_coe, ← EReal.coe_add]
  -- Both denominators are sums of exponentials over nonempty index sets, hence positive.
  have hlo : 0 < ∑ j : Fin 2048, Real.exp (s (lo j) - a) :=
    Finset.sum_pos (fun j _ => Real.exp_pos _) Finset.univ_nonempty
  have hhi : 0 < ∑ j : Fin 2048, Real.exp (s (hi j) - max a b) :=
    Finset.sum_pos (fun j _ => Real.exp_pos _) Finset.univ_nonempty
  have hD : Real.exp (a - max a b) * (∑ j : Fin 2048, Real.exp (s (lo j) - a))
      + ∑ j : Fin 2048, Real.exp (s (hi j) - max a b) ≠ 0 :=
    (add_pos (mul_pos (Real.exp_pos _) hlo) hhi).ne'
  have hS : (∑ n : Fin 4096, Real.exp (s n - m)) ≠ 0 :=
    (Finset.sum_pos (fun n _ => Real.exp_pos _) Finset.univ_nonempty).ne'
  rw [div_coe_coe hD]
  simp only [div_coe_coe hS, ← EReal.coe_mul, sum_coe]
  rw [EReal.coe_eq_coe_iff]
  -- In the reals: the weighted average is one quotient of sums, each sum splits over the two halves,
  -- and the ratio does not depend on the reference subtracted in the exponents.
  have hR : ∑ n : Fin 4096, Real.exp (s n - m) / (∑ n' : Fin 4096, Real.exp (s n' - m)) * v n
      = (∑ n : Fin 4096, Real.exp (s n - m) * v n) / (∑ n' : Fin 4096, Real.exp (s n' - m)) := by
    rw [Finset.sum_div]
    exact Finset.sum_congr rfl fun n _ => div_mul_eq_mul_div _ _ _
  rw [hR, sum_halves (fun n => Real.exp (s n - m) * v n), sum_halves (fun n => Real.exp (s n - m))]
  exact real_core Finset.univ Finset.univ (fun j => s (lo j)) (fun j => v (lo j))
    (fun j => s (hi j)) (fun j => v (hi j)) a (max a b) m

end Cert.OnlineSoftmax

end
-- ==== Proof.KI.Final.lean ====
import proofs.«430516_j1580547968749_3_alg».proof.Proof.KI.Cover
import proofs.«430516_j1580547968749_3_alg».proof.Proof.KI.Payload
import proofs.«430516_j1580547968749_3_alg».proof.Proof.KI.HostIn
import proofs.«430516_j1580547968749_3_alg».proof.Proof.OnlineSoftmax
import proofs.«430516_j1580547968749_3_alg».proof.Proof.Spec

/-! The idealized kernel's result array is the specification's function of the two arguments, when every
    argument entry is a real number. One output element is the quotient stored at the last key step of its
    query tile; the two chained updates behind it are the online softmax over the two halves of the key axis,
    which equals the softmax over the whole axis; the scores on both sides are the same inner products of patch
    features, scaled by the temperature's exact reciprocal. -/

set_option maxRecDepth 16384

noncomputable section

open scoped BigOperators

namespace Cert.KernelIdeal.Final

open Idealize.ShloMosaic Idealize.ShloMosaic.TcCoe Idealize.ShloMosaic.ValueIdx Idealize.SL.Sem
open Cert.KernelIdeal Cert.KernelIdeal.Gen Cert.KernelIdeal.Hand Cert.KernelIdeal.Payload Cert.KernelIdeal.Cover Cert.KernelIdeal.HostIn
open Cert.OnlineSoftmax

/-! ## One row of one query tile -/

/-- The quotient stored after two chained updates, for query row `r` and output channel `cc`, when the scaled
    scores against the first and second key blocks are the two halves of a row `s` of real numbers, the value
    columns `cc` of the two value blocks the halves of a row `v` of real numbers, and the third value column is
    one: the softmax-weighted average of `v`. -/
theorem row_value (Q0 Q1 : Vec Ideal S1x1024x576 .bf16) (K0 K1 : Vec Ideal S1x2048x576 .bf16)
    (V0 V1 : Vec Ideal S1x2048x3 .bf16) (r : Fin 1024) (cc : Fin 2) (s v : Fin 4096 → ℝ)
    (hs0 : ∀ j : Fin 2048, k0_pay5 (F := Ideal) Q0 K0 (ix2 r j) = ((s (lo j) : ℝ) : EReal))
    (hs1 : ∀ j : Fin 2048, k0_pay5 (F := Ideal) Q1 K1 (ix2 r j) = ((s (hi j) : ℝ) : EReal))
    (hv0 : ∀ j : Fin 2048, V0 (ix3 (0 : Fin 1) j (⟨cc.val, by omega⟩ : Fin 3)) = ((v (lo j) : ℝ) : EReal))
    (hv1 : ∀ j : Fin 2048, V1 (ix3 (0 : Fin 1) j (⟨cc.val, by omega⟩ : Fin 3)) = ((v (hi j) : ℝ) : EReal))
    (ho0 : ∀ j : Fin 2048, V0 (ix3 (0 : Fin 1) j (2 : Fin 3)) = 1)
    (ho1 : ∀ j : Fin 2048, V1 (ix3 (0 : Fin 1) j (2 : Fin 3)) = 1) :
    k0_pay2 (F := Ideal)
        (k0_pay7 (F := Ideal) Q1 K1 (k0_pay1 (F := Ideal) (k0_pay6 (F := Ideal) Q0 K0 (k0_pay3 (F := Ideal)))) V1
          (k0_pay7 (F := Ideal) Q0 K0 (k0_pay3 (F := Ideal)) V0 (k0_pay4 (F := Ideal))))
        (ix3 (0 : Fin 1) r cc)
      = ∑ n : Fin 4096, Ideal.div (Ideal.exp (((s n : ℝ) : EReal) - Finset.univ.sup fun n : Fin 4096 => ((s n : ℝ) : EReal)))
          (∑ n' : Fin 4096, Ideal.exp (((s n' : ℝ) : EReal) - Finset.univ.sup fun n : Fin 4096 => ((s n : ℝ) : EReal))) * ((v n : ℝ) : EReal) := by
  rw [← two_step s v, pay2_apply]
  have hm0 : k0_pay6 (F := Ideal) Q0 K0 (k0_pay3 (F := Ideal)) (ix2 r (0 : Fin 1))
      = Finset.univ.sup fun j : Fin 2048 => ((s (lo j) : ℝ) : EReal) := by
    rw [pay6_apply, pay3_apply, max_eq_right bot_le]
    exact congrArg _ (funext hs0)
  have hm1 : k0_pay6 (F := Ideal) Q1 K1 (k0_pay1 (F := Ideal) (k0_pay6 (F := Ideal) Q0 K0 (k0_pay3 (F := Ideal)))) (ix2 r (0 : Fin 1))
      = max (Finset.univ.sup fun j : Fin 2048 => ((s (lo j) : ℝ) : EReal)) (Finset.univ.sup fun j : Fin 2048 => ((s (hi j) : ℝ) : EReal)) := by
    rw [pay6_apply, pay1_apply, hm0]
    exact congrArg _ (congrArg _ (funext hs1))
  have hacc0 : ∀ e : Fin 3, k0_pay7 (F := Ideal) Q0 K0 (k0_pay3 (F := Ideal)) V0 (k0_pay4 (F := Ideal)) (ix2 r e)
      = ∑ j : Fin 2048, Ideal.exp (((s (lo j) : ℝ) : EReal) - Finset.univ.sup fun j : Fin 2048 => ((s (lo j) : ℝ) : EReal)) * V0 (ix3 (0 : Fin 1) j e) := by
    intro e
    rw [pay7_apply, pay4_apply, mul_zero, zero_add, hm0]
    exact Finset.sum_congr rfl fun j _ => by rw [hs0]
  have hacc1 : ∀ e : Fin 3,
      k0_pay7 (F := Ideal) Q1 K1 (k0_pay1 (F := Ideal) (k0_pay6 (F := Ideal) Q0 K0 (k0_pay3 (F := Ideal)))) V1
          (k0_pay7 (F := Ideal) Q0 K0 (k0_pay3 (F := Ideal)) V0 (k0_pay4 (F := Ideal))) (ix2 r e)
      = Ideal.exp ((Finset.univ.sup fun j : Fin 2048 => ((s (lo j) : ℝ) : EReal)) - max (Finset.univ.sup fun j : Fin 2048 => ((s (lo j) : ℝ) : EReal)) (Finset.univ.sup fun j : Fin 2048 => ((s (hi j) : ℝ) : EReal)))
          * (∑ j : Fin 2048, Ideal.exp (((s (lo j) : ℝ) : EReal) - Finset.univ.sup fun j : Fin 2048 => ((s (lo j) : ℝ) : EReal)) * V0 (ix3 (0 : Fin 1) j e))
        + ∑ j : Fin 2048, Ideal.exp (((s (hi j) : ℝ) : EReal) - max (Finset.univ.sup fun j : Fin 2048 => ((s (lo j) : ℝ) : EReal)) (Finset.univ.sup fun j : Fin 2048 => ((s (hi j) : ℝ) : EReal))) * V1 (ix3 (0 : Fin 1) j e) := by
    intro e
    rw [pay7_apply, hm1, hacc0 e, pay1_apply, hm0]
    exact congrArg _ (Finset.sum_congr rfl fun j _ => by rw [hs1])
  rw [hacc1, hacc1]
  simp only [hv0, hv1, ho0, ho1, mul_one]

/-! ## The specification's quantities are real numbers when the arguments are -/

section Reals

variable (x0 : Cert.Spec.Sx.Idx → EReal) (x1 : Cert.Spec.Sf.Idx → EReal)

theorem lf_real (h1 : ∀ i, ∃ r : ℝ, x1 i = (r : EReal)) (b : Fin 4) (k : Fin 576) (p : Fin 4096) :
    ∃ r : ℝ, Cert.Spec.lf x1 b k p = (r : EReal) := by
  unfold Cert.Spec.lf Cert.Spec.padF
  split_ifs
  · exact h1 _
  · exact ⟨0, EReal.coe_zero.symm⟩

theorem xab_real (h0 : ∀ i, ∃ r : ℝ, x0 i = (r : EReal)) (b : Fin 4) (n : Fin 4096) (cc : Fin 2) :
    ∃ r : ℝ, Cert.Spec.xab x0 b n cc = (r : EReal) := by
  unfold Cert.Spec.xab; exact h0 _

/-- The real score of pixel `n` for pixel `p`, from real patch features `lr`. -/
def scR (lr : Fin 4 → Fin 576 → Fin 4096 → ℝ) (b : Fin 4) (p n : Fin 4096) : ℝ :=
  (∑ k : Fin 576, lr b k p * lr b k n) * (134217728 / 13421773)

theorem inner_coe (lr : Fin 4 → Fin 576 → Fin 4096 → ℝ) (hlr : ∀ b k p, Cert.Spec.lf x1 b k p = ((lr b k p : ℝ) : EReal))
    (b : Fin 4) (p n : Fin 4096) :
    (∑ k : Fin 576, Cert.Spec.lf x1 b k p * Cert.Spec.lf x1 b k n) * ((134217728 / 13421773 : ℝ) : EReal)
      = ((scR lr b p n : ℝ) : EReal) := by
  unfold scR
  rw [EReal.coe_mul, ← sum_coe]
  exact congrArg (· * _) (Finset.sum_congr rfl fun k _ => by rw [hlr, hlr, EReal.coe_mul])

theorem sc_coe (lr : Fin 4 → Fin 576 → Fin 4096 → ℝ) (hlr : ∀ b k p, Cert.Spec.lf x1 b k p = ((lr b k p : ℝ) : EReal))
    (b : Fin 4) (p n : Fin 4096) : Cert.Spec.sc x1 b p n = ((scR lr b p n : ℝ) : EReal) := by
  unfold Cert.Spec.sc Cert.Spec.corr Cert.Spec.α
  rw [div_alpha]
  exact inner_coe x1 lr hlr b p n

/-- The specification's weighted average over real scores and real values. -/
theorem out_coe (lr : Fin 4 → Fin 576 → Fin 4096 → ℝ) (hlr : ∀ b k p, Cert.Spec.lf x1 b k p = ((lr b k p : ℝ) : EReal))
    (vr : Fin 4 → Fin 4096 → Fin 2 → ℝ) (hvr : ∀ b n cc, Cert.Spec.xab x0 b n cc = ((vr b n cc : ℝ) : EReal))
    (b : Fin 4) (p : Fin 4096) (cc : Fin 2) :
    Cert.Spec.out x0 x1 b p cc
      = ∑ n : Fin 4096, Ideal.div (Ideal.exp (((scR lr b p n : ℝ) : EReal) - Finset.univ.sup fun n : Fin 4096 => ((scR lr b p n : ℝ) : EReal)))
          (∑ n' : Fin 4096, Ideal.exp (((scR lr b p n' : ℝ) : EReal) - Finset.univ.sup fun n : Fin 4096 => ((scR lr b p n : ℝ) : EReal))) * ((vr b n cc : ℝ) : EReal) := by
  unfold Cert.Spec.out Cert.Spec.den Cert.Spec.ex Cert.Spec.rowmax
  simp only [sc_coe x1 lr hlr, hvr]

end Reals

/-! ## The kernel's result array -/

variable (m : (ℓ : Loc nD τ sig) → Buf (Elt Ideal) ℓ)

/-- The scaled scores of query row `r` of tile `q` of batch `b` against key block `ki`, at a point `t` of that
    batch, tile and key step: the real scores of pixel `1024·q + r` against pixels `2048·ki + j`. -/
theorem scores_at (c : Dev nD) (lr : Fin 4 → Fin 576 → Fin 4096 → ℝ)
    (hlr : ∀ b k p, Cert.Spec.lf (m ((c : Thread nD τ).loc main_arg1)) b k p = ((lr b k p : ℝ) : EReal))
    (t : Fin cfg0.N) (b : Fin 4) (p n0 : Fin 4096) (r : Fin 1024)
    (hb : t.val / 8 = b.val) (hp : 1024 * (t.val / 2 % 4) + r.val = p.val) (hn : 2048 * (t.val % 2) = n0.val)
    (j : Fin 2048) (n : Fin 4096) (hnj : n.val = n0.val + j.val) :
    k0_pay5 (F := Ideal) (iblk m c 0 t) (iblk m c 1 t) (ix2 r j) = ((scR lr b p n : ℝ) : EReal) := by
  rw [pay5_apply, ← inner_coe _ lr hlr b p n]
  refine congrArg (· * _) (Finset.sum_congr rfl fun k _ => ?_)
  rw [iblk0_apply, iblk1_apply, V_lfT, V_lfT]
  have e1 : (⟨t.val / 8, by have hN : cfg0.N = 32 := N_0; have := t.isLt; omega⟩ : Fin 4) = b := Fin.ext hb
  have e2 : (⟨1024 * (t.val / 2 % 4) + r.val, by have := r.isLt; omega⟩ : Fin 4096) = p := Fin.ext hp
  have e3 : (⟨2048 * (t.val % 2) + j.val, by have := j.isLt; omega⟩ : Fin 4096) = n := Fin.ext (by rw [hnj, ← hn])
  rw [e1, e2, e3]

/-- The value block's column at a point `t` of batch `b` and key step `ki`: the a/b channel of pixel `2048·ki + j`,
    or one in the third column. -/
theorem values_at (c : Dev nD) (t : Fin cfg0.N) (b : Fin 4) (n0 : Fin 4096)
    (hb : t.val / 8 = b.val) (hn : 2048 * (t.val % 2) = n0.val)
    (j : Fin 2048) (n : Fin 4096) (hnj : n.val = n0.val + j.val) (e : Fin 3) :
    (iblk m c 2 t : S1x2048x3.Idx → EReal) (ix3 (0 : Fin 1) j e)
      = if h : e.val < 2 then Cert.Spec.xab (m ((c : Thread nD τ).loc main_arg0)) b n ⟨e.val, h⟩ else 1 := by
  rw [iblk2_apply, V_vaug]
  have e1 : (⟨t.val / 8, by have hN : cfg0.N = 32 := N_0; have := t.isLt; omega⟩ : Fin 4) = b := Fin.ext hb
  have e3 : (⟨2048 * (t.val % 2) + j.val, by have := j.isLt; omega⟩ : Fin 4096) = n := Fin.ext (by rw [hnj, ← hn])
  rw [e1, e3]

/-- The idealized kernel's result array, as the run leaves it, is the specification's function of the two
    argument arrays, when every argument entry is a real number. -/
theorem final_eq (c : Dev nD)
    (h0 : ∀ i : S4x3x64x64.Idx, ∃ r : ℝ, (m ((c.tc : Thread nD τ).loc main_arg0) : S4x3x64x64.Idx → EReal) i = (r : EReal))
    (h1 : ∀ i : S4x64x64x64.Idx, ∃ r : ℝ, (m ((c.tc : Thread nD τ).loc main_arg1) : S4x64x64x64.Idx → EReal) i = (r : EReal)) :
    (tailOut (F := Ideal) ((dats m 0 c).arrAt 3 cfg0.N) : S4x2x64x64.Idx → EReal)
      = Cert.Spec.G (m ((c.tc : Thread nD τ).loc main_arg0)) (m ((c.tc : Thread nD τ).loc main_arg1)) := by
  obtain ⟨lr, hlr⟩ : ∃ lr : Fin 4 → Fin 576 → Fin 4096 → ℝ,
      ∀ b k p, Cert.Spec.lf (m ((c.tc : Thread nD τ).loc main_arg1)) b k p = ((lr b k p : ℝ) : EReal) :=
    ⟨fun b k p => (lf_real _ h1 b k p).choose, fun b k p => (lf_real _ h1 b k p).choose_spec⟩
  obtain ⟨vr, hvr⟩ : ∃ vr : Fin 4 → Fin 4096 → Fin 2 → ℝ,
      ∀ b n cc, Cert.Spec.xab (m ((c.tc : Thread nD τ).loc main_arg0)) b n cc = ((vr b n cc : ℝ) : EReal) :=
    ⟨fun b n cc => (xab_real _ h0 b n cc).choose, fun b n cc => (xab_real _ h0 b n cc).choose_spec⟩
  funext i
  obtain ⟨b, cc, h, w, rfl⟩ : ∃ (b : Fin 4) (cc : Fin 2) (h w : Fin 64), i = ix4 b cc h w := ⟨i 0, i 1, i 2, i 3, eq_ix4 i⟩
  have hh := h.isLt
  have hw := w.isLt
  have hbl := b.isLt
  -- the pixel, its query tile and its row inside the tile
  let p : Fin 4096 := ⟨64 * h.val + w.val, by omega⟩
  let q : Fin 4 := ⟨p.val / 1024, by have := p.isLt; omega⟩
  let r : Fin 1024 := ⟨p.val % 1024, Nat.mod_lt _ (by decide)⟩
  have hN : cfg0.N = 32 := N_0
  have ht1 : (tOf b q).val = 8 * b.val + 2 * q.val + 1 := rfl
  have hq : q.val = p.val / 1024 := rfl
  have hr : r.val = p.val % 1024 := rfl
  have hqlt := q.isLt
  rw [tailOut_apply, arrAt_out]
  show (outAt m c (tOf b q) : S1x1024x2.Idx → EReal) (ix3 (0 : Fin 1) r cc) = _
  have hG : Cert.Spec.G (m ((c.tc : Thread nD τ).loc main_arg0)) (m ((c.tc : Thread nD τ).loc main_arg1)) (ix4 b cc h w)
      = Cert.Spec.out (m ((c.tc : Thread nD τ).loc main_arg0)) (m ((c.tc : Thread nD τ).loc main_arg1)) b p cc := by
    unfold Cert.Spec.G
    exact congrArg (fun x => Cert.Spec.out _ _ b x cc) (Fin.ext (by show (h.val * 64 + w.val) = 64 * h.val + w.val; omega))
  rw [hG, out_coe _ _ lr hlr vr hvr]
  unfold outAt
  rw [scAt_odd m c (tOf b q).val (tOf b q).isLt (by rw [ht1]; omega),
    scAt_even m c ((tOf b q).val - 1) (by rw [ht1]; omega) (by rw [ht1]; omega)]
  unfold stepAt
  dsimp only
  refine row_value _ _ _ _ _ _ r cc (scR lr b p) (fun n => vr b n cc) ?_ ?_ ?_ ?_ ?_ ?_
  · intro j
    exact scores_at m c lr hlr _ b p ⟨0, by decide⟩ r (by show ((tOf b q).val - 1) / 8 = b.val; rw [ht1]; omega)
      (by show 1024 * (((tOf b q).val - 1) / 2 % 4) + r.val = p.val; rw [ht1, hr, hq]; omega)
      (by show 2048 * (((tOf b q).val - 1) % 2) = 0; rw [ht1]; omega) j (lo j) (by show j.val = 0 + j.val; omega)
  · intro j
    exact scores_at m c lr hlr _ b p ⟨2048, by decide⟩ r (by show (tOf b q).val / 8 = b.val; rw [ht1]; omega)
      (by show 1024 * ((tOf b q).val / 2 % 4) + r.val = p.val; rw [ht1, hr, hq]; omega)
      (by show 2048 * ((tOf b q).val % 2) = 2048; rw [ht1]; omega) j (hi j) (by show 2048 + j.val = 2048 + j.val; rfl)
  · intro j
    rw [values_at m c _ b ⟨0, by decide⟩ (by show ((tOf b q).val - 1) / 8 = b.val; rw [ht1]; omega)
      (by show 2048 * (((tOf b q).val - 1) % 2) = 0; rw [ht1]; omega) j (lo j) (by show j.val = 0 + j.val; omega),
      dif_pos (show (⟨cc.val, by omega⟩ : Fin 3).val < 2 from cc.isLt)]
    exact hvr b (lo j) cc
  · intro j
    rw [values_at m c _ b ⟨2048, by decide⟩ (by show (tOf b q).val / 8 = b.val; rw [ht1]; omega)
      (by show 2048 * ((tOf b q).val % 2) = 2048; rw [ht1]; omega) j (hi j) (by show 2048 + j.val = 2048 + j.val; rfl),
      dif_pos (show (⟨cc.val, by omega⟩ : Fin 3).val < 2 from cc.isLt)]
    exact hvr b (hi j) cc
  · intro j
    rw [values_at m c _ b ⟨0, by decide⟩ (by show ((tOf b q).val - 1) / 8 = b.val; rw [ht1]; omega)
      (by show 2048 * (((tOf b q).val - 1) % 2) = 0; rw [ht1]; omega) j (lo j) (by show j.val = 0 + j.val; omega),
      dif_neg (by decide)]
  · intro j
    rw [values_at m c _ b ⟨2048, by decide⟩ (by show (tOf b q).val / 8 = b.val; rw [ht1]; omega)
      (by show 2048 * ((tOf b q).val % 2) = 2048; rw [ht1]; omega) j (hi j) (by show 2048 + j.val = 2048 + j.val; rfl),
      dif_neg (by decide)]

end Cert.KernelIdeal.Final

end
-- ==== Proof.KI.FiniteArgs.lean ====
import proofs.«430516_j1580547968749_3_alg».proof.Defs
import proofs.«430516_j1580547968749_3_alg».proof.Proof.Gen.KernelIdeal
import proofs.«430516_j1580547968749_3_alg».proof.Proof.Gen.Pre_finite_inputs
import Idealize.ShloMosaic.Lib.ReduceAll
import Idealize.ShloMosaic.Lib.ValueIdx

/-! Under the precondition every entry of the two argument arrays is a real number. -/

noncomputable section

namespace Cert.KernelIdeal.FiniteArgs

open Idealize.ShloMosaic Idealize.ShloMosaic.TcCoe Idealize.SL.Sem Cert.KernelIdeal

/-- The index type of a rank-zero array has a single element. -/
instance : Subsingleton Cert.Pre_finite_inputs.S_.Idx := ⟨fun a b => funext fun d => d.elim0⟩

/-- An extended real whose absolute value lies strictly below +∞ is a real number:
    both infinities have absolute value +∞, which is not strictly below itself. -/
theorem real_of_abs_lt_top (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- The precondition gives, on every core, a real number behind each entry of both arguments. -/
theorem finite_args [hK : Cert.KernelIdeal.Facts] (m : (ℓ : Loc nD τ sig) → Buf (Elt Ideal) ℓ)
    (h : Cert.Pre_KernelIdeal (hPre_finite_inputs := Cert.Pre_finite_inputs.Gen.facts) m) (c : Dev nD) :
    (∀ i : S4x3x64x64.Idx, ∃ r : ℝ, (m ((c.tc : Thread nD τ).loc main_arg0) : S4x3x64x64.Idx → EReal) i = (r : EReal))
    ∧ (∀ i : S4x64x64x64.Idx, ∃ r : ℝ, (m ((c.tc : Thread nD τ).loc main_arg1) : S4x64x64x64.Idx → EReal) i = (r : EReal)) := by
  have h0 := congrFun (h c) ValueIdx.ix0
  dsimp only [Cert.Pre_finite_inputs.fn] at h0
  obtain ⟨h1, h2⟩ := IntOp.andi_eq_one.1 h0
  refine ⟨fun i => ?_, fun i => ?_⟩
  · have e := Host.reduce_andi_all _ _ _ _ _ h1 i
    exact real_of_abs_lt_top _ e
  · have e := Host.reduce_andi_all _ _ _ _ _ h2 i
    exact real_of_abs_lt_top _ e

end Cert.KernelIdeal.FiniteArgs

end
-- ==== Proof.K.Kit.lean ====
import proofs.«430516_j1580547968749_3_alg».proof.Proof.Gen.Kernel.Launch
import proofs.«430516_j1580547968749_3_alg».proof.Proof.Gen.Kernel.Skeleton
import proofs.«430516_j1580547968749_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-!
  What every module about this attention kernel's pipeline shares: the buffers' contents when the region
  is entered (the three stretches of host operations applied to the launch memory), @main as those
  stretches, the region, and the two operations after it; each window's block at a grid point; the two
  conditions of the body (first step of the key axis, last step of the key axis) in closed form over the
  32 grid points; where the output window is idle; and the staging and scratch memrefs by name.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: the launch memory after the host operations
    that build the patch features and the augmented values. -/
abbrev V0 (c : Dev nD) : Valuation τ sig (Elt F) :=
  StableHlo.after (List.flatten [hostOps0, hostOps0_1, hostOps0_2]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is three stretches of host operations, the region, and two more operations: it reduces to the
    region continued by the later two, at the contents after the earlier ones. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2] [hostOps1]
    ⟨hostOps0_sub, hostOps0_1_sub, hostOps0_2_sub⟩ ⟨hostOps0_fresh, hostOps0_1_fresh, hostOps0_2_fresh⟩ main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions over the grid -/

/-- The body's first conditional: this is the first step along the key axis (the running maximum and the
    accumulator are reset). -/
abbrev cond0_0 (i : grid0.Coords) : Prop :=
  (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The body's second conditional: this is the last step along the key axis (the quotient is stored). -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-! ## Where the windows are idle, and where the output is written back -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- At the even points the output window is idle (nothing is stored into it) -/
theorem idleAt0_3_A : ∀ t : Fin cfg0.N, t.val % 2 = 0 → cfg0.idle 3 (grid0.coords t) = true := by decide +kernel
/-- and not written back; -/
theorem noFlush0_3_A : ∀ t : Fin cfg0.N, t.val % 2 = 0 → (cfg0.win 3).flush t = false := by decide +kernel
/-- at the odd points it is live -/
theorem liveAt0_3_B : ∀ t : Fin cfg0.N, t.val % 2 = 1 → cfg0.idle 3 (grid0.coords t) = false := by decide +kernel
/-- and written back. -/
theorem flush0_3_B : ∀ t : Fin cfg0.N, t.val % 2 = 1 → (cfg0.win 3).flush t = true := by decide +kernel

/-! ## The staging and scratch memrefs -/

abbrev ms0_0 (t : Fin cfg0.N) : Memref sig .tc .vmem S1x1024x576 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048x576 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x2048x3 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1024x2 .f32 := win0_3.stage (cfg0.slots t 3)
abbrev hs0_3 (t : Fin cfg0.N) : (ms0_3 t).IsWhole := hstage0_3 ((cfg0.slots t 3).cast nbuf0_3)
/-- The running maximum's scratch, -/
abbrev scM0_0 : Memref sig .tc .vmem S1024x1 .f32 := Memref.whole cc0_scratch0
/-- and the accumulator's. -/
abbrev scM0_1 : Memref sig .tc .vmem S1024x3 .f32 := Memref.whole cc0_scratch1
abbrev VS0_0 : View sig .tc .vmem S1024x1 .f32 := (scM0_0).view
abbrev VS0_1 : View sig .tc .vmem S1024x3 .f32 := (scM0_1).view
abbrev VO0_3 : View sig .tc .vmem S1x1024x2 .f32 := (Memref.whole cc0_stg3_0 : Memref sig .tc .vmem S1x1024x2 .f32).view

/-- The region's plain invariant with the two scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Hand

end
-- ==== Proof.K.Data.lean ====
import proofs.«430516_j1580547968749_3_alg».proof.Proof.K.Kit

/-!
  The proof data of the attention kernel's pipeline.

  A grid point is (batch, query tile, key step) with two key steps per query tile, so the even points are first
  steps and the odd points last steps. At a first step the body resets the running maximum to -∞ and the
  accumulator to 0 and then makes one update from them; at a last step it updates from what the first step left
  and stores the quotient of the accumulator's first two columns by its third. So the two scratch buffers after
  any point are one update (`stepAt`) from the reset values at an even point, and one update from the previous
  point's at an odd one; the output's staging buffer after an odd point is the quotient of that accumulator.
-/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the scratch buffers and the output's buffer hold after each point -/

/-- One update of (running maximum, accumulator) at point `t` from the pair `(mp, ap)`: the new maximum over the
    point's key block, and the rescaled accumulator plus the block's weighted values. -/
def stepAt (c : Dev nD) (t : Fin cfg0.N) (mp : Vec F S1024x1 .f32) (ap : Vec F S1024x3 .f32) :
    Vec F S1024x1 .f32 × Vec F S1024x3 .f32 :=
  (k0_pay1 (k0_pay6 (iblk m c 0 t) (iblk m c 1 t) mp), k0_pay7 (iblk m c 0 t) (iblk m c 1 t) mp (iblk m c 2 t) ap)

/-- The two scratch buffers after point `n`: at an even point one update from the reset values, at an odd point
    one update from what the point before left. -/
def scAt (c : Dev nD) (n : ℕ) (h : n < cfg0.N) : Vec F S1024x1 .f32 × Vec F S1024x3 .f32 :=
  if n % 2 = 0 then stepAt m c ⟨n, h⟩ (k0_pay3 (F := F)) (k0_pay4 (F := F))
  else stepAt m c ⟨n, h⟩ (stepAt m c ⟨n - 1, by omega⟩ (k0_pay3 (F := F)) (k0_pay4 (F := F))).1
      (stepAt m c ⟨n - 1, by omega⟩ (k0_pay3 (F := F)) (k0_pay4 (F := F))).2

/-- The output window's staging buffer after point `t` (consulted at the odd points only): the quotient. -/
def outAt (c : Dev nD) (t : Fin cfg0.N) : Vec F S1x1024x2 .f32 := k0_pay2 (scAt m c t.val t.isLt).2

theorem scAt_even (c : Dev nD) (n : ℕ) (h : n < cfg0.N) (he : n % 2 = 0) :
    scAt m c n h = stepAt m c ⟨n, h⟩ (k0_pay3 (F := F)) (k0_pay4 (F := F)) := by
  unfold scAt; rw [if_pos he]

theorem scAt_odd (c : Dev nD) (n : ℕ) (h : n < cfg0.N) (ho : n % 2 = 1) :
    scAt m c n h = stepAt m c ⟨n, h⟩ (scAt m c (n - 1) (by omega)).1 (scAt m c (n - 1) (by omega)).2 := by
  have he : (n - 1) % 2 = 0 := by omega
  rw [scAt_even m c (n - 1) (by omega) he]
  unfold scAt; rw [if_neg (by omega)]

/-! ## The invariant between points -/

/-- Before point 0 the region's plain invariant (the scratch at anything); after point `n` the two scratch
    buffers at `scAt n`; always the generator register at some state. -/
def PhiS (c : Dev nD) : (n : ℕ) → n ≤ cfg0.N → sProp 𝕄
  | 0, _ => Pipeline.ΦA spec0 c
  | n + 1, h => iprop(iprop(owns (c : Thread nD τ) scM0_0 fullShare ((scAt m c n h).1) ∗ owns (c : Thread nD τ) scM0_1 fullShare ((scAt m c n h).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((scAt m c n hn).1) ∗ owns (c : Thread nD τ) scM0_1 fullShare ((scAt m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((scAt m c (n - 1) (by omega)).1) ∗ owns (c : Thread nD τ) scM0_1 fullShare ((scAt m c (n - 1) (by omega)).2)) ∗ (∃ r, prngReg c r)) := by
  cases n with
  | zero => exact absurd rfl hz
  | succ n => rfl

/-! ## The pipeline's proof data -/

/-- The proof data on core `c`: the arrays as the region finds them; after the body each input's buffer still at
    its block and the output's at `outAt`; the invariant `PhiS`; nothing owed; the patch-feature array, which the
    query window and the key window both read, held half by each, the value array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem q0_0 (c : Dev nD) : (dats m 0 c).q 0 = fullShare.left := by dsimp only [dats]
theorem q0_1 (c : Dev nD) : (dats m 0 c).q 1 = fullShare.right := by dsimp only [dats]
theorem q0_2 (c : Dev nD) : (dats m 0 c).q 2 = fullShare := by dsimp only [dats]

end Cert.Kernel.Hand

end
-- ==== Proof.K.RunA.lean ====
import proofs.«430516_j1580547968749_3_alg».proof.Proof.K.Kit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Reading back a whole buffer stored through the whole-shape rectangle -/

section Whole

variable {κ : Kind} {sp : Space} {S : Shape} {e : EltTy}

/-- After a store through the whole-shape rectangle at zero offsets, made last, a view of the shape reads the
    payload of that store, whatever was stored before and whatever the buffer held. -/
private theorem read_writes_unit_zero (v : View sig κ sp S e) (f : v.ty.Contents (Elt F)) {off : Fin S.rank → Nat}
    (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb w L]

/-- A load through the whole-shape rectangle of a whole memref's contents reads what the memref reads. -/
private theorem readAt_unit_zero_unread {m : Memref sig κ sp S e} (h : m.IsWhole) {off : Fin S.rank → Nat}
    (hz : off = fun _ => 0) (inb : ∀ a, off a + S.size a ≤ S.size a) (X : S.Idx → Elt F e) :
    m.view.readAt (Elt F) (Rect.unit off S.size inb).toLoadRect (h.unread X) = X := by
  show View.ld (m.view.read (Elt F) (h.unread X)) (Rect.unit off S.size inb) = X
  rw [h.read_unread, View.ld_unit_zero hz inb]

/-- A load through the whole-shape rectangle after a store through it, made last, reads that store's payload. -/
private theorem readCov_cons_unit_zero (v : View sig κ sp S e) {off : Fin S.rank → Nat}
    (hz : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.mem_cons_self, View.mem_set_unit_zero hz inb y⟩),
    View.canon_cons_unit_zero hz inb w L, View.ld_unit_zero hz inb]

end Whole

private theorem zeros2 : (![0, 0] : Fin 2 → Nat) = fun _ => 0 := by funext a; fin_cases a <;> rfl
private theorem zeros3 : (![0, 0, 0] : Fin 3 → Nat) = fun _ => 0 := by funext a; fin_cases a <;> rfl

set_option maxHeartbeats 1000000 in
/-- The body at a FIRST key step (the reset is taken, the final store is not), on any whole memrefs: the three
    input buffers at their contents and the output's buffer at its contents are handed back as they were; the
    two scratch buffers, found at anything, are left at one update from the reset values. -/
theorem run_A (c : Dev nD) (i : grid0.Coords) (arg3 : Memref sig .tc .vmem S1x1024x576 .bf16) (harg3 : arg3.IsWhole) (arg4 : Memref sig .tc .vmem S1x2048x576 .bf16) (harg4 : arg4.IsWhole) (arg5 : Memref sig .tc .vmem S1x2048x3 .bf16) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x3 .f32) (harg8 : arg8.IsWhole)
    (hc0 : cond0_0 i) (hc1 : ¬cond0_1 i)
    (x0 : Vec F S1x1024x576 .bf16) (x1 : Vec F S1x2048x576 .bf16) (x2 : Vec F S1x2048x3 .bf16) (y : Vec F S1x1024x2 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ owns (c : Thread nD τ) arg6 fullShare y
        ∗ (∃ d, owns (c : Thread nD τ) arg7 fullShare d) ∗ (∃ d, owns (c : Thread nD τ) arg8 fullShare d)
        ∗ (iprop(owns (c : Thread nD τ) arg3 fullShare x0 ∗ owns (c : Thread nD τ) arg4 fullShare x1 ∗ owns (c : Thread nD τ) arg5 fullShare x2
            ∗ owns (c : Thread nD τ) arg6 fullShare y
            ∗ owns (c : Thread nD τ) arg7 fullShare (k0_pay1 (k0_pay6 x0 x1 (k0_pay3 (F := F))))
            ∗ owns (c : Thread nD τ) arg8 fullShare (k0_pay7 x0 x1 (k0_pay3 (F := F)) x2 (k0_pay4 (F := F)))) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%dm, %fm, -, HM⟩, ⟨%da, %fa, -, HA⟩, Hk⟩
  obtain rfl := harg3.eq_unread hf0; obtain rfl := harg4.eq_unread hf1; obtain rfl := harg5.eq_unread hf2
  obtain rfl := harg6.eq_unread hf3
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [HM]
  · -- the running maximum's buffer: the reset value, then the updated maximum, stored last
    iexists _; isplitr; swap; · iexact HM
    ipureintro
    sl_unfold_run_names
    refine (read_writes_unit_zero (S := S1024x1) arg7.view fm zeros2 inb_S1024x1_S1024x1_0_0 _ _).trans ?_
    dsimp only
    rw [readAt_unit_zero_unread harg3 zeros3, readAt_unit_zero_unread harg4 zeros3, readCov_cons_unit_zero arg7.view zeros2]
  -- the accumulator's buffer: the reset value, then the updated accumulator, stored last
  iexists _; isplitr; swap; · iexact HA
  ipureintro
  sl_unfold_run_names
  refine (read_writes_unit_zero (S := S1024x3) arg8.view fa zeros2 inb_S1024x3_S1024x3_0_0 _ _).trans ?_
  rw [readAt_unit_zero_unread harg3 zeros3, readAt_unit_zero_unread harg4 zeros3, readAt_unit_zero_unread harg5 zeros3,
    readCov_cons_unit_zero arg7.view zeros2, readCov_cons_unit_zero arg8.view zeros2]

end Cert.Kernel.Hand

end
-- ==== Proof.K.RunB.lean ====
import proofs.«430516_j1580547968749_3_alg».proof.Proof.K.Kit
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## Reading back a whole buffer stored through the whole-shape rectangle -/

section Whole

variable {κ : Kind} {sp : Space} {S : Shape} {e : EltTy}

/-- After a store through the whole-shape rectangle at zero offsets, made last, a view of the shape reads the
    payload of that store, whatever was stored before and whatever the buffer held. -/
private theorem read_writes_unit_zero (v : View sig κ sp S e) (f : v.ty.Contents (Elt F)) {off : Fin S.rank → Nat}
    (hz : off = fun _ => 0) (inb : ∀ a, off a + S.size a ≤ S.size a) (w : S.Idx → Elt F e)
    (L : List (View.Piece (Elt F) S e)) :
    v.read (Elt F) (v.writes (Elt F) f ((⟨Rect.unit off S.size inb, w⟩ : View.Piece (Elt F) S e) :: L)) = w := by
  rw [View.read_writes_eq_canon v f _ (fun y => ⟨_, List.mem_cons_self, View.mem_set_unit_zero hz inb y⟩),
    View.canon_cons_unit_zero hz inb w L]

/-- A load through the whole-shape rectangle of a whole memref's contents reads what the memref reads. -/
private theorem readAt_unit_zero_unread {m : Memref sig κ sp S e} (h : m.IsWhole) {off : Fin S.rank → Nat}
    (hz : off = fun _ => 0) (inb : ∀ a, off a + S.size a ≤ S.size a) (X : S.Idx → Elt F e) :
    m.view.readAt (Elt F) (Rect.unit off S.size inb).toLoadRect (h.unread X) = X := by
  show View.ld (m.view.read (Elt F) (h.unread X)) (Rect.unit off S.size inb) = X
  rw [h.read_unread, View.ld_unit_zero hz inb]

/-- A load through the whole-shape rectangle after a store through it, made last, reads that store's payload. -/
private theorem readCov_cons_unit_zero (v : View sig κ sp S e) {off : Fin S.rank → Nat}
    (hz : off = fun _ => 0) (inb : ∀ a, off a + S.size a ≤ S.size a) (w : S.Idx → Elt F e)
    (L : List (View.Piece (Elt F) S e)) :
    v.readCov ((⟨Rect.unit off S.size inb, w⟩ : View.Piece (Elt F) S e) :: L) (Rect.unit off S.size inb).toLoadRect = w := by
  rw [View.readCov_eq_canon_ld v _ _ (fun y => ⟨_, List.mem_cons_self, View.mem_set_unit_zero hz inb y⟩),
    View.canon_cons_unit_zero hz inb w L, View.ld_unit_zero hz inb]

end Whole

private theorem zeros2 : (![0, 0] : Fin 2 → Nat) = fun _ => 0 := by funext a; fin_cases a <;> rfl
private theorem zeros3 : (![0, 0, 0] : Fin 3 → Nat) = fun _ => 0 := by funext a; fin_cases a <;> rfl

set_option maxHeartbeats 1000000 in
/-- The body at a LAST key step (no reset, the final store is made), on any whole memrefs: the input buffers are
    handed back as they were; the scratch buffers, found at `(xm, xa)`, are left at one update from them; the
    output's buffer, found at anything, is left at the quotient of the updated accumulator. -/
theorem run_B (c : Dev nD) (i : grid0.Coords) (arg3 : Memref sig .tc .vmem S1x1024x576 .bf16) (harg3 : arg3.IsWhole) (arg4 : Memref sig .tc .vmem S1x2048x576 .bf16) (harg4 : arg4.IsWhole) (arg5 : Memref sig .tc .vmem S1x2048x3 .bf16) (harg5 : arg5.IsWhole) (arg6 : Memref sig .tc .vmem S1x1024x2 .f32) (harg6 : arg6.IsWhole) (arg7 : Memref sig .tc .vmem S1024x1 .f32) (harg7 : arg7.IsWhole) (arg8 : Memref sig .tc .vmem S1024x3 .f32) (harg8 : arg8.IsWhole)
    (hc0 : ¬cond0_0 i) (hc1 : cond0_1 i)
    (x0 : Vec F S1x1024x576 .bf16) (x1 : Vec F S1x2048x576 .bf16) (x2 : Vec F S1x2048x3 .bf16)
    (xm : Vec F S1024x1 .f32) (xa : Vec F S1024x3 .f32)
    (E : Set ℕ) (K : PUnit → sProp 𝕄) :
    iprop(owns (c : Thread nD τ) arg3 fullShare x0 ∗ owns (c : Thread nD τ) arg4 fullShare x1 ∗ owns (c : Thread nD τ) arg5 fullShare x2
        ∗ (∃ d, owns (c : Thread nD τ) arg6 fullShare d)
        ∗ owns (c : Thread nD τ) arg7 fullShare xm ∗ owns (c : Thread nD τ) arg8 fullShare xa
        ∗ (iprop(owns (c : Thread nD τ) arg3 fullShare x0 ∗ owns (c : Thread nD τ) arg4 fullShare x1 ∗ owns (c : Thread nD τ) arg5 fullShare x2
            ∗ owns (c : Thread nD τ) arg6 fullShare (k0_pay2 (k0_pay7 x0 x1 xm x2 xa))
            ∗ owns (c : Thread nD τ) arg7 fullShare (k0_pay1 (k0_pay6 x0 x1 xm))
            ∗ owns (c : Thread nD τ) arg8 fullShare (k0_pay7 x0 x1 xm x2 xa)) -∗ K ⟨⟩))
      ⊢ wp frame (wpE (defs₀ (F := F)) Variants.none c none) E (cc0__attn_kernel i arg3 harg3 arg4 harg4 arg5 harg5 arg6 harg6 arg7 harg7 arg8 harg8) K := by
  simp only [cc0__attn_kernel_eq_skeleton]; unfold cc0__attn_kernel_skel
  simp only [k0_part1_eq_skeleton]; unfold k0_part1_skel
  unfold owns
  iintro ⟨⟨%f0, %hf0, H0⟩, ⟨%f1, %hf1, H1⟩, ⟨%f2, %hf2, H2⟩, ⟨%d3, %f3, -, H3⟩, ⟨%fm, %hfm, HM⟩, ⟨%fa, %hfa, HA⟩, Hk⟩
  obtain rfl := harg3.eq_unread hf0; obtain rfl := harg4.eq_unread hf1; obtain rfl := harg5.eq_unread hf2
  obtain rfl := harg7.eq_unread hfm; obtain rfl := harg8.eq_unread hfa
  sl_exec (disch := first | exact hc0 | exact hc1)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · -- the output's buffer: one store of the quotient of what the accumulator's buffer reads back
    iexists _; isplitr; swap; · iexact H3
    ipureintro
    sl_unfold_run_names
    refine (read_writes_unit_zero (S := S1x1024x2) arg6.view f3 zeros3 inb_S1x1024x2_S1x1024x2_0_0_0 _ []).trans ?_
    refine congrArg k0_pay2 ?_
    refine (readCov_cons_unit_zero (S := S1024x3) arg8.view zeros2 inb_S1024x3_S1024x3_0_0 _ []).trans ?_
    rw [readAt_unit_zero_unread harg3 zeros3, readAt_unit_zero_unread harg4 zeros3, readAt_unit_zero_unread harg7 zeros2,
      readAt_unit_zero_unread harg5 zeros3, readAt_unit_zero_unread harg8 zeros2]
  isplitl [HM]
  · -- the running maximum's buffer: one store of the updated maximum
    iexists _; isplitr; swap; · iexact HM
    ipureintro
    sl_unfold_run_names
    refine (read_writes_unit_zero (S := S1024x1) arg7.view _ zeros2 inb_S1024x1_S1024x1_0_0 _ []).trans ?_
    dsimp only
    rw [readAt_unit_zero_unread harg3 zeros3, readAt_unit_zero_unread harg4 zeros3, readAt_unit_zero_unread harg7 zeros2]
  -- the accumulator's buffer: one store of the updated accumulator
  iexists _; isplitr; swap; · iexact HA
  ipureintro
  sl_unfold_run_names
  refine (read_writes_unit_zero (S := S1024x3) arg8.view _ zeros2 inb_S1024x3_S1024x3_0_0 _ []).trans ?_
  rw [readAt_unit_zero_unread harg3 zeros3, readAt_unit_zero_unread harg4 zeros3, readAt_unit_zero_unread harg7 zeros2,
      readAt_unit_zero_unread harg5 zeros3, readAt_unit_zero_unread harg8 zeros2]

end Cert.Kernel.Hand

end
-- ==== Proof.K.Body.lean ====
import proofs.«430516_j1580547968749_3_alg».proof.Proof.K.Data
import proofs.«430516_j1580547968749_3_alg».proof.Proof.K.RunA
import proofs.«430516_j1580547968749_3_alg».proof.Proof.K.RunB

/-! The body obligation of the attention kernel's pipeline: at every grid point the kernel function, called on
    the point's staging buffers and the two scratch buffers, takes the invariant before the point to the
    invariant after it and leaves each window's buffer at what the proof data say. At an even point (a first key
    step) the scratch buffers are found at anything and left at one update from the reset values, and the
    output's buffer is handed back untouched; at an odd point (a last key step) the scratch buffers are found at
    what the point before left, updated once more, and the output's buffer is left at the quotient. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the body finds in the input windows' buffers -/

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)

/-! ## The scratch contents at a point, stated at the point itself -/

theorem scAt_even_at (c : Dev nD) (t : Fin cfg0.N) (he : t.val % 2 = 0) :
    scAt m c t.val t.isLt = stepAt m c t (k0_pay3 (F := F)) (k0_pay4 (F := F)) :=
  scAt_even m c t.val t.isLt he

theorem scAt_odd_at (c : Dev nD) (t : Fin cfg0.N) (ho : t.val % 2 = 1) :
    scAt m c t.val t.isLt = stepAt m c t (scAt m c (t.val - 1) (by have := t.isLt; omega)).1 (scAt m c (t.val - 1) (by have := t.isLt; omega)).2 :=
  scAt_odd m c t.val t.isLt ho

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4000000 in
/-- The body at any point, by the point's parity. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 32 := lt_of_lt_of_eq t.isLt (show cfg0.N = 32 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val % 2 = 0
  · have h1 : ¬ t.val % 2 = 1 := by omega
    rw [Dat.leavesExact_idle (dats m 0 c) 3 t (idleAt0_3_A t h0) (noFlush0_3_A t h0)]
    rw [scAt_even_at m c t h0]
    unfold stepAt; dsimp only
    by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩⟩
      iapply (run_A c (grid0.coords t) _ _ _ _ _ _ _ _ _ _ _ _ ((hcond0_0 t).mpr h0) (fun h => h1 ((hcond0_1 t).mp h))
        (iblk m c 0 t) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩⟩
      iapply (run_A c (grid0.coords t) _ _ _ _ _ _ _ _ _ _ _ _ ((hcond0_0 t).mpr h0) (fun h => h1 ((hcond0_1 t).mp h))
        (iblk m c 0 t) (iblk m c 1 t) (iblk m c 2 t) ((dats m 0 c).before 3 t d3) Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      iintro ⟨H0, H1, H2, H3, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      iexists _; iexact H3
  · have h1 : t.val % 2 = 1 := by omega
    have hz : t.val ≠ 0 := by omega
    rw [show (dats m 0 c).leavesExact 3 t = owns (c : Thread nD τ) (ms0_3 t) fullShare ((dats m 0 c).after 3 t) from by
      unfold Dat.leavesExact; rw [liveAt0_3_B t h1], after0_3]
    unfold outAt
    rw [scAt_odd_at m c t h1]
    unfold stepAt; dsimp only
    rw [PhiS_castSucc m c t, PhiS_pos m c _ _ hz]
    iintro ⟨⟨⟨HS0, HS1⟩, Hg⟩, Ho, ⟨%d0, H0⟩, ⟨%d1, H1⟩, ⟨%d2, H2⟩, ⟨%d3, H3⟩⟩
    iapply (run_B c (grid0.coords t) _ _ _ _ _ _ _ _ _ _ _ _ (fun h => h0 ((hcond0_0 t).mp h)) ((hcond0_1 t).mpr h1)
      (iblk m c 0 t) (iblk m c 1 t) (iblk m c 2 t) _ _ Set.univ _)
    isplitl [H0]; · iexact H0
    isplitl [H1]; · iexact H1
    isplitl [H2]; · iexact H2
    isplitl [H3]; · iexists _; iexact H3
    isplitl [HS0]; · iexact HS0
    isplitl [HS1]; · iexact HS1
    iintro ⟨H0, H1, H2, H3, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the plain invariant back: the scratch contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 32 := N_0; omega)

end Cert.Kernel.Hand

end
-- ==== Proof.K.Split.lean ====
import proofs.«430516_j1580547968749_3_alg».proof.Proof.K.Data

/-! The patch-feature array is read through two windows at once. At the region's entry the three distinct
    buffers behind the four windows' arrays, each whole at the full share, are dealt to the windows: the
    patch-feature buffer's share is split in two halves, one for the query window and one for the key window;
    the value buffer goes whole to its window and the result buffer whole to the output window. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays are the three buffers of the patch features, the values and the result. -/
theorem arrRefs_eq : (Finset.univ.image (Pipeline.arrRef spec0) : Finset (Ref sig .tc)) = [main_v13, main_v19, main_v20].toFinset := by decide

/-- A window's array is a whole buffer: held over its elements it is the buffer's plain points-to. -/
theorem win_pt (c : Dev nD) (w : Fin 4) (q : PosShare TreeShare) (X : Buf (Elt F) ((cfg0.win w).arr.view.loc (c.tc : Thread nD τ))) :
    (View.loc (c.tc : Thread nD τ) (cfg0.win w).arr.view ↦[(cfg0.win w).arr.view.set]{q} X : sProp 𝕄)
      = ((c.tc : Thread nD τ).loc (Pipeline.arrRef spec0 w) ↦{q} X) := by
  rw [(arr_whole0 w).set_eq_univ]

/-- The shares the four windows hold their arrays at. -/
theorem share0_0 (c : Dev nD) : (dats m 0 c).share 0 = fullShare.left := by
  unfold Dat.share; rw [if_neg (by decide)]; exact q0_0 m c
theorem share0_1 (c : Dev nD) : (dats m 0 c).share 1 = fullShare.right := by
  unfold Dat.share; rw [if_neg (by decide)]; exact q0_1 m c
theorem share0_2 (c : Dev nD) : (dats m 0 c).share 2 = fullShare := by
  unfold Dat.share; rw [if_neg (by decide)]; exact q0_2 m c
theorem share0_3 (c : Dev nD) : (dats m 0 c).share 3 = fullShare := by
  unfold Dat.share; rw [if_pos (by decide)]

/-- The buffers behind the windows' arrays make the proof data's arrays at their entry contents. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  unfold Pipeline.arrBufs Dat.arrays
  rw [bigSep_eq_bigSepL_of_eq [main_v13, main_v19, main_v20] arrRefs_eq (by decide)]
  rw [bigSep_W0]
  rw [win_pt c 0, win_pt c 1, win_pt c 2, win_pt c 3, share0_0, share0_1, share0_2, share0_3]
  show iprop(((c.tc : Thread nD τ).loc main_v13 ↦{fullShare} V m c main_v13) ∗ ((c.tc : Thread nD τ).loc main_v19 ↦{fullShare} V m c main_v19) ∗ ((c.tc : Thread nD τ).loc main_v20 ↦{fullShare} V m c main_v20))
    ⊢ iprop(((c.tc : Thread nD τ).loc main_v13 ↦{fullShare.left} V m c main_v13) ∗ ((c.tc : Thread nD τ).loc main_v13 ↦{fullShare.right} V m c main_v13) ∗ ((c.tc : Thread nD τ).loc main_v19 ↦{fullShare} V m c main_v19) ∗ ((c.tc : Thread nD τ).loc main_v20 ↦{fullShare} V m c main_v20))
  iintro ⟨H13, H19, H20⟩
  ihave H := (pointsTo_share (PosShare.mem_left_op_right fullShare)).1 $$ H13
  icases H with ⟨Hl, Hr⟩
  isplitl [Hl]; · iexact Hl
  isplitl [Hr]; · iexact Hr
  isplitl [H19]; · iexact H19
  iexact H20

end Cert.Kernel.Hand

end
-- ==== Proof.K.Launch.lean ====
import proofs.«430516_j1580547968749_3_alg».proof.Proof.K.Body
import proofs.«430516_j1580547968749_3_alg».proof.Proof.K.Split

/-! The run of the whole program: the host operations, the pipelined region with the patch-feature array read
    through two windows at once, and the two host operations after it.

    The region is entered with the three distinct buffers behind the four windows' arrays dealt to the windows
    (the patch-feature buffer in two half shares). At its exit the two halves are joined again, so that the two
    operations after the region run over every unscoped buffer held whole; they read the region's output array and
    write two buffers that bypass the region, and afterwards the patch-feature buffer is split in halves again and
    the arrays are handed back as the region left them. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The two host operations after the region, as a function of the region's result array: exchange the last
    two axes and split the pixel axis into rows and columns. -/
def tailOut (X : (⟨S4x4096x2, .f32⟩ : BufTy).Contents (Elt F)) : (⟨S4x2x64x64, .f32⟩ : BufTy).Contents (Elt F) :=
  shapeCast S4x2x64x64 (transpose S4x2x4096 [0, 2, 1] X transposes_S4x4096x2_S4x2x4096_0_2_1) shapeCasts_S4x2x4096_S4x2x64x64

/-- The core's buffer contents when the region is left: the output array at what the write-backs leave in it,
    every other buffer as the region found it. -/
def Wx (c : Dev nD) : Valuation τ sig (Elt F) :=
  Function.update (V0 m c) (Proc.devRef .tc main_v20) ((dats m 0 c).arrAt 3 cfg0.N)

/-- The same after the two host operations that follow the region, read at a TensorCore reference. -/
def Wt (c : Dev nD) (b : Ref sig .tc) : Buf (Elt F) ((c.tc : Thread nD τ).loc b) :=
  StableHlo.after hostOps1 (Wx m c) (Proc.devRef .tc b)

/-! ## The arrays at the region's exit, and every unscoped buffer held whole -/

/-- At the region's exit the three input windows hold their arrays as they found them (an input array is never
    written back), the patch-feature buffer in two halves; the output window holds the result array whole at what
    the write-backs left. -/
theorem arrays_N (c : Dev nD) :
    ((dats m 0 c).arrays ((dats m 0 c).arrAt · cfg0.N) : sProp 𝕄)
      = iprop(((c.tc : Thread nD τ).loc main_v13 ↦{fullShare.left} V m c main_v13) ∗ ((c.tc : Thread nD τ).loc main_v13 ↦{fullShare.right} V m c main_v13) ∗ ((c.tc : Thread nD τ).loc main_v19 ↦{fullShare} V m c main_v19) ∗ ((c.tc : Thread nD τ).loc main_v20 ↦{fullShare} (dats m 0 c).arrAt 3 cfg0.N)) := by
  unfold Dat.arrays
  rw [bigSep_W0, win_pt c 0, win_pt c 1, win_pt c 2, win_pt c 3, share0_0, share0_1, share0_2, share0_3]
  beta_reduce
  rw [(dats m 0 c).arrAt_in 0 (by decide), (dats m 0 c).arrAt_in 1 (by decide), (dats m 0 c).arrAt_in 2 (by decide), A_eq, A_eq, A_eq]

/-- Every unscoped buffer of the core held whole at a valuation: the three buffers behind the windows' arrays and
    the buffers that bypass the region. -/
theorem held_uc (c : Dev nD) (W : Valuation τ sig (Elt F)) :
    (StableHlo.held (c.tc : Thread nD τ) (Pipeline.ucRefs τ sig) W : sProp 𝕄)
      = iprop((((c.tc : Thread nD τ).loc main_v13 ↦{fullShare} W (Proc.devRef .tc main_v13)) ∗ ((c.tc : Thread nD τ).loc main_v19 ↦{fullShare} W (Proc.devRef .tc main_v19)) ∗ ((c.tc : Thread nD τ).loc main_v20 ↦{fullShare} W (Proc.devRef .tc main_v20)))
          ∗ Pipeline.unscopedRest spec0 c (fun b => W (Proc.devRef .tc b))) := by
  rw [← Pipeline.unscopedBufs_held, Pipeline.unscopedBufs_split₀ cfgs 0 winFacts₀0.arr_unscoped]
  unfold Pipeline.arrBufs
  rw [bigSep_eq_bigSepL_of_eq [main_v13, main_v19, main_v20] arrRefs_eq (by decide)]
  rfl

/-- The exit contents at the result array, and at every other buffer. -/
theorem Wx_v20 (c : Dev nD) : Wx m c (Proc.devRef .tc main_v20) = (dats m 0 c).arrAt 3 cfg0.N :=
  Function.update_self ..

theorem Wx_ne (c : Dev nD) (b : Ref sig .tc) (h : b ≠ main_v20) : Wx m c (Proc.devRef .tc b) = V m c b :=
  Function.update_of_ne (StableHlo.devRef_ne_of_ne h) ..

/-- The buffers that bypass the region hold at its exit what they held at its entry: the result array is not one
    of them. -/
theorem rest_Wx (c : Dev nD) :
    (Pipeline.unscopedRest spec0 c (fun b => Wx m c (Proc.devRef .tc b)) : sProp 𝕄) = Pipeline.unscopedRest spec0 c (V m c) := by
  unfold Pipeline.unscopedRest
  exact bigSep_congr fun b hb => by
    beta_reduce
    rw [Wx_ne m c b fun e => (Finset.mem_sdiff.mp hb).2 (e ▸ Finset.mem_image.mpr ⟨3, Finset.mem_univ _, rfl⟩)]

/-! ## The two operations after the region -/

/-- They touch unscoped buffers only, -/
theorem hostOps1_in : ∀ ops ∈ [hostOps1 (F := F)], ∀ op ∈ ops, op.bufs ⊆ Pipeline.ucRefs τ sig := by
  intro ops hops op hop
  rw [List.mem_singleton] at hops; subst hops
  exact Pipeline.sub_ucRefs op ((List.forall_iff_forall_mem.mp hostOps1_sub) op hop)

/-- and allocate nothing. -/
theorem hostOps1_fr : ∀ ops ∈ [hostOps1 (F := F)], ∀ op ∈ ops, op.fresh = ∅ := by
  intro ops hops op hop
  rw [List.mem_singleton] at hops; subst hops
  exact (List.forall_iff_forall_mem.mp hostOps1_fresh) op hop

/-- The two operations after the region write the two buffers of the result's rearrangement only. -/
theorem tail_keeps (b : Ref sig .tc) (h1 : b ≠ main_v21) (h2 : b ≠ main_v22) (W : Valuation τ sig (Elt F)) :
    StableHlo.after hostOps1 W (Proc.devRef .tc b) = W (Proc.devRef .tc b) :=
  StableHlo.after_of_forall_not_mem _ _ (List.forall_iff_forall_mem.mp (by
    simp only [hostOps1, List.Forall, StableHlo.unary_writes, StableHlo.reshape_writes, Finset.mem_singleton]
    exact ⟨StableHlo.devRef_ne_of_ne h1, StableHlo.devRef_ne_of_ne h2⟩))

/-- The continuation of the region: from the arrays at their final contents and the bypassing buffers at their entry
    contents, the two operations run and hand back the arrays unchanged and the bypassing buffers at the contents
    after the two operations. -/
theorem htail0 (c : Dev nD) (Q' : PUnit → sProp 𝕄) :
    iprop((iprop((dats m 0 c).arrays ((dats m 0 c).arrAt · cfg0.N) ∗ Pipeline.unscopedRest spec0 c (Wt m c)) -∗ Q' ⟨⟩)
        ∗ boundary (c.tc : Thread nD τ) ∗ (dats m 0 c).arrays ((dats m 0 c).arrAt · cfg0.N) ∗ Pipeline.unscopedRest spec0 c (V m c))
      ⊢ wp frame (wpE (Pipeline.defs pcfgs defs₀) (Variants.lift Variants.none) (c.tc : Thread nD τ) none) Set.univ
          (Pipeline.chain [StableHlo.seq hostOps1]) Q' := by
  have hW : (StableHlo.held (c.tc : Thread nD τ) (Pipeline.ucRefs τ sig) (Wx m c) : sProp 𝕄)
      = iprop((((c.tc : Thread nD τ).loc main_v13 ↦{fullShare} V m c main_v13) ∗ ((c.tc : Thread nD τ).loc main_v19 ↦{fullShare} V m c main_v19) ∗ ((c.tc : Thread nD τ).loc main_v20 ↦{fullShare} (dats m 0 c).arrAt 3 cfg0.N))
          ∗ Pipeline.unscopedRest spec0 c (V m c)) := by
    rw [held_uc, rest_Wx, Wx_ne m c main_v13 (by decide), Wx_ne m c main_v19 (by decide), Wx_v20]
  have hW' : (StableHlo.held (c.tc : Thread nD τ) (Pipeline.ucRefs τ sig) (StableHlo.after [hostOps1].flatten (Wx m c)) : sProp 𝕄)
      = iprop((((c.tc : Thread nD τ).loc main_v13 ↦{fullShare} V m c main_v13) ∗ ((c.tc : Thread nD τ).loc main_v19 ↦{fullShare} V m c main_v19) ∗ ((c.tc : Thread nD τ).loc main_v20 ↦{fullShare} (dats m 0 c).arrAt 3 cfg0.N))
          ∗ Pipeline.unscopedRest spec0 c (Wt m c)) := by
    rw [held_uc, List.flatten_cons, List.flatten_nil, List.append_nil,
      tail_keeps main_v13 (by decide) (by decide), tail_keeps main_v19 (by decide) (by decide), tail_keeps main_v20 (by decide) (by decide),
      Wx_ne m c main_v13 (by decide), Wx_ne m c main_v19 (by decide), Wx_v20]
    rfl
  rw [arrays_N, show [StableHlo.seq (hostOps1 (F := F))] = [hostOps1].map StableHlo.seq ++ [] from rfl]
  iintro ⟨Hk, Hb, ⟨Hl, Hr, H19, H20⟩, HZ⟩
  ihave H13 := (pointsTo_share (PosShare.mem_left_op_right fullShare)).2 $$ [Hl Hr]
  · isplitl [Hl] <;> iassumption
  iapply (Pipeline.wp_seqs_then pcfgs defs₀ Variants.none c (Pipeline.ucRefs τ sig) [] [hostOps1] hostOps1_in hostOps1_fr (Wx m c)) $$ [Hb H13 H19 H20 HZ]
  · rw [hW]
    isplitl [Hb]; · iexact Hb
    isplitr [HZ]
    · isplitl [H13]; · iexact H13
      isplitl [H19] <;> iassumption
    · iexact HZ
  iintro Hb
  rw [Pipeline.chain_nil, wp_pure, hW']
  imodintro
  iapply Hk
  icases Hb with ⟨-, ⟨H13, H19, H20⟩, HZ⟩
  ihave H := (pointsTo_share (PosShare.mem_left_op_right fullShare)).1 $$ H13
  icases H with ⟨Hl, Hr⟩
  isplitr [HZ]
  · isplitl [Hl]; · iexact Hl
    isplitl [Hr]; · iexact Hr
    isplitl [H19] <;> iassumption
  · iexact HZ

/-! ## What the buffers hold at the end -/

/-- After the two operations the result buffer holds the rearrangement of the region's output array. -/
theorem Wt_v22 (c : Dev nD) : Wt m c main_v22 = tailOut ((dats m 0 c).arrAt 3 cfg0.N) := by
  unfold Wt tailOut
  dsimp only [hostOps1]
  open Idealize.ShloMosaic.StableHlo in after_results
  rw [Wx_v20]
  rfl

/-- No host operation, before or after the region, writes an argument array. -/
theorem Wt_arg0 (c : Dev nD) : Wt m c main_arg0 = m ((c.tc : Thread nD τ).loc main_arg0) := by
  unfold Wt
  rw [tail_keeps main_arg0 (by decide) (by decide), Wx_ne m c main_arg0 (by decide)]
  dsimp only [V, V0]
  simp only [hostOps0, hostOps0_1, hostOps0_2, List.flatten_cons, List.flatten_nil, List.append_nil, List.cons_append, List.nil_append]
  open Idealize.ShloMosaic.StableHlo in after_results

theorem Wt_arg1 (c : Dev nD) : Wt m c main_arg1 = m ((c.tc : Thread nD τ).loc main_arg1) := by
  unfold Wt
  rw [tail_keeps main_arg1 (by decide) (by decide), Wx_ne m c main_arg1 (by decide)]
  dsimp only [V, V0]
  simp only [hostOps0, hostOps0_1, hostOps0_2, List.flatten_cons, List.flatten_nil, List.append_nil, List.cons_append, List.nil_append]
  open Idealize.ShloMosaic.StableHlo in after_results

/-! ## The run -/

/-- Every weakly fair execution of @main terminates without a fault; the result array ends at the tail's
    function of what the pipeline's write-backs leave in the region's output array, and the two argument arrays
    end as they began. -/
theorem run_main : θ_run defs (onTc (τ := τ) (main (F := F))) (s₀ m ρ) (fun r => ∀ c : Dev nD,
      r.2.mem ((c.tc : Thread nD τ).loc main_v22) = tailOut ((dats m 0 c).arrAt 3 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  unfold defs
  exact Pipeline.θ_run_region_pf_tail pcfgs (fun q => (cfgs q).toPCfg_adm) (dats m) () cellOf_inj 0 winFacts₀0
    (Pipeline.OwnSemFacts.none spec0) (Pipeline.PreFacts.none spec0) emb₁ defs₀ Variants.none m ρ main
    (fun _ => Pipeline.chain [StableHlo.seq hostOps1])
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRest (Ix := Unit) (Name := ℕ) (U := UR sig nD τ) (Lvl := ℕ) spec0 c (V m c))
    (Z' := fun c => Pipeline.unscopedRest (Ix := Unit) (Name := ℕ) (U := UR sig nD τ) (Lvl := ℕ) spec0 c (Wt m c))
    (hX := fun c => by
      rw [Pipeline.unscopedRestP_none]
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := fun c Q' => htail0 m c Q')
    (QY := fun c s => ∀ b ∈ Pipeline.restRefs sig spec0, s.mem ((c.tc : Thread nD τ).loc b) = Wt m c b)
    (hY := fun c s' => by
      iintro ⟨-, HU, HSI⟩
      unfold Pipeline.unscopedRest
      imodintro
      iapply (pointsTo_read_all (Pipeline.restRefs sig spec0) (fun b => (c.tc : Thread nD τ).loc b) (Wt m c) s')
      isplitl [HU] <;> iassumption)
    (hQ := fun s h c => by
      obtain ⟨-, -, hq⟩ := h c
      exact ⟨(hq main_v22 (Pipeline.mem_restRefs_of (win := spec0) main_v22 (by decide) (by decide))).trans (Wt_v22 m c),
        (hq main_arg0 (Pipeline.mem_restRefs_of (win := spec0) main_arg0 (by decide) (by decide))).trans (Wt_arg0 m c),
        (hq main_arg1 (Pipeline.mem_restRefs_of (win := spec0) main_arg1 (by decide) (by decide))).trans (Wt_arg1 m c)⟩)

end Cert.Kernel.Hand

end
-- ==== Proof.RefValue.lean ====
import proofs.«430516_j1580547968749_3_alg».proof.Proof.Gen.ReferenceIdeal.Read
import proofs.«430516_j1580547968749_3_alg».proof.Proof.Spec
import Idealize.ShloMosaic.Lib.ValueIdx
import Idealize.ShloMosaic.PureOps.Ideal.Laws

/-! The reference program's result, read one operation at a time down to the two argument arrays, is the
    specification's function `Cert.Spec.G`. -/

noncomputable section

open scoped BigOperators

namespace Cert.ReferenceIdeal.RefValue

open Idealize.ShloMosaic Idealize.ShloMosaic.ValueIdx Cert.ReferenceIdeal Cert.ReferenceIdeal.Read

/-! ## Indices from their coordinates -/

/-- A rank-2 index with the given coordinate values is `ix2` of them. -/
theorem ix2_ext {n0 n1 : Nat} (i : (⟨2, ![n0, n1]⟩ : Shape).Idx) (a : Fin n0) (b : Fin n1)
    (h0 : (i 0).val = a.val) (h1 : (i 1).val = b.val) : i = ix2 a b :=
  funext fun d => Fin.ext (by match d with | ⟨0, _⟩ => exact h0 | ⟨1, _⟩ => exact h1)

/-- A rank-3 index with the given coordinate values is `ix3` of them. -/
theorem ix3_ext {n0 n1 n2 : Nat} (i : (⟨3, ![n0, n1, n2]⟩ : Shape).Idx) (a : Fin n0) (b : Fin n1) (c : Fin n2)
    (h0 : (i 0).val = a.val) (h1 : (i 1).val = b.val) (h2 : (i 2).val = c.val) : i = ix3 a b c :=
  funext fun d => Fin.ext (by match d with | ⟨0, _⟩ => exact h0 | ⟨1, _⟩ => exact h1 | ⟨2, _⟩ => exact h2)

/-- A rank-4 index with the given coordinate values is `ix4` of them. -/
theorem ix4_ext {n0 n1 n2 n3 : Nat} (i : (⟨4, ![n0, n1, n2, n3]⟩ : Shape).Idx) (a : Fin n0) (b : Fin n1) (c : Fin n2)
    (d : Fin n3) (h0 : (i 0).val = a.val) (h1 : (i 1).val = b.val) (h2 : (i 2).val = c.val) (h3 : (i 3).val = d.val) :
    i = ix4 a b c d :=
  funext fun e => Fin.ext (by
    match e with | ⟨0, _⟩ => exact h0 | ⟨1, _⟩ => exact h1 | ⟨2, _⟩ => exact h2 | ⟨3, _⟩ => exact h3)

/-! ## The values: channel `1 + c` of `x0[b]` at pixel `n` -/

/-- The sliced, flattened and transposed first argument at `(b, n, c)` is channel `1 + c` of `x0[b]` at pixel `n`. -/
theorem v2_apply (x0 : (⟨S4x3x64x64, .f32⟩ : BufTy).Contents (Elt Ideal)) (b : Fin 4) (n : Fin 4096) (c : Fin 2) :
    val_main_v2 (F := Ideal) x0 (ix3 b n c) = Cert.Spec.xab x0 b n c := by
  have hb := b.isLt; have hn := n.isLt; have hc := c.isLt
  rw [val_main_v2_apply, val_main_v1_apply, val_main_v0_apply]
  unfold Cert.Spec.xab
  refine congrArg x0 (ix4_ext _ _ _ _ _ ?_ ?_ ?_ ?_)
  · show ((b.val * 2 + c.val) * 4096 + n.val) / 8192 = b.val; omega
  · show 1 + ((b.val * 2 + c.val) * 4096 + n.val) / 4096 % 2 = 1 + c.val; omega
  · show ((b.val * 2 + c.val) * 4096 + n.val) / 64 % 64 = n.val / 64; omega
  · show ((b.val * 2 + c.val) * 4096 + n.val) % 64 = n.val % 64; omega

/-! ## The zero-padded feature map -/

/-- The padding value, the signed integer `0` converted, is the extended real `0`. -/
theorem padv_eq (i : S_.Idx) : val_main_call0_v0 (F := Ideal) i = 0 := by
  show (((0#32 : BitVec 32).toInt : ℝ) : EReal) = 0
  simp

/-- The padded feature map at padded coordinates `(y, x)`: the map at `(y - 1, x - 1)` inside the image, zero on the border. -/
theorem v3_apply (x1 : (⟨S4x64x64x64, .f32⟩ : BufTy).Contents (Elt Ideal)) (b : Fin 4) (ch : Fin 64) (y x : Fin 66) :
    val_main_v3 (F := Ideal) x1 (ix4 b ch y x) = Cert.Spec.padF x1 b ch y x := by
  have hb := b.isLt; have hch := ch.isLt; have hy := y.isLt; have hx := x.isLt
  unfold val_main_v3 pad Cert.Spec.padF
  by_cases hc : 1 ≤ y.val ∧ y.val ≤ 64 ∧ 1 ≤ x.val ∧ x.val ≤ 64
  · rw [dif_pos hc, dif_pos (by
      intro a
      match a with
      | ⟨0, _⟩ => show 0 ≤ b.val ∧ (b.val - 0) % (0 + 1) = 0 ∧ (b.val - 0) / (0 + 1) < 4; omega
      | ⟨1, _⟩ => show 0 ≤ ch.val ∧ (ch.val - 0) % (0 + 1) = 0 ∧ (ch.val - 0) / (0 + 1) < 64; omega
      | ⟨2, _⟩ => show 1 ≤ y.val ∧ (y.val - 1) % (0 + 1) = 0 ∧ (y.val - 1) / (0 + 1) < 64; omega
      | ⟨3, _⟩ => show 1 ≤ x.val ∧ (x.val - 1) % (0 + 1) = 0 ∧ (x.val - 1) / (0 + 1) < 64; omega)]
    refine congrArg x1 (ix4_ext _ _ _ _ _ ?_ ?_ ?_ ?_)
    · show (b.val - 0) / (0 + 1) = b.val; omega
    · show (ch.val - 0) / (0 + 1) = ch.val; omega
    · show (y.val - 1) / (0 + 1) = y.val - 1; omega
    · show (x.val - 1) / (0 + 1) = x.val - 1; omega
  · rw [dif_neg hc, dif_neg (by
      intro hall
      apply hc
      have g2 := hall ⟨2, by decide⟩
      have g3 := hall ⟨3, by decide⟩
      have h2 : 1 ≤ y.val ∧ (y.val - 1) % (0 + 1) = 0 ∧ (y.val - 1) / (0 + 1) < 64 := g2
      have h3 : 1 ≤ x.val ∧ (x.val - 1) % (0 + 1) = 0 ∧ (x.val - 1) / (0 + 1) < 64 := g3
      omega)]
    exact padv_eq _

/-- The padded feature map at any index, by its coordinate values. -/
theorem v3_eq (x1 : (⟨S4x64x64x64, .f32⟩ : BufTy).Contents (Elt Ideal)) (j : S4x64x66x66.Idx) (b : Fin 4) (ch : Fin 64)
    (y x : Fin 66) (h0 : (j 0).val = b.val) (h1 : (j 1).val = ch.val) (h2 : (j 2).val = y.val) (h3 : (j 3).val = x.val) :
    val_main_v3 (F := Ideal) x1 j = Cert.Spec.padF x1 b ch y x := by
  rw [ix4_ext j b ch y x h0 h1 h2 h3]
  exact v3_apply x1 b ch y x

/-! ## The nine shifted copies, joined along the channel axis -/

/-- Entry `k` of the joined axis comes from copy `k / 64` — the padded map shifted by `(k / 64 / 3, k / 64 % 3)` — at
    channel `k % 64`. -/
theorem v13_apply (x1 : (⟨S4x64x64x64, .f32⟩ : BufTy).Contents (Elt Ideal)) (b : Fin 4) (k : Fin 576) (h w : Fin 64) :
    val_main_v13 (F := Ideal) x1 (ix4 b k h w)
      = Cert.Spec.padF x1 b ⟨k.val % 64, Nat.mod_lt _ (by decide)⟩
          ⟨h.val + k.val / 64 / 3, by have := k.isLt; have := h.isLt; omega⟩
          ⟨w.val + k.val / 64 % 3, by have := k.isLt; have := w.isLt; omega⟩ := by
  have hb := b.isLt; have hk := k.isLt; have hh := h.isLt; have hw := w.isLt
  obtain ⟨m, hm⟩ : ∃ m, k.val / 64 = m := ⟨_, rfl⟩
  have hm9 : m < 9 := by omega
  unfold val_main_v13
  interval_cases m
  · refine (concatenate_apply_piece _ _ _ (ix4 b k h w) 0 (by show 0 < 9; omega) S4x64x64x64 (val_main_v4 (F := Ideal) x1) rfl rfl 0
      rfl (ix4 b ⟨k.val - 0, by omega⟩ h w)
      (fun d hd => by
        match d with
        | ⟨0, _⟩ => rfl
        | ⟨1, _⟩ => exact absurd rfl hd
        | ⟨2, _⟩ => rfl
        | ⟨3, _⟩ => rfl)
      (by show 0 + (k.val - 0) = k.val; omega)).trans ?_
    rw [val_main_v4_apply]
    refine v3_eq x1 _ b _ _ _ rfl ?_ ?_ ?_
    · show k.val - 0 = k.val % 64; omega
    · show h.val = h.val + k.val / 64 / 3; omega
    · show w.val = w.val + k.val / 64 % 3; omega
  · refine (concatenate_apply_piece _ _ _ (ix4 b k h w) 1 (by show 1 < 9; omega) S4x64x64x64 (val_main_v5 (F := Ideal) x1) rfl rfl 64
      rfl (ix4 b ⟨k.val - 64, by omega⟩ h w)
      (fun d hd => by
        match d with
        | ⟨0, _⟩ => rfl
        | ⟨1, _⟩ => exact absurd rfl hd
        | ⟨2, _⟩ => rfl
        | ⟨3, _⟩ => rfl)
      (by show 64 + (k.val - 64) = k.val; omega)).trans ?_
    rw [val_main_v5_apply]
    refine v3_eq x1 _ b _ _ _ rfl ?_ ?_ ?_
    · show k.val - 64 = k.val % 64; omega
    · show h.val = h.val + k.val / 64 / 3; omega
    · show 1 + w.val = w.val + k.val / 64 % 3; omega
  · refine (concatenate_apply_piece _ _ _ (ix4 b k h w) 2 (by show 2 < 9; omega) S4x64x64x64 (val_main_v6 (F := Ideal) x1) rfl rfl 128
      rfl (ix4 b ⟨k.val - 128, by omega⟩ h w)
      (fun d hd => by
        match d with
        | ⟨0, _⟩ => rfl
        | ⟨1, _⟩ => exact absurd rfl hd
        | ⟨2, _⟩ => rfl
        | ⟨3, _⟩ => rfl)
      (by show 128 + (k.val - 128) = k.val; omega)).trans ?_
    rw [val_main_v6_apply]
    refine v3_eq x1 _ b _ _ _ rfl ?_ ?_ ?_
    · show k.val - 128 = k.val % 64; omega
    · show h.val = h.val + k.val / 64 / 3; omega
    · show 2 + w.val = w.val + k.val / 64 % 3; omega
  · refine (concatenate_apply_piece _ _ _ (ix4 b k h w) 3 (by show 3 < 9; omega) S4x64x64x64 (val_main_v7 (F := Ideal) x1) rfl rfl 192
      rfl (ix4 b ⟨k.val - 192, by omega⟩ h w)
      (fun d hd => by
        match d with
        | ⟨0, _⟩ => rfl
        | ⟨1, _⟩ => exact absurd rfl hd
        | ⟨2, _⟩ => rfl
        | ⟨3, _⟩ => rfl)
      (by show 192 + (k.val - 192) = k.val; omega)).trans ?_
    rw [val_main_v7_apply]
    refine v3_eq x1 _ b _ _ _ rfl ?_ ?_ ?_
    · show k.val - 192 = k.val % 64; omega
    · show 1 + h.val = h.val + k.val / 64 / 3; omega
    · show w.val = w.val + k.val / 64 % 3; omega
  · refine (concatenate_apply_piece _ _ _ (ix4 b k h w) 4 (by show 4 < 9; omega) S4x64x64x64 (val_main_v8 (F := Ideal) x1) rfl rfl 256
      rfl (ix4 b ⟨k.val - 256, by omega⟩ h w)
      (fun d hd => by
        match d with
        | ⟨0, _⟩ => rfl
        | ⟨1, _⟩ => exact absurd rfl hd
        | ⟨2, _⟩ => rfl
        | ⟨3, _⟩ => rfl)
      (by show 256 + (k.val - 256) = k.val; omega)).trans ?_
    rw [val_main_v8_apply]
    refine v3_eq x1 _ b _ _ _ rfl ?_ ?_ ?_
    · show k.val - 256 = k.val % 64; omega
    · show 1 + h.val = h.val + k.val / 64 / 3; omega
    · show 1 + w.val = w.val + k.val / 64 % 3; omega
  · refine (concatenate_apply_piece _ _ _ (ix4 b k h w) 5 (by show 5 < 9; omega) S4x64x64x64 (val_main_v9 (F := Ideal) x1) rfl rfl 320
      rfl (ix4 b ⟨k.val - 320, by omega⟩ h w)
      (fun d hd => by
        match d with
        | ⟨0, _⟩ => rfl
        | ⟨1, _⟩ => exact absurd rfl hd
        | ⟨2, _⟩ => rfl
        | ⟨3, _⟩ => rfl)
      (by show 320 + (k.val - 320) = k.val; omega)).trans ?_
    rw [val_main_v9_apply]
    refine v3_eq x1 _ b _ _ _ rfl ?_ ?_ ?_
    · show k.val - 320 = k.val % 64; omega
    · show 1 + h.val = h.val + k.val / 64 / 3; omega
    · show 2 + w.val = w.val + k.val / 64 % 3; omega
  · refine (concatenate_apply_piece _ _ _ (ix4 b k h w) 6 (by show 6 < 9; omega) S4x64x64x64 (val_main_v10 (F := Ideal) x1) rfl rfl 384
      rfl (ix4 b ⟨k.val - 384, by omega⟩ h w)
      (fun d hd => by
        match d with
        | ⟨0, _⟩ => rfl
        | ⟨1, _⟩ => exact absurd rfl hd
        | ⟨2, _⟩ => rfl
        | ⟨3, _⟩ => rfl)
      (by show 384 + (k.val - 384) = k.val; omega)).trans ?_
    rw [val_main_v10_apply]
    refine v3_eq x1 _ b _ _ _ rfl ?_ ?_ ?_
    · show k.val - 384 = k.val % 64; omega
    · show 2 + h.val = h.val + k.val / 64 / 3; omega
    · show w.val = w.val + k.val / 64 % 3; omega
  · refine (concatenate_apply_piece _ _ _ (ix4 b k h w) 7 (by show 7 < 9; omega) S4x64x64x64 (val_main_v11 (F := Ideal) x1) rfl rfl 448
      rfl (ix4 b ⟨k.val - 448, by omega⟩ h w)
      (fun d hd => by
        match d with
        | ⟨0, _⟩ => rfl
        | ⟨1, _⟩ => exact absurd rfl hd
        | ⟨2, _⟩ => rfl
        | ⟨3, _⟩ => rfl)
      (by show 448 + (k.val - 448) = k.val; omega)).trans ?_
    rw [val_main_v11_apply]
    refine v3_eq x1 _ b _ _ _ rfl ?_ ?_ ?_
    · show k.val - 448 = k.val % 64; omega
    · show 2 + h.val = h.val + k.val / 64 / 3; omega
    · show 1 + w.val = w.val + k.val / 64 % 3; omega
  · refine (concatenate_apply_piece _ _ _ (ix4 b k h w) 8 (by show 8 < 9; omega) S4x64x64x64 (val_main_v12 (F := Ideal) x1) rfl rfl 512
      rfl (ix4 b ⟨k.val - 512, by omega⟩ h w)
      (fun d hd => by
        match d with
        | ⟨0, _⟩ => rfl
        | ⟨1, _⟩ => exact absurd rfl hd
        | ⟨2, _⟩ => rfl
        | ⟨3, _⟩ => rfl)
      (by show 512 + (k.val - 512) = k.val; omega)).trans ?_
    rw [val_main_v12_apply]
    refine v3_eq x1 _ b _ _ _ rfl ?_ ?_ ?_
    · show k.val - 512 = k.val % 64; omega
    · show 2 + h.val = h.val + k.val / 64 / 3; omega
    · show 2 + w.val = w.val + k.val / 64 % 3; omega

/-! ## The neighbourhoods, their inner products and the scores -/

/-- The flattened joined array at `(b, k, p)` is entry `k` of pixel `p`'s neighbourhood. -/
theorem v14_apply (x1 : (⟨S4x64x64x64, .f32⟩ : BufTy).Contents (Elt Ideal)) (b : Fin 4) (k : Fin 576) (p : Fin 4096) :
    val_main_v14 (F := Ideal) x1 (ix3 b k p) = Cert.Spec.lf x1 b k p := by
  have hb := b.isLt; have hk := k.isLt; have hp := p.isLt
  rw [val_main_v14_apply]
  have e : idx_main_v14 (ix3 b k p)
      = ix4 b k ⟨p.val / 64, by omega⟩ ⟨p.val % 64, Nat.mod_lt _ (by decide)⟩ := by
    refine ix4_ext _ _ _ _ _ ?_ ?_ ?_ ?_
    · show ((b.val * 576 + k.val) * 4096 + p.val) / 2359296 = b.val; omega
    · show ((b.val * 576 + k.val) * 4096 + p.val) / 4096 % 576 = k.val; omega
    · show ((b.val * 576 + k.val) * 4096 + p.val) / 64 % 64 = p.val / 64; omega
    · show ((b.val * 576 + k.val) * 4096 + p.val) % 64 = p.val % 64; omega
  rw [e, v13_apply]
  rfl

/-- The contraction over the 576 entries is the inner product of the two pixels' neighbourhoods. -/
theorem v15_apply (x1 : (⟨S4x64x64x64, .f32⟩ : BufTy).Contents (Elt Ideal)) (b : Fin 4) (p n : Fin 4096) :
    val_main_v15 (F := Ideal) x1 (ix3 b p n) = Cert.Spec.corr x1 b p n := by
  rw [val_main_v15_apply]
  unfold Cert.Spec.corr
  refine Finset.sum_congr rfl fun k _ => ?_
  rw [ix3_ext (lidx_main_v15 (ix3 b p n) k) b k p rfl rfl rfl, ix3_ext (ridx_main_v15 (ix3 b p n) k) b k n rfl rfl rfl,
    v14_apply, v14_apply]

/-- The broadcast constant is the temperature. -/
theorem v16_apply (i : S4x4096x4096.Idx) : val_main_v16 (F := Ideal) i = Cert.Spec.α := by
  rw [val_main_v16_apply, val_main_cst_apply]
  rfl

/-- The quotient is the score. -/
theorem v17_apply (x1 : (⟨S4x64x64x64, .f32⟩ : BufTy).Contents (Elt Ideal)) (b : Fin 4) (p n : Fin 4096) :
    val_main_v17 (F := Ideal) x1 (ix3 b p n) = Cert.Spec.sc x1 b p n := by
  rw [val_main_v17_apply, v15_apply, v16_apply]
  rfl

/-! ## The row's maximum -/

/-- The 32-bit pattern of `-∞` denotes the least extended real. -/
theorem ninf_eq : Ideal.ofBits .f32 0xFF800000#32 = (⊥ : EReal) := by
  simp [Ideal.ofBits, Ideal.ieee]

/-- The maximum-reduction over the last axis, from `-∞`, is the supremum of the row's scores. -/
theorem v18_apply (x1 : (⟨S4x64x64x64, .f32⟩ : BufTy).Contents (Elt Ideal)) (b : Fin 4) (p : Fin 4096) :
    val_main_v18 (F := Ideal) x1 (ix2 b p) = Cert.Spec.rowmax x1 b p := by
  unfold val_main_v18
  have hred : S4x4096x4096.Reduces [2] S4x4096 := by decide
  rw [Host.reduce_eq_fold_single FloatOps.maximumf _ _ Gen.reducesTo_S4x4096x4096_S4x4096_d2 hred Gen.h_S_]
  have hf : (val_main_v17 (F := Ideal) x1 ∘ hred.lift (ix2 b p)) = fun n : Fin 4096 => Cert.Spec.sc x1 b p n :=
    funext fun (n : Fin 4096) => by
      show val_main_v17 (F := Ideal) x1 (hred.lift (ix2 b p) n) = Cert.Spec.sc x1 b p n
      have e : hred.lift (ix2 b p) n = ix3 b p n := ix3_ext _ b p n rfl rfl rfl
      rw [e]
      exact v17_apply x1 b p n
  have hi : val_main_cst_0 (F := Ideal) (Shape.Idx.first Gen.h_S_) = (⊥ : EReal) := by
    rw [val_main_cst_0_apply]; exact ninf_eq
  rw [hi]
  unfold Cert.Spec.rowmax
  exact congrArg (fun f => Finset.fold max (⊥ : EReal) f (Finset.univ : Finset (Fin 4096))) hf

/-- The maximum with the `-∞` splat changes nothing. -/
theorem v20_apply (x1 : (⟨S4x64x64x64, .f32⟩ : BufTy).Contents (Elt Ideal)) (b : Fin 4) (p : Fin 4096) :
    val_main_v20 (F := Ideal) x1 (ix2 b p) = Cert.Spec.rowmax x1 b p := by
  rw [val_main_v20_apply, val_main_v19_apply, val_main_cst_1_apply, v18_apply]
  show max (Ideal.ofBits .f32 0xFF800000#32) (Cert.Spec.rowmax x1 b p) = _
  rw [ninf_eq]
  exact max_bot_left _

/-- The row's maximum, broadcast back along the row. -/
theorem v22_apply (x1 : (⟨S4x64x64x64, .f32⟩ : BufTy).Contents (Elt Ideal)) (b : Fin 4) (p n : Fin 4096) :
    val_main_v22 (F := Ideal) x1 (ix3 b p n) = Cert.Spec.rowmax x1 b p := by
  rw [val_main_v22_apply, val_main_v21_apply,
    ix2_ext (idx_main_v21 (idx_main_v22 (ix3 b p n))) b p rfl rfl, v20_apply]

/-! ## The shifted exponentials, their sum and the weights -/

/-- The exponential of the shifted score. -/
theorem v24_apply (x1 : (⟨S4x64x64x64, .f32⟩ : BufTy).Contents (Elt Ideal)) (b : Fin 4) (p n : Fin 4096) :
    val_main_v24 (F := Ideal) x1 (ix3 b p n) = Cert.Spec.ex x1 b p n := by
  rw [val_main_v24_apply, val_main_v23_apply, v17_apply, v22_apply]
  rfl

/-- The row's normaliser. -/
theorem v25_apply (x1 : (⟨S4x64x64x64, .f32⟩ : BufTy).Contents (Elt Ideal)) (b : Fin 4) (p : Fin 4096) :
    val_main_v25 (F := Ideal) x1 (ix2 b p) = Cert.Spec.den x1 b p := by
  rw [val_main_v25_apply, val_main_cst_2_apply]
  unfold Cert.Spec.den
  show Ideal.ofBits .f32 0x00000000#32 + _ = _
  rw [Ideal.ofBits_zero_f32, zero_add]
  refine Finset.sum_congr rfl fun n _ => ?_
  rw [ix3_ext (idx_main_v25 (ix2 b p) n) b p n rfl rfl rfl, v24_apply]

/-- The normaliser, broadcast back along the row. -/
theorem v27_apply (x1 : (⟨S4x64x64x64, .f32⟩ : BufTy).Contents (Elt Ideal)) (b : Fin 4) (p n : Fin 4096) :
    val_main_v27 (F := Ideal) x1 (ix3 b p n) = Cert.Spec.den x1 b p := by
  rw [val_main_v27_apply, val_main_v26_apply,
    ix2_ext (idx_main_v26 (idx_main_v27 (ix3 b p n))) b p rfl rfl, v25_apply]

/-- The weight of pixel `n` for pixel `p`. -/
theorem v28_apply (x1 : (⟨S4x64x64x64, .f32⟩ : BufTy).Contents (Elt Ideal)) (b : Fin 4) (p n : Fin 4096) :
    val_main_v28 (F := Ideal) x1 (ix3 b p n) = Ideal.div (Cert.Spec.ex x1 b p n) (Cert.Spec.den x1 b p) := by
  rw [val_main_v28_apply, v24_apply, v27_apply]
  rfl

/-! ## The weighted average -/

/-- The contraction of the weights with the values. -/
theorem v29_apply (x0 : (⟨S4x3x64x64, .f32⟩ : BufTy).Contents (Elt Ideal)) (x1 : (⟨S4x64x64x64, .f32⟩ : BufTy).Contents (Elt Ideal))
    (b : Fin 4) (p : Fin 4096) (c : Fin 2) :
    val_main_v29 (F := Ideal) x0 x1 (ix3 b p c) = Cert.Spec.out x0 x1 b p c := by
  rw [val_main_v29_apply]
  unfold Cert.Spec.out
  refine Finset.sum_congr rfl fun n _ => ?_
  rw [ix3_ext (lidx_main_v29 (ix3 b p c) n) b p n rfl rfl rfl, ix3_ext (ridx_main_v29 (ix3 b p c) n) b n c rfl rfl rfl,
    v28_apply, v2_apply]

/-- The result array at `(b, c, h, w)` is the weighted average for pixel `64·h + w` and channel `c`. -/
theorem v31_apply (x0 : (⟨S4x3x64x64, .f32⟩ : BufTy).Contents (Elt Ideal)) (x1 : (⟨S4x64x64x64, .f32⟩ : BufTy).Contents (Elt Ideal))
    (b : Fin 4) (c : Fin 2) (h w : Fin 64) :
    val_main_v31 (F := Ideal) x0 x1 (ix4 b c h w)
      = Cert.Spec.out x0 x1 b ⟨h.val * 64 + w.val, by have := h.isLt; have := w.isLt; omega⟩ c := by
  have hb := b.isLt; have hc := c.isLt; have hh := h.isLt; have hw := w.isLt
  rw [val_main_v31_apply, val_main_v30_apply]
  have e : idx_main_v30 (idx_main_v31 (ix4 b c h w)) = ix3 b ⟨h.val * 64 + w.val, by omega⟩ c := by
    refine ix3_ext _ _ _ _ ?_ ?_ ?_
    · show (((b.val * 2 + c.val) * 64 + h.val) * 64 + w.val) / 8192 = b.val; omega
    · show (((b.val * 2 + c.val) * 64 + h.val) * 64 + w.val) % 4096 = h.val * 64 + w.val; omega
    · show (((b.val * 2 + c.val) * 64 + h.val) * 64 + w.val) / 4096 % 2 = c.val; omega
  rw [e, v29_apply]

/-- The reference's result array is `G` of its arguments. -/
theorem ref_eq (x0 : (⟨S4x3x64x64, .f32⟩ : BufTy).Contents (Elt Ideal)) (x1 : (⟨S4x64x64x64, .f32⟩ : BufTy).Contents (Elt Ideal)) :
    val_main_v31 (F := Ideal) x0 x1 = Cert.Spec.G x0 x1 := by
  funext i
  rw [eq_ix4 i]
  exact v31_apply x0 x1 (i 0) (i 1) (i 2) (i 3)

end Cert.ReferenceIdeal.RefValue

end
-- ==== Proof.lean ====
import proofs.«430516_j1580547968749_3_alg».proof.Defs
import proofs.«430516_j1580547968749_3_alg».proof.Proof.Gen.Kernel
import proofs.«430516_j1580547968749_3_alg».proof.Proof.Gen.Kernel.Skeleton
import proofs.«430516_j1580547968749_3_alg».proof.Proof.Gen.Kernel.Launch
import proofs.«430516_j1580547968749_3_alg».proof.Proof.Gen.Kernel.Points
import proofs.«430516_j1580547968749_3_alg».proof.Proof.Gen.KernelIdeal
import proofs.«430516_j1580547968749_3_alg».proof.Proof.Gen.KernelIdeal.Skeleton
import proofs.«430516_j1580547968749_3_alg».proof.Proof.Gen.KernelIdeal.Launch
import proofs.«430516_j1580547968749_3_alg».proof.Proof.Gen.KernelIdeal.Points
import proofs.«430516_j1580547968749_3_alg».proof.Proof.Gen.ReferenceIdeal
import proofs.«430516_j1580547968749_3_alg».proof.Proof.Gen.Pre_finite_inputs
import proofs.«430516_j1580547968749_3_alg».proof.Proof.Gen.ReferenceIdeal.Run
import proofs.«430516_j1580547968749_3_alg».proof.Proof.Gen.ReferenceIdeal.Read
import proofs.«430516_j1580547968749_3_alg».proof.Proof.KI.Launch
import proofs.«430516_j1580547968749_3_alg».proof.Proof.KI.Final
import proofs.«430516_j1580547968749_3_alg».proof.Proof.KI.FiniteArgs
import proofs.«430516_j1580547968749_3_alg».proof.Proof.K.Launch
import proofs.«430516_j1580547968749_3_alg».proof.Proof.RefValue
import Idealize.ShloMosaic.Adequacy
import Idealize.ShloMosaic.Init

/-!
  The certificate's five claims, assembled.

  Both printed kernels — the word-level one and its idealization — run to the end without a fault and leave their two
  arguments as they were: each frame is read off the run of the whole program (the host operations, the pipelined
  region, the two operations after it). The idealized reference does the same: its run, one host operation after the
  other. The one idealization entry, the temperature's reciprocal named `"inv_alpha"`, is its rule's statement at the
  certificate's table.

  At the extended reals the idealized kernel's result array and the idealized reference's are ONE function of the
  arguments, `Cert.Spec.G`: at `(b, c, h, w)` the average of channel `1 + c` of `x0[b]` over all pixels, weighted by
  the softmax, over the pixels, of the inner products of the 3 × 3 neighbourhoods of `x1[b]` divided by the
  temperature. The kernel's array is `G` because its online softmax over the two halves of the key axis is the softmax
  over the whole axis once every argument entry is a real number, which the precondition says; the reference's is
  `G` by reading it one operation at a time down to the arguments. Memories that agree on the arguments therefore end
  with equal results.
-/

noncomputable section

namespace Cert.Proof

open Idealize.ShloMosaic Idealize.SL.Sem Cert.Kernel

/-- The word-level kernel runs to the end without a fault and leaves both arguments as they were. -/
theorem frame_k : Cert.frame_Kernel (hKernel := Cert.Kernel.Gen.facts) (hPre_finite_inputs := Cert.Pre_finite_inputs.Gen.facts) :=
  fun m ρ _ => (θ_run (Cert.Kernel.defs (F := Bits)) _ _).mono (fun _ h c => ⟨(h c).2.1, (h c).2.2⟩)
    (Cert.Kernel.Hand.run_main (F := Bits) m ρ)

/-- The idealized kernel likewise. -/
theorem frame_ki : Cert.frame_KernelIdeal (hKernelIdeal := Cert.KernelIdeal.Gen.facts)
    (hPre_finite_inputs := Cert.Pre_finite_inputs.Gen.facts) :=
  fun m ρ _ => (θ_run (Cert.KernelIdeal.defs (F := Ideal)) _ _).mono (fun _ h c => ⟨(h c).2.1, (h c).2.2⟩)
    (Cert.KernelIdeal.Hand.run_main (F := Ideal) m ρ)

/-- The idealized reference runs to the end without a fault and leaves both arguments as they were. -/
theorem frame_ri : Cert.frame_ReferenceIdeal (hReferenceIdeal := Cert.ReferenceIdeal.Gen.facts)
    (hPre_finite_inputs := Cert.Pre_finite_inputs.Gen.facts) :=
  fun m ρ _ => (θ_run (Cert.ReferenceIdeal.defs (F := Ideal)) _ _).mono (fun _ h c => (h c).2)
    (Cert.ReferenceIdeal.Value.run (F := Ideal) m ρ)

/-- The one idealization entry: the certificate's table gives the name `"inv_alpha"` the rational
    `134217728 / 13421773` — the exact reciprocal of the number the temperature's pattern denotes, not the `10` that
    the constant's own pattern denotes — and at the extended reals the named constant is the table's value. -/
theorem preserves : Cert.preserves_Kernel_KernelIdeal :=
  IdealRules.named_const.statement Cert.KernelIdeal.κ "inv_alpha" .f32 0x41200000#32 ((134217728 / 13421773 : ℝ) : EReal) rfl

/-- At the extended reals, from memories that agree on the arguments, both programs end with the result array
    `Cert.Spec.G` of the arguments, and with the arguments as they were. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run (Cert.KernelIdeal.defs (F := Ideal)) _ _).mono
      (fun _ h c => ⟨(h c).1.trans (Cert.KernelIdeal.Final.final_eq m c
          (Cert.KernelIdeal.FiniteArgs.finite_args m hpre c).1 (Cert.KernelIdeal.FiniteArgs.finite_args m hpre c).2),
        (h c).2.1, (h c).2.2⟩)
      (Cert.KernelIdeal.Hand.run_main (F := Ideal) m ρ)
  · exact (θ_run (Cert.ReferenceIdeal.defs (F := Ideal)) _ _).mono
      (fun _ h c => ⟨(h c).1.trans ((Cert.ReferenceIdeal.Read.val_main_v31_eq m' c).trans
          ((Cert.ReferenceIdeal.RefValue.ref_eq _ _).trans (by rw [(hagree c).1, (hagree c).2]))), (h c).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
